-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S400000x64 : Shape := ⟨2, ![400000, 64]⟩
abbrev S2x400000 : Shape := ⟨2, ![2, 400000]⟩
abbrev S320x128 : Shape := ⟨2, ![320, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S400000x64 : S_.BroadcastsInDim S400000x64 (![] : Fin 0 → Fin S400000x64.rank)
  reducesTo_S400000x64_S_d0_1 : S400000x64.ReducesTo [0, 1] S_
  bcast_S_S320x128 : S_.BroadcastsInDim S320x128 (![] : Fin 0 → Fin S320x128.rank)
  reducesTo_S320x128_S_d0_1 : S320x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S2x400000 : S_.BroadcastsInDim S2x400000 (![] : Fin 0 → Fin S2x400000.rank)
  reducesTo_S2x400000_S_d0_1 : S2x400000.ReducesTo [0, 1] S_

variable [Facts]

def fn_part4 {F : FTy → Type} [FloatOps F] (main_arg2 : IVec S2x400000 32) (main_v63 : IVec S_ 1) (main_v67 : IVec S_ 1) : IVec S_ 1 :=
  let main_v68 : IVec S_ 1 := andi main_v63 main_v67
  let main_c_26 : IVec S_ 32 := constantI S_ 32 0#32
  let main_v69 : IVec S2x400000 32 := broadcastInDim S2x400000 ![] bcast_S_S2x400000 main_c_26
  let main_v70 : IVec S2x400000 1 := cmpi .sge main_arg2 main_v69
  let main_c_27 : IVec S_ 1 := constantI S_ 1 1#1
  let main_v71 : IVec S_ 1 := (fun x v => Host.reduce IntOp.andi x v reducesTo_S2x400000_S_d0_1 h_S_) main_v70 main_c_27
  let main_v72 : IVec S_ 1 := andi main_v68 main_v71
  let main_c_28 : IVec S_ 32 := constantI S_ 32 100000#32
  let main_v73 : IVec S2x400000 32 := broadcastInDim S2x400000 ![] bcast_S_S2x400000 main_c_28
  let main_v74 : IVec S2x400000 1 := cmpi .slt main_arg2 main_v73
  let main_c_29 : IVec S_ 1 := constantI S_ 1 1#1
  let main_v75 : IVec S_ 1 := (fun x v => Host.reduce IntOp.andi x v reducesTo_S2x400000_S_d0_1 h_S_) main_v74 main_c_29
  let main_v76 : IVec S_ 1 := andi main_v72 main_v75
  main_v76

def fn_part3 {F : FTy → Type} [FloatOps F] (main_arg2 : IVec S2x400000 32) (main_arg12 : FVec F S128 .f32) (main_arg13 : FVec F S128x128 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_v63 main_v67

def fn_part2 {F : FTy → Type} [FloatOps F] (main_arg2 : IVec S2x400000 32) (main_arg8 : FVec F S128 .f32) (main_arg9 : FVec F S256x128 .f32) (main_arg10 : FVec F S128 .f32) (main_arg11 : FVec F S128 .f32) (main_arg12 : FVec F S128 .f32) (main_arg13 : FVec F S128x128 .f32) (main_arg14 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg2 main_arg12 main_arg13 main_arg14 main_v48 main_v49 main_v50

def fn_part1 {F : FTy → Type} [FloatOps F] (main_arg2 : IVec S2x400000 32) (main_arg5 : FVec F S128 .f32) (main_arg6 : FVec F S128 .f32) (main_arg7 : FVec F S128x128 .f32) (main_arg8 : FVec F S128 .f32) (main_arg9 : FVec F S256x128 .f32) (main_arg10 : FVec F S128 .f32) (main_arg11 : FVec F S128 .f32) (main_arg12 : FVec F S128 .f32) (main_arg13 : FVec F S128x128 .f32) (main_arg14 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg8 main_arg9 main_arg10 main_arg11 main_arg12 main_arg13 main_arg14 main_v33

def fn {F : FTy → Type} [FloatOps F] (main_arg0 : FVec F S100000x128 .f32) (main_arg1 : FVec F S400000x64 .f32) (main_arg2 : IVec S2x400000 32) (main_arg3 : FVec F S320x128 .f32) (main_arg4 : FVec F S128 .f32) (main_arg5 : FVec F S128 .f32) (main_arg6 : FVec F S128 .f32) (main_arg7 : FVec F S128x128 .f32) (main_arg8 : FVec F S128 .f32) (main_arg9 : FVec F S256x128 .f32) (main_arg10 : FVec F S128 .f32) (main_arg11 : FVec F S128 .f32) (main_arg12 : FVec F S128 .f32) (main_arg13 : FVec F S128x128 .f32) (main_arg14 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S400000x64 .f32 := Host.absf main_arg1
  let main_cst_0 : FVec F S_ .f32 := constant S_ .f32 0x7F800000#32
  let main_v5 : FVec F S400000x64 .f32 := broadcastInDim S400000x64 ![] bcast_S_S400000x64 main_cst_0
  let main_v6 : IVec S400000x64 1 := cmpf .olt main_v4 main_v5
  let main_c_1 : IVec S_ 1 := constantI S_ 1 1#1
  let main_v7 : IVec S_ 1 := (fun x v => Host.reduce IntOp.andi x v reducesTo_S400000x64_S_d0_1 h_S_) main_v6 main_c_1
  let main_v8 : IVec S_ 1 := andi main_v3 main_v7
  let main_v9 : FVec F S320x128 .f32 := Host.absf main_arg3
  let main_cst_2 : FVec F S_ .f32 := constant S_ .f32 0x7F800000#32
  let main_v10 : FVec F S320x128 .f32 := broadcastInDim S320x128 ![] bcast_S_S320x128 main_cst_2
  let main_v11 : IVec S320x128 1 := cmpf .olt main_v9 main_v10
  let main_c_3 : IVec S_ 1 := constantI S_ 1 1#1
  let main_v12 : IVec S_ 1 := (fun x v => Host.reduce IntOp.andi x v reducesTo_S320x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_arg9 main_arg10 main_arg11 main_arg12 main_arg13 main_arg14 main_v13 main_v16
-- ==== Kernel.lean ====
abbrev S100000x128 : Shape := ⟨2, ![100000, 128]⟩
abbrev S400000x64 : Shape := ⟨2, ![400000, 64]⟩
abbrev S2x400000 : Shape := ⟨2, ![2, 400000]⟩
abbrev S320x128 : Shape := ⟨2, ![320, 128]⟩
abbrev S128 : Shape := ⟨1, ![128]⟩
abbrev S128x128 : Shape := ⟨2, ![128, 128]⟩
abbrev S256x128 : Shape := ⟨2, ![256, 128]⟩
abbrev S1x400000 : Shape := ⟨2, ![1, 400000]⟩
abbrev S400000 : Shape := ⟨1, ![400000]⟩
abbrev S800000 : Shape := ⟨1, ![800000]⟩
abbrev S800000x64 : Shape := ⟨2, ![800000, 64]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S802816x128 : Shape := ⟨2, ![802816, 128]⟩
abbrev S802816x64 : Shape := ⟨2, ![802816, 64]⟩
abbrev S64x128 : Shape := ⟨2, ![64, 128]⟩
abbrev S1x128 : Shape := ⟨2, ![1, 128]⟩
abbrev S4096x128 : Shape := ⟨2, ![4096, 128]⟩
abbrev S4096x64 : Shape := ⟨2, ![4096, 64]⟩
abbrev S4096 : Shape := ⟨1, ![4096]⟩
abbrev S4096x1 : Shape := ⟨2, ![4096, 1]⟩
abbrev S102400x128 : Shape := ⟨2, ![102400, 128]⟩

abbrev nBuf : Space → Nat
  | .hbm => 104
  | .vmem => 29
  | .smem => 0
  | _ => 0

abbrev bufTy : (tb : Table) → Fin (tcTables nBuf tb) → BufTy
  | .hbm, ⟨0, _⟩ => ⟨S100000x128, .f32⟩
  | .hbm, ⟨1, _⟩ => ⟨S400000x64, .f32⟩
  | .hbm, ⟨2, _⟩ => ⟨S2x400000, .i32⟩
  | .hbm, ⟨3, _⟩ => ⟨S320x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S1x400000, .i32⟩
  | .hbm, ⟨16, _⟩ => ⟨S400000, .i32⟩
  | .hbm, ⟨17, _⟩ => ⟨S1x400000, .i32⟩
  | .hbm, ⟨18, _⟩ => ⟨S400000, .i32⟩
  | .hbm, ⟨19, _⟩ => ⟨S800000, .i32⟩
  | .hbm, ⟨20, _⟩ => ⟨S800000, .i32⟩
  | .hbm, ⟨21, _⟩ => ⟨S800000x64, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S1, .i32⟩
  | .hbm, ⟨31, _⟩ => ⟨S_, .i32⟩
  | .hbm, ⟨32, _⟩ => ⟨S800000x1, .i32⟩
  | .hbm, ⟨33, _⟩ => ⟨S800000x1, .i1⟩
  | .hbm, ⟨34, _⟩ => ⟨S1x1, .i32⟩
  | .hbm, ⟨35, _⟩ => ⟨S800000x1, .i32⟩
  | .hbm, ⟨36, _⟩ => ⟨S800000x1, .i1⟩
  | .hbm, ⟨37, _⟩ => ⟨S800000x1, .i1⟩
  | .hbm, ⟨38, _⟩ => ⟨S_, .i1⟩
  | .hbm, ⟨39, _⟩ => ⟨S800000, .i1⟩
  | .hbm, ⟨40, _⟩ => ⟨S800000x128, .f32⟩
  | .hbm, ⟨41, _⟩ => ⟨S800000x128, .i1⟩
  | .hbm, ⟨42, _⟩ => ⟨S_, .f32⟩
  | .hbm, ⟨43, _⟩ => ⟨S800000x128, .f32⟩
  | .hbm, ⟨44, _⟩ => ⟨S800000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S1, .i32⟩
  | .hbm, ⟨54, _⟩ => ⟨S_, .i32⟩
  | .hbm, ⟨55, _⟩ => ⟨S800000x1, .i32⟩
  | .hbm, ⟨56, _⟩ => ⟨S800000x1, .i1⟩
  | .hbm, ⟨57, _⟩ => ⟨S1x1, .i32⟩
  | .hbm, ⟨58, _⟩ => ⟨S800000x1, .i32⟩
  | .hbm, ⟨59, _⟩ => ⟨S800000x1, .i1⟩
  | .hbm, ⟨60, _⟩ => ⟨S800000x1, .i1⟩
  | .hbm, ⟨61, _⟩ => ⟨S_, .i1⟩
  | .hbm, ⟨62, _⟩ => ⟨S800000, .i1⟩
  | .hbm, ⟨63, _⟩ => ⟨S800000x128, .f32⟩
  | .hbm, ⟨64, _⟩ => ⟨S800000x128, .i1⟩
  | .hbm, ⟨65, _⟩ => ⟨S_, .f32⟩
  | .hbm, ⟨66, _⟩ => ⟨S800000x128, .f32⟩
  | .hbm, ⟨67, _⟩ => ⟨S800000x128, .f32⟩
  | .hbm, ⟨68, _⟩ => ⟨S_, .i32⟩
  | .hbm, ⟨69, _⟩ => ⟨S_, .f32⟩
  | .hbm, ⟨70, _⟩ => ⟨S802816x128, .f32⟩
  | .hbm, ⟨71, _⟩ => ⟨S_, .i32⟩
  | .hbm, ⟨72, _⟩ => ⟨S_, .f32⟩
  | .hbm, ⟨73, _⟩ => ⟨S802816x128, .f32⟩
  | .hbm, ⟨74, _⟩ => ⟨S_, .i32⟩
  | .hbm, ⟨75, _⟩ => ⟨S_, .f32⟩
  | .hbm, ⟨76, _⟩ => ⟨S802816x64, .f32⟩
  | .hbm, ⟨77, _⟩ => ⟨S128x128, .f32⟩
  | .hbm, ⟨78, _⟩ => ⟨S128x128, .f32⟩
  | .hbm, ⟨79, _⟩ => ⟨S64x128, .f32⟩
  | .hbm, ⟨80, _⟩ => ⟨S1x128, .f32⟩
  | .hbm, ⟨81, _⟩ => ⟨S1x128, .f32⟩
  | .hbm, ⟨82, _⟩ => ⟨S1x128, .f32⟩
  | .hbm, ⟨83, _⟩ => ⟨S1x128, .f32⟩
  | .hbm, ⟨84, _⟩ => ⟨S802816x128, .f32⟩
  | .hbm, ⟨85, _⟩ => ⟨S800000x128, .f32⟩
  | .hbm, ⟨86, _⟩ => ⟨S_, .f32⟩
  | .hbm, ⟨87, _⟩ => ⟨S100000x128, .f32⟩
  | .hbm, ⟨88, _⟩ => ⟨S800000x1, .i32⟩
  | .hbm, ⟨89, _⟩ => ⟨S100000x128, .f32⟩
  | .hbm, ⟨90, _⟩ => ⟨S_, .i32⟩
  | .hbm, ⟨91, _⟩ => ⟨S_, .f32⟩
  | .hbm, ⟨92, _⟩ => ⟨S102400x128, .f32⟩
  | .hbm, ⟨93, _⟩ => ⟨S_, .i32⟩
  | .hbm, ⟨94, _⟩ => ⟨S_, .f32⟩
  | .hbm, ⟨95, _⟩ => ⟨S102400x128, .f32⟩
  | .hbm, ⟨96, _⟩ => ⟨S128x128, .f32⟩
  | .hbm, ⟨97, _⟩ => ⟨S128x128, .f32⟩
  | .hbm, ⟨98, _⟩ => ⟨S1x128, .f32⟩
  | .hbm, ⟨99, _⟩ => ⟨S1x128, .f32⟩
  | .hbm, ⟨100, _⟩ => ⟨S1x128, .f32⟩
  | .hbm, ⟨101, _⟩ => ⟨S1x128, .f32⟩
  | .hbm, ⟨102, _⟩ => ⟨S102400x128, .f32⟩
  | .hbm, ⟨103, _⟩ => ⟨S100000x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x64, .f32⟩
  | .local _ .vmem, ⟨5, _⟩ => ⟨S4096x64, .f32⟩
  | .local _ .vmem, ⟨6, _⟩ => ⟨S128x128, .f32⟩
  | .local _ .vmem, ⟨7, _⟩ => ⟨S128x128, .f32⟩
  | .local _ .vmem, ⟨8, _⟩ => ⟨S64x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | .local _ .vmem, ⟨20, _⟩ => ⟨S128x128, .f32⟩
  | .local _ .vmem, ⟨21, _⟩ => ⟨S128x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S128x128, .f32⟩
  | .local _ .vmem, ⟨26, _⟩ => ⟨S1x128, .f32⟩
  | .local _ .vmem, ⟨27, _⟩ => ⟨S4096x128, .f32⟩
  | .local _ .vmem, ⟨28, _⟩ => ⟨S4096x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v7 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_call1_cst : Ref sig .tc := ⟨.hbm, 65, rfl⟩
abbrev main_call1_v15 : Ref sig .tc := ⟨.hbm, 66, rfl⟩
abbrev main_v8 : Ref sig .tc := ⟨.hbm, 67, rfl⟩
abbrev main_c : Ref sig .tc := ⟨.hbm, 68, rfl⟩
abbrev main_call2_v0 : Ref sig .tc := ⟨.hbm, 69, rfl⟩
abbrev main_v9 : Ref sig .tc := ⟨.hbm, 70, rfl⟩
abbrev main_c_0 : Ref sig .tc := ⟨.hbm, 71, rfl⟩
abbrev main_call3_v0 : Ref sig .tc := ⟨.hbm, 72, rfl⟩
abbrev main_v10 : Ref sig .tc := ⟨.hbm, 73, rfl⟩
abbrev main_c_1 : Ref sig .tc := ⟨.hbm, 74, rfl⟩
abbrev main_call4_v0 : Ref sig .tc := ⟨.hbm, 75, rfl⟩
abbrev main_v11 : Ref sig .tc := ⟨.hbm, 76, rfl⟩
abbrev main_v12 : Ref sig .tc := ⟨.hbm, 77, rfl⟩
abbrev main_v13 : Ref sig .tc := ⟨.hbm, 78, rfl⟩
abbrev main_v14 : Ref sig .tc := ⟨.hbm, 79, rfl⟩
abbrev main_v15 : Ref sig .tc := ⟨.hbm, 80, rfl⟩
abbrev main_v16 : Ref sig .tc := ⟨.hbm, 81, rfl⟩
abbrev main_v17 : Ref sig .tc := ⟨.hbm, 82, rfl⟩
abbrev main_v18 : Ref sig .tc := ⟨.hbm, 83, rfl⟩
abbrev main_v19 : Ref sig .tc := ⟨.hbm, 84, rfl⟩
abbrev main_v20 : Ref sig .tc := ⟨.hbm, 85, rfl⟩
abbrev main_cst : Ref sig .tc := ⟨.hbm, 86, rfl⟩
abbrev main_v21 : Ref sig .tc := ⟨.hbm, 87, rfl⟩
abbrev main_v22 : Ref sig .tc := ⟨.hbm, 88, rfl⟩
abbrev main_v23 : Ref sig .tc := ⟨.hbm, 89, rfl⟩
abbrev main_c_2 : Ref sig .tc := ⟨.hbm, 90, rfl⟩
abbrev main_call5_v0 : Ref sig .tc := ⟨.hbm, 91, rfl⟩
abbrev main_v24 : Ref sig .tc := ⟨.hbm, 92, rfl⟩
abbrev main_c_3 : Ref sig .tc := ⟨.hbm, 93, rfl⟩
abbrev main_call6_v0 : Ref sig .tc := ⟨.hbm, 94, rfl⟩
abbrev main_v25 : Ref sig .tc := ⟨.hbm, 95, rfl⟩
abbrev main_v26 : Ref sig .tc := ⟨.hbm, 96, rfl⟩
abbrev main_v27 : Ref sig .tc := ⟨.hbm, 97, rfl⟩
abbrev main_v28 : Ref sig .tc := ⟨.hbm, 98, rfl⟩
abbrev main_v29 : Ref sig .tc := ⟨.hbm, 99, rfl⟩
abbrev main_v30 : Ref sig .tc := ⟨.hbm, 100, rfl⟩
abbrev main_v31 : Ref sig .tc := ⟨.hbm, 101, rfl⟩
abbrev main_v32 : Ref sig .tc := ⟨.hbm, 102, rfl⟩
abbrev main_v33 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg9_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem9_1 : DmaSem sig := 28

abbrev nD : Nat := 1
abbrev τ : Topo := Topo.v7x

variable {F : FTy → Type} [FloatOps F]

abbrev grid0 : Pipeline.Grid := ⟨1, ![196], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4096x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4096x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  concatenates_S400000_S400000_S800000_d0 : Shape.Concatenates [S400000, S400000] S800000 0
  concatenates_S400000x64_S400000x64_S800000x64_d0 : Shape.Concatenates [S400000x64, S400000x64] S800000x64 0
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  pads_S800000x128_S802816x128_028160_000 : S800000x128.Pads (![0, 0] : Fin 2 → Nat) ![2816, 0] ![0, 0] S802816x128
  pads_S800000x64_S802816x64_028160_000 : S800000x64.Pads (![0, 0] : Fin 2 → Nat) ![2816, 0] ![0, 0] S802816x64
  slices_S320x128_S128x128_0_0 : S320x128.Slices ![0, 0] S128x128
  slices_S320x128_S128x128_128_0 : S320x128.Slices ![128, 0] S128x128
  slices_S320x128_S64x128_256_0 : S320x128.Slices ![256, 0] S64x128
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  reduces_S4096x128_S4096 : S4096x128.Reduces [1] S4096
  shapeCasts_S4096_S4096x1 : S4096.ShapeCasts S4096x1
  broadcasts_S4096x1_S4096x128 : S4096x1.Broadcasts S4096x128
  slices_S802816x128_S800000x128_0_0 : S802816x128.Slices ![0, 0] S800000x128
  bcast_S_S100000x128 : S_.BroadcastsInDim S100000x128 (![] : Fin 0 → Fin S100000x128.rank)
  pads_S100000x128_S102400x128_024000_000 : S100000x128.Pads (![0, 0] : Fin 2 → Nat) ![2400, 0] ![0, 0] S102400x128
  slices_S256x128_S128x128_0_0 : S256x128.Slices ![0, 0] S128x128
  slices_S256x128_S128x128_128_0 : S256x128.Slices ![128, 0] S128x128
  slices_S102400x128_S100000x128_0_0 : S102400x128.Slices ![0, 0] S100000x128
  gather_S100000x128_S800000x1_S800000x128_1_0_n_n_0_1_1128_wf : GatherDims.WF S100000x128 S800000x1 S800000x128 [1] [0] [] [0] [] 1 ![1, 128]
  dot_S4096x128_S128x128_S4096x128_1_0_0_1_n_n_wf : DotDims.WF S4096x128 S128x128 S4096x128 [1] [0] [0] [1] [] []
  dot_S4096x64_S64x128_S4096x128_1_0_0_1_n_n_wf : DotDims.WF S4096x64 S64x128 S4096x128 [1] [0] [0] [1] [] []
  scatter_S100000x128_S800000x1_S800000x128_1_0_0_1_wf : ScatterDims.WF S100000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S802816x128.size a
  hwx0_0 : ∀ i : grid0.Coords, EltTy.bits .f32 = 32 ∨ (Rect.block (s := S802816x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S802816x128.size a
  hwx0_1 : ∀ i : grid0.Coords, EltTy.bits .f32 = 32 ∨ (Rect.block (s := S802816x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S802816x64.size a
  hwx0_2 : ∀ i : grid0.Coords, EltTy.bits .f32 = 32 ∨ (Rect.block (s := S802816x64) S4096x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4096x128.size a ≤ S802816x128.size a
  hwx0_11 : ∀ i : grid0.Coords, EltTy.bits .f32 = 32 ∨ (Rect.block (s := S802816x128) S4096x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S102400x128.size a
  hwx1_0 : ∀ i : grid1.Coords, EltTy.bits .f32 = 32 ∨ (Rect.block (s := S102400x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S102400x128.size a
  hwx1_1 : ∀ i : grid1.Coords, EltTy.bits .f32 = 32 ∨ (Rect.block (s := S102400x128) S4096x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4096x128.size a ≤ S102400x128.size a
  hwx1_9 : ∀ i : grid1.Coords, EltTy.bits .f32 = 32 ∨ (Rect.block (s := S102400x128) S4096x128.size (cc1_transform_9 i) (hinb1_9 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf

abbrev win0_0 : Pipeline.Window sig grid0 :=
  Pipeline.Window.ofSpec (Memref.whole main_v9) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v19) S4096x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v24) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg13) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v31) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v32) S4096x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x128 : Shape := ⟨2, ![100000, 128]⟩
abbrev S400000x64 : Shape := ⟨2, ![400000, 64]⟩
abbrev S2x400000 : Shape := ⟨2, ![2, 400000]⟩
abbrev S320x128 : Shape := ⟨2, ![320, 128]⟩
abbrev S128 : Shape := ⟨1, ![128]⟩
abbrev S128x128 : Shape := ⟨2, ![128, 128]⟩
abbrev S256x128 : Shape := ⟨2, ![256, 128]⟩
abbrev S1x400000 : Shape := ⟨2, ![1, 400000]⟩
abbrev S400000 : Shape := ⟨1, ![400000]⟩
abbrev S800000 : Shape := ⟨1, ![800000]⟩
abbrev S800000x64 : Shape := ⟨2, ![800000, 64]⟩
abbrev S_ : Shape := ⟨0, ![]⟩
abbrev S800000x1 : Shape := ⟨2, ![800000, 1]⟩
abbrev S800000x128 : Shape := ⟨2, ![800000, 128]⟩
abbrev S800000x320 : Shape := ⟨2, ![800000, 320]⟩
abbrev S1x128 : Shape := ⟨2, ![1, 128]⟩
abbrev S100000x256 : Shape := ⟨2, ![100000, 256]⟩
abbrev S100000 : Shape := ⟨1, ![100000]⟩
abbrev S100000x1 : Shape := ⟨2, ![100000, 1]⟩

abbrev nBuf : Space → Nat
  | .hbm => 127
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S400000x64, .f32⟩
  | .hbm, ⟨2, _⟩ => ⟨S2x400000, .i32⟩
  | .hbm, ⟨3, _⟩ => ⟨S320x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S1x400000, .i32⟩
  | .hbm, ⟨16, _⟩ => ⟨S400000, .i32⟩
  | .hbm, ⟨17, _⟩ => ⟨S1x400000, .i32⟩
  | .hbm, ⟨18, _⟩ => ⟨S400000, .i32⟩
  | .hbm, ⟨19, _⟩ => ⟨S800000, .i32⟩
  | .hbm, ⟨20, _⟩ => ⟨S800000, .i32⟩
  | .hbm, ⟨21, _⟩ => ⟨S800000x64, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S800000x320, .f32⟩
  | .hbm, ⟨41, _⟩ => ⟨S800000x128, .f32⟩
  | .hbm, ⟨42, _⟩ => ⟨S1x128, .f32⟩
  | .hbm, ⟨43, _⟩ => ⟨S800000x128, .f32⟩
  | .hbm, ⟨44, _⟩ => ⟨S800000x128, .f32⟩
  | .hbm, ⟨45, _⟩ => ⟨S_, .f32⟩
  | .hbm, ⟨46, _⟩ => ⟨S800000, .f32⟩
  | .hbm, ⟨47, _⟩ => ⟨S800000x1, .f32⟩
  | .hbm, ⟨48, _⟩ => ⟨S_, .f32⟩
  | .hbm, ⟨49, _⟩ => ⟨S800000x1, .f32⟩
  | .hbm, ⟨50, _⟩ => ⟨S800000x1, .f32⟩
  | .hbm, ⟨51, _⟩ => ⟨S800000x128, .f32⟩
  | .hbm, ⟨52, _⟩ => ⟨S800000x128, .f32⟩
  | .hbm, ⟨53, _⟩ => ⟨S800000x128, .f32⟩
  | .hbm, ⟨54, _⟩ => ⟨S_, .f32⟩
  | .hbm, ⟨55, _⟩ => ⟨S800000, .f32⟩
  | .hbm, ⟨56, _⟩ => ⟨S800000x1, .f32⟩
  | .hbm, ⟨57, _⟩ => ⟨S_, .f32⟩
  | .hbm, ⟨58, _⟩ => ⟨S800000x1, .f32⟩
  | .hbm, ⟨59, _⟩ => ⟨S800000x1, .f32⟩
  | .hbm, ⟨60, _⟩ => ⟨S800000x128, .f32⟩
  | .hbm, ⟨61, _⟩ => ⟨S800000x128, .f32⟩
  | .hbm, ⟨62, _⟩ => ⟨S_, .f32⟩
  | .hbm, ⟨63, _⟩ => ⟨S800000x1, .f32⟩
  | .hbm, ⟨64, _⟩ => ⟨S800000x1, .f32⟩
  | .hbm, ⟨65, _⟩ => ⟨S800000x1, .f32⟩
  | .hbm, ⟨66, _⟩ => ⟨S800000x128, .f32⟩
  | .hbm, ⟨67, _⟩ => ⟨S800000x128, .f32⟩
  | .hbm, ⟨68, _⟩ => ⟨S1x128, .f32⟩
  | .hbm, ⟨69, _⟩ => ⟨S800000x128, .f32⟩
  | .hbm, ⟨70, _⟩ => ⟨S800000x128, .f32⟩
  | .hbm, ⟨71, _⟩ => ⟨S1x128, .f32⟩
  | .hbm, ⟨72, _⟩ => ⟨S800000x128, .f32⟩
  | .hbm, ⟨73, _⟩ => ⟨S800000x128, .f32⟩
  | .hbm, ⟨74, _⟩ => ⟨S_, .f32⟩
  | .hbm, ⟨75, _⟩ => ⟨S800000x128, .f32⟩
  | .hbm, ⟨76, _⟩ => ⟨S800000x128, .f32⟩
  | .hbm, ⟨77, _⟩ => ⟨S800000x128, .f32⟩
  | .hbm, ⟨78, _⟩ => ⟨S1x128, .f32⟩
  | .hbm, ⟨79, _⟩ => ⟨S800000x128, .f32⟩
  | .hbm, ⟨80, _⟩ => ⟨S800000x128, .f32⟩
  | .hbm, ⟨81, _⟩ => ⟨S_, .f32⟩
  | .hbm, ⟨82, _⟩ => ⟨S100000x128, .f32⟩
  | .hbm, ⟨83, _⟩ => ⟨S800000x1, .i32⟩
  | .hbm, ⟨84, _⟩ => ⟨S100000x128, .f32⟩
  | .hbm, ⟨85, _⟩ => ⟨S100000x256, .f32⟩
  | .hbm, ⟨86, _⟩ => ⟨S100000x128, .f32⟩
  | .hbm, ⟨87, _⟩ => ⟨S1x128, .f32⟩
  | .hbm, ⟨88, _⟩ => ⟨S100000x128, .f32⟩
  | .hbm, ⟨89, _⟩ => ⟨S100000x128, .f32⟩
  | .hbm, ⟨90, _⟩ => ⟨S_, .f32⟩
  | .hbm, ⟨91, _⟩ => ⟨S100000, .f32⟩
  | .hbm, ⟨92, _⟩ => ⟨S100000x1, .f32⟩
  | .hbm, ⟨93, _⟩ => ⟨S_, .f32⟩
  | .hbm, ⟨94, _⟩ => ⟨S100000x1, .f32⟩
  | .hbm, ⟨95, _⟩ => ⟨S100000x1, .f32⟩
  | .hbm, ⟨96, _⟩ => ⟨S100000x128, .f32⟩
  | .hbm, ⟨97, _⟩ => ⟨S100000x128, .f32⟩
  | .hbm, ⟨98, _⟩ => ⟨S100000x128, .f32⟩
  | .hbm, ⟨99, _⟩ => ⟨S_, .f32⟩
  | .hbm, ⟨100, _⟩ => ⟨S100000, .f32⟩
  | .hbm, ⟨101, _⟩ => ⟨S100000x1, .f32⟩
  | .hbm, ⟨102, _⟩ => ⟨S_, .f32⟩
  | .hbm, ⟨103, _⟩ => ⟨S100000x1, .f32⟩
  | .hbm, ⟨104, _⟩ => ⟨S100000x1, .f32⟩
  | .hbm, ⟨105, _⟩ => ⟨S100000x128, .f32⟩
  | .hbm, ⟨106, _⟩ => ⟨S100000x128, .f32⟩
  | .hbm, ⟨107, _⟩ => ⟨S_, .f32⟩
  | .hbm, ⟨108, _⟩ => ⟨S100000x1, .f32⟩
  | .hbm, ⟨109, _⟩ => ⟨S100000x1, .f32⟩
  | .hbm, ⟨110, _⟩ => ⟨S100000x1, .f32⟩
  | .hbm, ⟨111, _⟩ => ⟨S100000x128, .f32⟩
  | .hbm, ⟨112, _⟩ => ⟨S100000x128, .f32⟩
  | .hbm, ⟨113, _⟩ => ⟨S1x128, .f32⟩
  | .hbm, ⟨114, _⟩ => ⟨S100000x128, .f32⟩
  | .hbm, ⟨115, _⟩ => ⟨S100000x128, .f32⟩
  | .hbm, ⟨116, _⟩ => ⟨S1x128, .f32⟩
  | .hbm, ⟨117, _⟩ => ⟨S100000x128, .f32⟩
  | .hbm, ⟨118, _⟩ => ⟨S100000x128, .f32⟩
  | .hbm, ⟨119, _⟩ => ⟨S_, .f32⟩
  | .hbm, ⟨120, _⟩ => ⟨S100000x128, .f32⟩
  | .hbm, ⟨121, _⟩ => ⟨S100000x128, .f32⟩
  | .hbm, ⟨122, _⟩ => ⟨S100000x128, .f32⟩
  | .hbm, ⟨123, _⟩ => ⟨S1x128, .f32⟩
  | .hbm, ⟨124, _⟩ => ⟨S100000x128, .f32⟩
  | .hbm, ⟨125, _⟩ => ⟨S100000x128, .f32⟩
  | .hbm, ⟨126, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_c_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_1 : Ref sig .tc := ⟨.hbm, 31, rfl⟩
abbrev main_v14 : Ref sig .tc := ⟨.hbm, 32, rfl⟩
abbrev main_v15 : Ref sig .tc := ⟨.hbm, 33, rfl⟩
abbrev main_c_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_4 : Ref sig .tc := ⟨.hbm, 54, rfl⟩
abbrev main_v33 : Ref sig .tc := ⟨.hbm, 55, rfl⟩
abbrev main_v34 : Ref sig .tc := ⟨.hbm, 56, rfl⟩
abbrev main_cst_5 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_call0_cst : Ref sig .tc := ⟨.hbm, 74, rfl⟩
abbrev main_call0_v0 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_7 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_8 : Ref sig .tc := ⟨.hbm, 90, rfl⟩
abbrev main_v63 : Ref sig .tc := ⟨.hbm, 91, rfl⟩
abbrev main_v64 : Ref sig .tc := ⟨.hbm, 92, rfl⟩
abbrev main_cst_9 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_10 : Ref sig .tc := ⟨.hbm, 99, rfl⟩
abbrev main_v70 : Ref sig .tc := ⟨.hbm, 100, rfl⟩
abbrev main_v71 : Ref sig .tc := ⟨.hbm, 101, rfl⟩
abbrev main_cst_11 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_12 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_call1_cst : Ref sig .tc := ⟨.hbm, 119, rfl⟩
abbrev main_call1_v0 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  concatenates_S400000_S400000_S800000_d0 : Shape.Concatenates [S400000, S400000] S800000 0
  concatenates_S400000x64_S400000x64_S800000x64_d0 : Shape.Concatenates [S400000x64, S400000x64] S800000x64 0
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x64_S800000x320_d1 : Shape.Concatenates [S800000x128, S800000x128, S800000x64] S800000x320 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  reducesTo_S800000x128_S800000_d1 : S800000x128.ReducesTo [1] S800000
  h_S_ : 0 < S_.numel
  bcast_S_S800000x1 : S_.BroadcastsInDim S800000x1 (![] : Fin 0 → Fin S800000x1.rank)
  bcast_S800000x1_S800000x128_0_1 : S800000x1.BroadcastsInDim S800000x128 (![0, 1] : Fin 2 → Fin S800000x128.rank)
  bcast_S_S800000x128 : S_.BroadcastsInDim S800000x128 (![] : Fin 0 → Fin S800000x128.rank)
  bcast_S_S100000x128 : S_.BroadcastsInDim S100000x128 (![] : Fin 0 → Fin S100000x128.rank)
  concatenates_S100000x128_S100000x128_S100000x256_d1 : Shape.Concatenates [S100000x128, S100000x128] S100000x256 1
  bcast_S1x128_S100000x128_0_1 : S1x128.BroadcastsInDim S100000x128 (![0, 1] : Fin 2 → Fin S100000x128.rank)
  reducesTo_S100000x128_S100000_d1 : S100000x128.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  gather_S100000x128_S800000x1_S800000x128_1_0_n_n_0_1_1128_wf : GatherDims.WF S100000x128 S800000x1 S800000x128 [1] [0] [] [0] [] 1 ![1, 128]
  dot_S800000x320_S320x128_S800000x128_1_0_0_1_n_n_wf : DotDims.WF S800000x320 S320x128 S800000x128 [1] [0] [0] [1] [] []
  dot_S800000x128_S128x128_S800000x128_1_0_0_1_n_n_wf : DotDims.WF S800000x128 S128x128 S800000x128 [1] [0] [0] [1] [] []
  scatter_S100000x128_S800000x1_S800000x128_1_0_0_1_wf : ScatterDims.WF S100000x128 S800000x1 S800000x128 [1] [0] [0] 1
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def dot_S800000x320_S320x128_S800000x128_1_0_0_1_n_n : DotDims S800000x320 S320x128 S800000x128 where
  lhsContracting := [1]
  rhsContracting := [0]
  lhsNonContracting := [0]
  rhsNonContracting := [1]
  lhsBatch := []
  rhsBatch := []
  wf := dot_S800000x320_S320x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.RefAfter.lean ====
/-
  The reference program as a fold: after its 112 host operations, applied in order to the launch contents, the
  result buffer holds the result stage of the fifteen arguments.

  Each operation writes one buffer from the buffers written before it, and no buffer is written twice. So what the
  fold leaves at a buffer is the writing operation's function of what it leaves at that operation's operands, and at
  an argument's buffer the argument itself: read back from the result buffer, operand by operand, the fold is the
  composition of the operations' functions over the arguments. A stage is by definition the same composition, each
  step named, so the two agree by unfolding the names.
-/
import proofs.«423946_j67886253081357_1_alg».proof.Proof.RefOps
import proofs.«423946_j67886253081357_1_alg».proof.Proof.RefStages
import Idealize.ShloMosaic.Lib.StableHlo.Run

set_option maxRecDepth 16384

noncomputable section

namespace Cert.ReferenceIdeal.StagedAfter

open Cert.ReferenceIdeal Cert.ReferenceIdeal.Gen Idealize.ShloMosaic Idealize.ShloMosaic.TcCoe Idealize.SL.Sem Idealize.ShloMosaic.StableHlo

variable {F : FTy → Type} [FloatOps F]

/-! ## Joins with their pieces as separate arguments

  A join takes its pieces as one list, and the fact that their extents add up is stated about that list, so a
  piece cannot be replaced by an equal one inside the list without restating the fact. With the pieces as
  separate arguments and the fact stated about the shapes alone, each piece stands free. -/

/-- Two arrays joined along an axis. -/
def cat2 {α : Type} (t : Shape) (a : Fin t.rank) (s1 s2 : Shape) (h : Shape.Concatenates [s1, s2] t a)
    (x : s1.Idx → α) (y : s2.Idx → α) : t.Idx → α := concatenate t a [⟨s1, x⟩, ⟨s2, y⟩] h

/-- Three arrays joined along an axis. -/
def cat3 {α : Type} (t : Shape) (a : Fin t.rank) (s1 s2 s3 : Shape) (h : Shape.Concatenates [s1, s2, s3] t a)
    (x : s1.Idx → α) (y : s2.Idx → α) (z : s3.Idx → α) : t.Idx → α := concatenate t a [⟨s1, x⟩, ⟨s2, y⟩, ⟨s3, z⟩] h

theorem cat2_eq {α : Type} (t : Shape) (a : Fin t.rank) (s1 s2 : Shape) (h : Shape.Concatenates [s1, s2] t a)
    (x : s1.Idx → α) (y : s2.Idx → α) : concatenate t a [⟨s1, x⟩, ⟨s2, y⟩] h = cat2 t a s1 s2 h x y := rfl

/-! ## Three operations read at their own result buffers -/

/-- The three-piece join of the gathered source rows, the gathered target rows and the doubled edge table: each piece
    is what the valuation holds at that piece's buffer. -/
theorem v21_result (hxs) (hy) (V : Valuation τ sig (Elt F)) :
    (nary (τ := τ) ![main_v13, main_v20, main_v6] main_v21 (fun u => concatenate S800000x320 1 [⟨S800000x128, u 0⟩, ⟨S800000x128, u 1⟩, ⟨S800000x64, u 2⟩] concatenates_S800000x128_S800000x128_S800000x64_S800000x320_d1) hxs hy).result V (no_index (Proc.devRef .tc main_v21))
      = cat3 S800000x320 1 S800000x128 S800000x128 S800000x64 concatenates_S800000x128_S800000x128_S800000x64_S800000x320_d1
          (V (Proc.devRef .tc main_v13)) (V (Proc.devRef .tc main_v20)) (V (Proc.devRef .tc main_v6)) := by
  rw [nary_result]; rfl

/-- The two reshapes of an index row `[1, 400000]` to a vector `[400000]`: the element type does not change, so the
    result is the reshaped operand itself. -/
theorem v1_result (he) (hx) (hy) (V : Valuation τ sig (Elt F)) :
    (reshape (τ := τ) (Val := Elt F) main_v0 main_v1 he shapeCasts_S1x400000_S400000 hx hy).result V (no_index (Proc.devRef .tc main_v1))
      = (shapeCast S400000 (V (Proc.devRef .tc main_v0) : (⟨S1x400000, .i32⟩ : BufTy).Contents (Elt F)) shapeCasts_S1x400000_S400000 : (⟨S400000, .i32⟩ : BufTy).Contents (Elt F)) := by
  rw [reshape_result]; rfl
theorem v3_result (he) (hx) (hy) (V : Valuation τ sig (Elt F)) :
    (reshape (τ := τ) (Val := Elt F) main_v2 main_v3 he shapeCasts_S1x400000_S400000 hx hy).result V (no_index (Proc.devRef .tc main_v3))
      = (shapeCast S400000 (V (Proc.devRef .tc main_v2) : (⟨S1x400000, .i32⟩ : BufTy).Contents (Elt F)) shapeCasts_S1x400000_S400000 : (⟨S400000, .i32⟩ : BufTy).Contents (Elt F)) := by
  rw [reshape_result]; rfl

/-! ## The fold from any contents that hold the arguments -/

set_option maxHeartbeats 4000000 in
/-- From ANY contents `V` that hold `x0 … x14` at the fifteen argument buffers, the operations leave the result stage of
    `x0 … x14` at the result buffer. Reading back from the result buffer: an operation's own buffer holds its function of
    its operands' buffers just before it; every other buffer holds what it held before the operation (the two buffers
    are different references); an argument's buffer, which no operation writes, holds its `xK`. What is left is the
    operations' functions composed over `x0 … x14`, which is the result stage with its names unfolded. -/
theorem result_of_args (V : Valuation τ sig (Elt F))
    (x0 : (⟨S100000x128, .f32⟩ : BufTy).Contents (Elt F))
    (x1 : (⟨S400000x64, .f32⟩ : BufTy).Contents (Elt F))
    (x2 : (⟨S2x400000, .i32⟩ : BufTy).Contents (Elt F))
    (x3 : (⟨S320x128, .f32⟩ : BufTy).Contents (Elt F))
    (x4 : (⟨S128, .f32⟩ : BufTy).Contents (Elt F))
    (x5 : (⟨S128, .f32⟩ : BufTy).Contents (Elt F))
    (x6 : (⟨S128, .f32⟩ : BufTy).Contents (Elt F))
    (x7 : (⟨S128x128, .f32⟩ : BufTy).Contents (Elt F))
    (x8 : (⟨S128, .f32⟩ : BufTy).Contents (Elt F))
    (x9 : (⟨S256x128, .f32⟩ : BufTy).Contents (Elt F))
    (x10 : (⟨S128, .f32⟩ : BufTy).Contents (Elt F))
    (x11 : (⟨S128, .f32⟩ : BufTy).Contents (Elt F))
    (x12 : (⟨S128, .f32⟩ : BufTy).Contents (Elt F))
    (x13 : (⟨S128x128, .f32⟩ : BufTy).Contents (Elt F))
    (x14 : (⟨S128, .f32⟩ : BufTy).Contents (Elt F))
    (e0 : V (Proc.devRef .tc main_arg0) = x0)
    (e1 : V (Proc.devRef .tc main_arg1) = x1)
    (e2 : V (Proc.devRef .tc main_arg2) = x2)
    (e3 : V (Proc.devRef .tc main_arg3) = x3)
    (e4 : V (Proc.devRef .tc main_arg4) = x4)
    (e5 : V (Proc.devRef .tc main_arg5) = x5)
    (e6 : V (Proc.devRef .tc main_arg6) = x6)
    (e7 : V (Proc.devRef .tc main_arg7) = x7)
    (e8 : V (Proc.devRef .tc main_arg8) = x8)
    (e9 : V (Proc.devRef .tc main_arg9) = x9)
    (e10 : V (Proc.devRef .tc main_arg10) = x10)
    (e11 : V (Proc.devRef .tc main_arg11) = x11)
    (e12 : V (Proc.devRef .tc main_arg12) = x12)
    (e13 : V (Proc.devRef .tc main_arg13) = x13)
    (e14 : V (Proc.devRef .tc main_arg14) = x14) :
    after (RunOps.ops (F := F)) V (Proc.devRef .tc main_v92)
      = Stages.val_main_v92 (F := F) x0 x1 x2 x3 x4 x5 x6 x7 x8 x9 x10 x11 x12 x13 x14 := by
  simp (disch := decide) only [after_cons, after_nil, v21_result, v1_result, v3_result, cat2_eq,
    e0, e1, e2, e3, e4, e5, e6, e7, e8, e9, e10, e11, e12, e13, e14,
    nullary_result', unary_result', binary_result', ternary_result',
    nullary_result_ne', unary_result_ne', binary_result_ne', ternary_result_ne', reshape_result_ne', nary_result_ne']
  rfl

variable (m : (ℓ : Loc nD τ sig) → Buf (Elt F) ℓ) (c : Dev nD)

/-- After the operations the result buffer holds the result stage of the arguments. -/
theorem result_after :
    after (RunOps.ops (F := F)) (launchContents m c) (Proc.devRef .tc main_v92)
      = Stages.val_main_v92 (F := F)
          (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14)) :=
  result_of_args (launchContents m c) _ _ _ _ _ _ _ _ _ _ _ _ _ _ _ rfl rfl rfl rfl rfl rfl rfl rfl rfl rfl rfl rfl rfl rfl rfl

end Cert.ReferenceIdeal.StagedAfter

end
-- ==== Proof.KArgs.lean ====
/-
  The kernel program's fifteen argument arrays, on one core, as plain index functions at the ideal instance:
  the node table, the edge table, the edge index pairs, and the two layers' weights, biases, scales and shifts.
-/
import proofs.«423946_j67886253081357_1_alg».proof.KernelIdeal
import Idealize.ShloMosaic.PureOps.Ideal

noncomputable section

namespace Cert.KernelIdeal.Args

open Cert.KernelIdeal Idealize.ShloMosaic Idealize.ShloMosaic.TcCoe Idealize.SL.Sem

variable (m : (ℓ : Loc nD τ sig) → Buf (Elt Ideal) ℓ) (c : Dev nD)

abbrev nodeFeats : (⟨2, ![100000, 128]⟩ : Shape).Idx → EReal := m ((c.tc : Thread nD τ).loc main_arg0)
abbrev edgeFeats : (⟨2, ![400000, 64]⟩ : Shape).Idx → EReal := m ((c.tc : Thread nD τ).loc main_arg1)
abbrev edgeIndex : (⟨2, ![2, 400000]⟩ : Shape).Idx → BitVec 32 := m ((c.tc : Thread nD τ).loc main_arg2)
abbrev msgW1 : (⟨2, ![320, 128]⟩ : Shape).Idx → EReal := m ((c.tc : Thread nD τ).loc main_arg3)
abbrev msgB1 : (⟨1, ![128]⟩ : Shape).Idx → EReal := m ((c.tc : Thread nD τ).loc main_arg4)
abbrev ln1G : (⟨1, ![128]⟩ : Shape).Idx → EReal := m ((c.tc : Thread nD τ).loc main_arg5)
abbrev ln1B : (⟨1, ![128]⟩ : Shape).Idx → EReal := m ((c.tc : Thread nD τ).loc main_arg6)
abbrev msgW2 : (⟨2, ![128, 128]⟩ : Shape).Idx → EReal := m ((c.tc : Thread nD τ).loc main_arg7)
abbrev msgB2 : (⟨1, ![128]⟩ : Shape).Idx → EReal := m ((c.tc : Thread nD τ).loc main_arg8)
abbrev updW1 : (⟨2, ![256, 128]⟩ : Shape).Idx → EReal := m ((c.tc : Thread nD τ).loc main_arg9)
abbrev updB1 : (⟨1, ![128]⟩ : Shape).Idx → EReal := m ((c.tc : Thread nD τ).loc main_arg10)
abbrev ln2G : (⟨1, ![128]⟩ : Shape).Idx → EReal := m ((c.tc : Thread nD τ).loc main_arg11)
abbrev ln2B : (⟨1, ![128]⟩ : Shape).Idx → EReal := m ((c.tc : Thread nD τ).loc main_arg12)
abbrev updW2 : (⟨2, ![128, 128]⟩ : Shape).Idx → EReal := m ((c.tc : Thread nD τ).loc main_arg13)
abbrev updB2 : (⟨1, ![128]⟩ : Shape).Idx → EReal := m ((c.tc : Thread nD τ).loc main_arg14)

/-- Every edge endpoint is a node: a number in `[0, 100000)` read as a signed word. -/
def EndpointsInRange : Prop := ∀ i, 0 ≤ (edgeIndex m c i).toInt ∧ (edgeIndex m c i).toInt < 100000

end Cert.KernelIdeal.Args

end
-- ==== Proof.IndexRange.lean ====
/-
  The precondition, read: besides the finiteness of the float arrays it says that every entry of the edge index
  array is at least 0 and below 100000, as signed 32-bit words. Both facts are a whole-array conjunction (an
  `all`) of an element-wise comparison with a broadcast constant, so each gives its comparison at every entry.
-/
import proofs.«423946_j67886253081357_1_alg».proof.Defs
import proofs.«423946_j67886253081357_1_alg».proof.Proof.KArgs
import Idealize.ShloMosaic.Lib.ReduceAll
import Idealize.ShloMosaic.Lib.StableHlo.Predicate
import Idealize.ShloMosaic.Lib.WordArith
import Idealize.ShloMosaic.Lib.ValueIdx

noncomputable section

namespace Cert.IndexRange

open Cert.KernelIdeal Cert.KernelIdeal.Args Idealize.ShloMosaic Idealize.ShloMosaic.TcCoe Idealize.SL.Sem

/-- The array of no axes has one index. -/
instance : Subsingleton Cert.Pre_finite_inputs.S_.Idx := ⟨fun a b => funext fun d => d.elim0⟩

/-- The last two conjuncts of the predicate, at one entry of the index array: the entry is at least 0 and below
    100000 as a signed word. Each is a conjunction over the whole array of a comparison with a constant spread over
    the array, so it holds at every entry. -/
theorem tail_entry {F : FTy → Type} [FloatOps F] [Cert.Pre_finite_inputs.Facts]
    (x : IVec Cert.Pre_finite_inputs.S2x400000 32) (a b : IVec Cert.Pre_finite_inputs.S_ 1)
    (e : Cert.Pre_finite_inputs.fn_part4 (F := F) x a b ValueIdx.ix0 = 1#1) (i : Cert.Pre_finite_inputs.S2x400000.Idx) :
    0 ≤ (x i).toInt ∧ (x i).toInt < 100000 := by
  dsimp only [Cert.Pre_finite_inputs.fn_part4] at e
  have e' : IntOp.andi (IntOp.andi _ _) _ = 1#1 := e
  obtain ⟨h1, h75⟩ := IntOp.andi_eq_one.1 e'
  obtain ⟨_, h71⟩ := IntOp.andi_eq_one.1 h1
  have g0 : IntOp.cmpi .sge (x i) 0#32 = 1#1 := Host.reduce_andi_all _ _ _ _ _ h71 i
  have g1 : IntOp.cmpi .slt (x i) 100000#32 = 1#1 := Host.reduce_andi_all _ _ _ _ _ h75 i
  rw [IntOp.cmpi_sge, show (0#32 : BitVec 32).toInt = 0 from by decide] at g0
  rw [IntOp.cmpi_slt, show (100000#32 : BitVec 32).toInt = 100000 from by decide] at g1
  exact ⟨g0, g1⟩

/-- Under the precondition every edge endpoint is a node index. -/
theorem endpoints_in_range [Cert.Pre_finite_inputs.Facts] (m : (ℓ : Loc nD τ sig) → Buf (Elt Ideal) ℓ)
    (hpre : Cert.Pre_KernelIdeal m) (c : Dev nD) : EndpointsInRange m c := by
  intro i
  have e := congrFun (hpre c) ValueIdx.ix0
  dsimp only [Cert.Pre_finite_inputs.fn, Cert.Pre_finite_inputs.fn_part1, Cert.Pre_finite_inputs.fn_part2,
    Cert.Pre_finite_inputs.fn_part3] at e
  exact tail_entry (F := Ideal) _ _ _ e i

end Cert.IndexRange

end
-- ==== Proof.TakeTables.lean ====
/-
  The host operations before the first region, read off the fold of buffer contents, and matched with the
  reference's stages.

  Both programs build the same three index vectors and tables from the arguments: the source endpoints followed
  by the target endpoints, the target endpoints followed by the source endpoints, and the edge table twice over.
  Each then wraps a negative index by adding 100000 and gathers rows of the node table. One program's gather is
  bare (an index outside the table is clamped into it); the other's replaces the gathered row by a fill word when
  the wrapped index is outside `[0, 99999]`. When every endpoint lies in `[0, 100000)` the wrap does nothing and
  the range test holds at every row, so the select returns the gathered row and the two tables are equal.
-/
import proofs.«423946_j67886253081357_1_alg».proof.Proof.Gen.KernelIdeal.Frame
import proofs.«423946_j67886253081357_1_alg».proof.Proof.RefStages
import proofs.«423946_j67886253081357_1_alg».proof.Proof.KArgs
import Idealize.ShloMosaic.Lib.StableHlo.Run
import Idealize.ShloMosaic.Lib.StableHlo.Predicate
import Idealize.ShloMosaic.Lib.ReduceAll
import Idealize.ShloMosaic.Lib.WordArith
import Idealize.ShloMosaic.Lib.ValueIdx

set_option maxRecDepth 16384

noncomputable section

namespace Cert.TakeTables

open Cert.KernelIdeal Cert.KernelIdeal.Gen
open Idealize.ShloMosaic Idealize.ShloMosaic.TcCoe Idealize.ShloMosaic.ValueIdx Idealize.SL.Sem

open Cert.KernelIdeal.Args

variable (m : (ℓ : Loc nD τ sig) → Buf (Elt Ideal) ℓ) (ρ : Dev nD → PrngReg) (c : Dev nD)

/-- A stretch of host operations none of which writes the buffer read leaves that buffer as it was. -/
local macro "step_over " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-- The edge table as the fold holds it when the first region is entered: nothing after the first stretch writes it. -/
theorem W10_main_v6 :
    W10 m ρ c (Proc.devRef .tc main_v6) = W1 m ρ c (Proc.devRef .tc main_v6) :=
  calc W10 m ρ c (Proc.devRef .tc main_v6)
    _ = W9 m ρ c (Proc.devRef .tc main_v6) := by step_over hostOps0_9
    _ = W8 m ρ c (Proc.devRef .tc main_v6) := by step_over hostOps0_8
    _ = W7 m ρ c (Proc.devRef .tc main_v6) := by step_over hostOps0_7
    _ = W6 m ρ c (Proc.devRef .tc main_v6) := by step_over hostOps0_6
    _ = W5 m ρ c (Proc.devRef .tc main_v6) := by step_over hostOps0_5
    _ = W4 m ρ c (Proc.devRef .tc main_v6) := by step_over hostOps0_4
    _ = W3 m ρ c (Proc.devRef .tc main_v6) := by step_over hostOps0_3
    _ = W2 m ρ c (Proc.devRef .tc main_v6) := by step_over hostOps0_2
    _ = W1 m ρ c (Proc.devRef .tc main_v6) := by step_over hostOps0_1

/-- The target-then-source endpoints as the fold holds them at the first region's entry. -/
theorem W10_main_v5 :
    W10 m ρ c (Proc.devRef .tc main_v5) = W1 m ρ c (Proc.devRef .tc main_v5) :=
  calc W10 m ρ c (Proc.devRef .tc main_v5)
    _ = W9 m ρ c (Proc.devRef .tc main_v5) := by step_over hostOps0_9
    _ = W8 m ρ c (Proc.devRef .tc main_v5) := by step_over hostOps0_8
    _ = W7 m ρ c (Proc.devRef .tc main_v5) := by step_over hostOps0_7
    _ = W6 m ρ c (Proc.devRef .tc main_v5) := by step_over hostOps0_6
    _ = W5 m ρ c (Proc.devRef .tc main_v5) := by step_over hostOps0_5
    _ = W4 m ρ c (Proc.devRef .tc main_v5) := by step_over hostOps0_4
    _ = W3 m ρ c (Proc.devRef .tc main_v5) := by step_over hostOps0_3
    _ = W2 m ρ c (Proc.devRef .tc main_v5) := by step_over hostOps0_2
    _ = W1 m ρ c (Proc.devRef .tc main_v5) := by step_over hostOps0_1

/-- The first guarded gather's table as the fold holds it at the first region's entry. -/
theorem W10_main_v7 :
    W10 m ρ c (Proc.devRef .tc main_v7) = W2 m ρ c (Proc.devRef .tc main_v7) :=
  calc W10 m ρ c (Proc.devRef .tc main_v7)
    _ = W9 m ρ c (Proc.devRef .tc main_v7) := by step_over hostOps0_9
    _ = W8 m ρ c (Proc.devRef .tc main_v7) := by step_over hostOps0_8
    _ = W7 m ρ c (Proc.devRef .tc main_v7) := by step_over hostOps0_7
    _ = W6 m ρ c (Proc.devRef .tc main_v7) := by step_over hostOps0_6
    _ = W5 m ρ c (Proc.devRef .tc main_v7) := by step_over hostOps0_5
    _ = W4 m ρ c (Proc.devRef .tc main_v7) := by step_over hostOps0_4
    _ = W3 m ρ c (Proc.devRef .tc main_v7) := by step_over hostOps0_3
    _ = W2 m ρ c (Proc.devRef .tc main_v7) := by step_over hostOps0_2

/-- The second guarded gather's table as the fold holds it at the first region's entry. -/
theorem W10_main_v8 :
    W10 m ρ c (Proc.devRef .tc main_v8) = W3 m ρ c (Proc.devRef .tc main_v8) :=
  calc W10 m ρ c (Proc.devRef .tc main_v8)
    _ = W9 m ρ c (Proc.devRef .tc main_v8) := by step_over hostOps0_9
    _ = W8 m ρ c (Proc.devRef .tc main_v8) := by step_over hostOps0_8
    _ = W7 m ρ c (Proc.devRef .tc main_v8) := by step_over hostOps0_7
    _ = W6 m ρ c (Proc.devRef .tc main_v8) := by step_over hostOps0_6
    _ = W5 m ρ c (Proc.devRef .tc main_v8) := by step_over hostOps0_5
    _ = W4 m ρ c (Proc.devRef .tc main_v8) := by step_over hostOps0_4
    _ = W3 m ρ c (Proc.devRef .tc main_v8) := by step_over hostOps0_3

section TypedRead

/-! A called function's operations name their buffers by references that carry the value's type, and move contents
    between that type and the buffer's own along an equation of types. Reading every buffer *at the value's type*
    hides those moves: an operation's own result reads as its function of the operands' reads, any other buffer
    reads as before. -/

variable {Val : EltTy → Type} {T Tx Ta Tb Tc Ty : BufTy}

/-- The contents a valuation gives a typed reference's buffer, at the value's own type. -/
def rd (x : StableHlo.TRef sig T) (V : Valuation τ sig Val) : T.Contents Val :=
  x.ofBuf (V (Proc.devRef .tc x.ref))

/-- A typed read is the plain read, up to the equation of the two types. -/
theorem rd_heq (x : StableHlo.TRef sig T) (V : Valuation τ sig Val) : HEq (rd x V) (V (Proc.devRef .tc x.ref)) :=
  cast_heq _ _

/-- Moving contents to the buffer's type and back is the identity. -/
theorem ofBuf_toBuf (x : StableHlo.TRef sig T) (w : T.Contents Val) : x.ofBuf (x.toBuf w) = w := by
  obtain ⟨r, rfl, _, _⟩ := x; rfl

/-- An operation that does not write a buffer leaves its typed read as it was. -/
theorem rd_result_of_not_mem (z : StableHlo.TRef sig T) (op : HloOp τ sig Val) (V : Valuation τ sig Val)
    (h : Proc.devRef .tc z.ref ∉ op.writes) : rd z (op.result V) = rd z V := by
  unfold rd; rw [HloOp.result_of_not_mem _ _ h]

theorem rd_nullary_self (y : StableHlo.TRef sig Ty) (v : Ty.Contents Val) (V : Valuation τ sig Val) :
    rd y (HloOp.result (no_index (StableHlo.TRef.nullary (τ := τ) y v)) V) = v := by
  unfold rd; rw [StableHlo.nullary_result]; exact ofBuf_toBuf y _

theorem rd_unary_self (x : StableHlo.TRef sig Tx) (y : StableHlo.TRef sig Ty) (f : Tx.Contents Val → Ty.Contents Val)
    (V : Valuation τ sig Val) :
    rd y (HloOp.result (no_index (StableHlo.TRef.unary (τ := τ) x y f)) V) = f (rd x V) := by
  unfold rd; rw [StableHlo.unary_result]; exact ofBuf_toBuf y _

theorem rd_binary_self (a : StableHlo.TRef sig Ta) (b : StableHlo.TRef sig Tb) (y : StableHlo.TRef sig Ty)
    (f : Ta.Contents Val → Tb.Contents Val → Ty.Contents Val) (V : Valuation τ sig Val) :
    rd y (HloOp.result (no_index (StableHlo.TRef.binary (τ := τ) a b y f)) V) = f (rd a V) (rd b V) := by
  unfold rd; rw [StableHlo.binary_result]; exact ofBuf_toBuf y _

theorem rd_ternary_self (c : StableHlo.TRef sig Tc) (a : StableHlo.TRef sig Ta) (b : StableHlo.TRef sig Tb)
    (y : StableHlo.TRef sig Ty) (f : Tc.Contents Val → Ta.Contents Val → Tb.Contents Val → Ty.Contents Val)
    (V : Valuation τ sig Val) :
    rd y (HloOp.result (no_index (StableHlo.TRef.ternary (τ := τ) c a b y f)) V) = f (rd c V) (rd a V) (rd b V) := by
  unfold rd; rw [StableHlo.ternary_result]; exact ofBuf_toBuf y _

theorem rd_nullary_ne (z : StableHlo.TRef sig T) (y : StableHlo.TRef sig Ty) (v : Ty.Contents Val)
    (V : Valuation τ sig Val) (h : z.ref ≠ y.ref) :
    rd z (HloOp.result (no_index (StableHlo.TRef.nullary (τ := τ) y v)) V) = rd z V :=
  rd_result_of_not_mem z _ V (by rw [StableHlo.nullary_writes, Finset.mem_singleton]; exact StableHlo.devRef_ne_of_ne h)

theorem rd_unary_ne (z : StableHlo.TRef sig T) (x : StableHlo.TRef sig Tx) (y : StableHlo.TRef sig Ty)
    (f : Tx.Contents Val → Ty.Contents Val) (V : Valuation τ sig Val) (h : z.ref ≠ y.ref) :
    rd z (HloOp.result (no_index (StableHlo.TRef.unary (τ := τ) x y f)) V) = rd z V :=
  rd_result_of_not_mem z _ V (by rw [StableHlo.unary_writes, Finset.mem_singleton]; exact StableHlo.devRef_ne_of_ne h)

theorem rd_binary_ne (z : StableHlo.TRef sig T) (a : StableHlo.TRef sig Ta) (b : StableHlo.TRef sig Tb)
    (y : StableHlo.TRef sig Ty) (f : Ta.Contents Val → Tb.Contents Val → Ty.Contents Val) (V : Valuation τ sig Val)
    (h : z.ref ≠ y.ref) :
    rd z (HloOp.result (no_index (StableHlo.TRef.binary (τ := τ) a b y f)) V) = rd z V :=
  rd_result_of_not_mem z _ V (by rw [StableHlo.binary_writes, Finset.mem_singleton]; exact StableHlo.devRef_ne_of_ne h)

theorem rd_ternary_ne (z : StableHlo.TRef sig T) (c : StableHlo.TRef sig Tc) (a : StableHlo.TRef sig Ta)
    (b : StableHlo.TRef sig Tb) (y : StableHlo.TRef sig Ty)
    (f : Tc.Contents Val → Ta.Contents Val → Tb.Contents Val → Ty.Contents Val) (V : Valuation τ sig Val)
    (h : z.ref ≠ y.ref) :
    rd z (HloOp.result (no_index (StableHlo.TRef.ternary (τ := τ) c a b y f)) V) = rd z V :=
  rd_result_of_not_mem z _ V (by rw [StableHlo.ternary_writes, Finset.mem_singleton]; exact StableHlo.devRef_ne_of_ne h)

end TypedRead

section Guarded

variable {F : FTy → Type} [FloatOps F]

/-- An index vector with each negative entry raised by the table's height, as a one-column array. -/
def wrapIdx (idx : (⟨S800000, .i32⟩ : BufTy).Contents (Elt F)) : (⟨S800000x1, .i32⟩ : BufTy).Contents (Elt F) :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 100000#32))) idx)

/-- Per row, whether the one-column index lies in `[0, 99999]`: the conjunction over the unit axis. -/
def inRange (j : (⟨S800000x1, .i32⟩ : BufTy).Contents (Elt F)) : (⟨S800000, .i1⟩ : BufTy).Contents (Elt F) :=
  Host.reduce IntOp.andi
    (andi (cmpi .sge j (broadcastInDim S800000x1 ![] bcast_S_S800000x1 (constantI S_ 32 0#32)))
      (cmpi .sle j (broadcastInDim S800000x1 ![0, 1] bcast_S1x1_S800000x1_0_1
        (broadcastInDim S1x1 ![1] bcast_S1_S1x1_1 (constantI S1 32 99999#32)))))
    (constantI S_ 1 1#1) reducesTo_S800000x1_S800000_d1 h_S_

/-- The guarded gather: the gathered row where the wrapped index is in range, the fill word elsewhere. -/
def guardedTake (x : (⟨S100000x128, .f32⟩ : BufTy).Contents (Elt F)) (idx : (⟨S800000, .i32⟩ : BufTy).Contents (Elt F)) :
    (⟨S800000x128, .f32⟩ : BufTy).Contents (Elt F) :=
  select (broadcastInDim S800000x128 ![0] bcast_S800000_S800000x128_0 (inRange (wrapIdx idx)))
    (Host.gather gather_S100000x128_S800000x1_S800000x128_1_0_n_n_0_1_1128 x (wrapIdx idx))
    (broadcastInDim S800000x128 ![] bcast_S_S800000x128 (constant S_ .f32 0x7FC00000#32))

/-- The first guarded-gather stretch leaves the guarded gather of the node table at the first index vector. -/
theorem take0_rd (V : Valuation τ sig (Elt F)) :
    rd (.of main_v7 : StableHlo.TRef sig ⟨S800000x128, .f32⟩) (StableHlo.after hostOps0_1 V)
      = guardedTake (rd (.of main_arg0 : StableHlo.TRef sig ⟨S100000x128, .f32⟩) V)
          (rd (.of main_v4 : StableHlo.TRef sig ⟨S800000, .i32⟩) V) := by
  simp (disch := decide) only [StableHlo.after_cons, StableHlo.after_nil,
    rd_nullary_self, rd_unary_self, rd_binary_self, rd_ternary_self,
    rd_nullary_ne, rd_unary_ne, rd_binary_ne, rd_ternary_ne]
  rfl

/-- The second guarded-gather stretch leaves the guarded gather of the node table at the second index vector. -/
theorem take1_rd (V : Valuation τ sig (Elt F)) :
    rd (.of main_v8 : StableHlo.TRef sig ⟨S800000x128, .f32⟩) (StableHlo.after hostOps0_2 V)
      = guardedTake (rd (.of main_arg0 : StableHlo.TRef sig ⟨S100000x128, .f32⟩) V)
          (rd (.of main_v5 : StableHlo.TRef sig ⟨S800000, .i32⟩) V) := by
  simp (disch := decide) only [StableHlo.after_cons, StableHlo.after_nil,
    rd_nullary_self, rd_unary_self, rd_binary_self, rd_ternary_self,
    rd_nullary_ne, rd_unary_ne, rd_binary_ne, rd_ternary_ne]
  rfl

/-- The same at the plain reads of the three buffers. -/
theorem take0_result (V : Valuation τ sig (Elt F)) :
    StableHlo.after hostOps0_1 V (Proc.devRef .tc main_v7)
      = guardedTake (V (Proc.devRef .tc main_arg0)) (V (Proc.devRef .tc main_v4)) := by
  have e7 : rd (.of main_v7 : StableHlo.TRef sig ⟨S800000x128, .f32⟩) (StableHlo.after hostOps0_1 V)
      = StableHlo.after hostOps0_1 V (Proc.devRef .tc main_v7) := eq_of_heq (rd_heq _ _)
  have e0 : rd (.of main_arg0 : StableHlo.TRef sig ⟨S100000x128, .f32⟩) V = V (Proc.devRef .tc main_arg0) :=
    eq_of_heq (rd_heq _ _)
  have e4 : rd (.of main_v4 : StableHlo.TRef sig ⟨S800000, .i32⟩) V = V (Proc.devRef .tc main_v4) :=
    eq_of_heq (rd_heq _ _)
  exact e7.symm.trans ((take0_rd V).trans (by rw [e0, e4]))

theorem take1_result (V : Valuation τ sig (Elt F)) :
    StableHlo.after hostOps0_2 V (Proc.devRef .tc main_v8)
      = guardedTake (V (Proc.devRef .tc main_arg0)) (V (Proc.devRef .tc main_v5)) := by
  have e8 : rd (.of main_v8 : StableHlo.TRef sig ⟨S800000x128, .f32⟩) (StableHlo.after hostOps0_2 V)
      = StableHlo.after hostOps0_2 V (Proc.devRef .tc main_v8) := eq_of_heq (rd_heq _ _)
  have e0 : rd (.of main_arg0 : StableHlo.TRef sig ⟨S100000x128, .f32⟩) V = V (Proc.devRef .tc main_arg0) :=
    eq_of_heq (rd_heq _ _)
  have e5 : rd (.of main_v5 : StableHlo.TRef sig ⟨S800000, .i32⟩) V = V (Proc.devRef .tc main_v5) :=
    eq_of_heq (rd_heq _ _)
  exact e8.symm.trans ((take1_rd V).trans (by rw [e0, e5]))

/-! ### With every index a row of the table, the guard is true at every row -/

/-- A left fold by `and` over one-bit words that are all 1, started at 1, is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    have ha : IntOp.andi 1#1 (f a) = 1#1 := by rw [h a List.mem_cons_self]; rfl
    rw [List.foldl_cons, ha]
    exact foldl_andi_one f l fun n hn => h n (List.mem_cons_of_mem _ hn)

/-- A reduce by `and` of an array of 1s, started at 1, is 1 at every result index. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_one x _ fun n _ => hx n

/-- The row a one-column index belongs to. -/
def rowOf (k : S800000x1.Idx) : S800000.Idx := fun a => match a with
  | ⟨0, _⟩ => ⟨(k 0).val, (k 0).isLt⟩

/-- An index in `[0, 100000)` is not negative, so the wrap leaves it: the one-column array holds the vector's entries. -/
theorem wrapIdx_apply (idx : S800000.Idx → BitVec 32)
    (hidx : ∀ i, 0 ≤ (idx i).toInt ∧ (idx i).toInt < 100000) (k : S800000x1.Idx) :
    wrapIdx (F := F) idx k = idx (rowOf k) := by
  unfold wrapIdx
  rw [broadcastInDim_apply _ bcast_S800000_S800000x1_0 _ k (rowOf k) (fun a => match a with
    | ⟨0, _⟩ => by show (k 0).val = if (800000 : Nat) = 1 then 0 else (k 0).val; rw [if_neg (by decide)])]
  show Scalar.select (IntOp.cmpi .slt (idx (rowOf k)) 0#32) (IntOp.addi (idx (rowOf k)) 100000#32) (idx (rowOf k))
    = idx (rowOf k)
  have hn : ¬ IntOp.cmpi .slt (idx (rowOf k)) 0#32 = 1#1 := by
    rw [IntOp.cmpi_slt]
    have h1 := (hidx (rowOf k)).1
    have h0 : (0#32 : BitVec 32).toInt = 0 := by decide
    omega
  exact if_neg hn

/-- With every index in `[0, 100000)` the guard holds at every row, and the guarded gather is the bare gather. -/
theorem guardedTake_eq (x : (⟨S100000x128, .f32⟩ : BufTy).Contents (Elt F)) (idx : S800000.Idx → BitVec 32)
    (hidx : ∀ i, 0 ≤ (idx i).toInt ∧ (idx i).toInt < 100000) :
    guardedTake (F := F) x idx
      = Host.gather gather_S100000x128_S800000x1_S800000x128_1_0_n_n_0_1_1128 x (wrapIdx (F := F) idx) := by
  have hr : ∀ j, inRange (F := F) (wrapIdx idx) j = 1#1 := by
    intro j
    unfold inRange
    refine reduce_andi_one _ _ _ _ (fun k => ?_) (fun _ => rfl) j
    show IntOp.andi (IntOp.cmpi .sge (wrapIdx idx k) 0#32) (IntOp.cmpi .sle (wrapIdx idx k) 99999#32) = 1#1
    rw [wrapIdx_apply idx hidx k, IntOp.andi_eq_one, IntOp.cmpi_sge, IntOp.cmpi_sle]
    have h0 : (0#32 : BitVec 32).toInt = 0 := by decide
    have h9 : (99999#32 : BitVec 32).toInt = 99999 := by decide
    have h1 := hidx (rowOf k)
    omega
  have key : ∀ i, guardedTake (F := F) x idx i
      = Host.gather gather_S100000x128_S800000x1_S800000x128_1_0_n_n_0_1_1128 x (wrapIdx (F := F) idx) i := by
    intro i
    have hc : broadcastInDim S800000x128 ![0] bcast_S800000_S800000x128_0 (inRange (F := F) (wrapIdx idx)) i = 1#1 := by
      unfold broadcastInDim; exact hr _
    unfold guardedTake
    show Scalar.select (broadcastInDim S800000x128 ![0] bcast_S800000_S800000x128_0 (inRange (F := F) (wrapIdx idx)) i)
      _ _ = _
    rw [hc, select_one]
  exact funext key

end Guarded

/-! ### The joined index vectors hold entries of the edge-index array, and the wrapped column is the reference's -/

section Entries

variable {F : FTy → Type} [FloatOps F]

/-- The index of a vector of 400000 entries at a position below 400000. -/
def halfIdx (n : Nat) (h : n < 400000) : Cert.ReferenceIdeal.S400000.Idx := fun a => match a with
  | ⟨0, _⟩ => ⟨n, h⟩

open Cert.ReferenceIdeal.Stages in
/-- Each entry of the first row of the edge-index array, laid flat, is an entry of the array. -/
theorem v1_entry (x2 : (⟨2, ![2, 400000]⟩ : Shape).Idx → BitVec 32) (i : Cert.ReferenceIdeal.S400000.Idx) :
    ∃ k, val_main_v1 (F := F) x2 i = x2 k :=
  ⟨_, (val_main_v1_apply x2 i).trans (val_main_v0_apply x2 _)⟩

open Cert.ReferenceIdeal.Stages in
/-- Each entry of the second row of the edge-index array, laid flat, is an entry of the array. -/
theorem v3_entry (x2 : (⟨2, ![2, 400000]⟩ : Shape).Idx → BitVec 32) (i : Cert.ReferenceIdeal.S400000.Idx) :
    ∃ k, val_main_v3 (F := F) x2 i = x2 k :=
  ⟨_, (val_main_v3_apply x2 i).trans (val_main_v2_apply x2 _)⟩

open Cert.ReferenceIdeal.Stages in
/-- Each entry of the sources-then-targets vector is an entry of the edge-index array: a position below 400000
    reads the first piece, any other the second at 400000 less. -/
theorem v4_entry (x2 : (⟨2, ![2, 400000]⟩ : Shape).Idx → BitVec 32) (j : Cert.ReferenceIdeal.S800000.Idx) :
    ∃ k, val_main_v4 (F := F) x2 j = x2 k := by
  unfold val_main_v4
  by_cases hj : (j 0).val < 400000
  · obtain ⟨k, hk⟩ := v1_entry (F := F) x2 (halfIdx (j 0).val hj)
    refine ⟨k, ?_⟩
    rw [concatenate_pair_apply_left (t := Cert.ReferenceIdeal.S800000) (s₁ := Cert.ReferenceIdeal.S400000)
      (s₂ := Cert.ReferenceIdeal.S400000) _ _ _ _ j rfl (halfIdx (j 0).val hj)
      (fun b => match b with | ⟨0, _⟩ => rfl)]
    exact hk
  · have hlt : (j 0).val < 800000 := (j 0).isLt
    have hlt2 : (j 0).val - 400000 < 400000 := by omega
    obtain ⟨k, hk⟩ := v3_entry (F := F) x2 (halfIdx ((j 0).val - 400000) hlt2)
    refine ⟨k, ?_⟩
    rw [concatenate_pair_apply_right (t := Cert.ReferenceIdeal.S800000) (s₁ := Cert.ReferenceIdeal.S400000)
      (s₂ := Cert.ReferenceIdeal.S400000) _ _ _ _ j rfl rfl (halfIdx ((j 0).val - 400000) hlt2)
      (fun b hb => (hb (Fin.ext (by have hb1 : b.val < 1 := b.isLt; show b.val = 0; omega))).elim)
      (by show (j 0).val - 400000 + 400000 = (j 0).val; omega)]
    exact hk

open Cert.ReferenceIdeal.Stages in
/-- The same for the targets-then-sources vector. -/
theorem v5_entry (x2 : (⟨2, ![2, 400000]⟩ : Shape).Idx → BitVec 32) (j : Cert.ReferenceIdeal.S800000.Idx) :
    ∃ k, val_main_v5 (F := F) x2 j = x2 k := by
  unfold val_main_v5
  by_cases hj : (j 0).val < 400000
  · obtain ⟨k, hk⟩ := v3_entry (F := F) x2 (halfIdx (j 0).val hj)
    refine ⟨k, ?_⟩
    rw [concatenate_pair_apply_left (t := Cert.ReferenceIdeal.S800000) (s₁ := Cert.ReferenceIdeal.S400000)
      (s₂ := Cert.ReferenceIdeal.S400000) _ _ _ _ j rfl (halfIdx (j 0).val hj)
      (fun b => match b with | ⟨0, _⟩ => rfl)]
    exact hk
  · have hlt : (j 0).val < 800000 := (j 0).isLt
    have hlt2 : (j 0).val - 400000 < 400000 := by omega
    obtain ⟨k, hk⟩ := v1_entry (F := F) x2 (halfIdx ((j 0).val - 400000) hlt2)
    refine ⟨k, ?_⟩
    rw [concatenate_pair_apply_right (t := Cert.ReferenceIdeal.S800000) (s₁ := Cert.ReferenceIdeal.S400000)
      (s₂ := Cert.ReferenceIdeal.S400000) _ _ _ _ j rfl rfl (halfIdx ((j 0).val - 400000) hlt2)
      (fun b hb => (hb (Fin.ext (by have hb1 : b.val < 1 := b.isLt; show b.val = 0; omega))).elim)
      (by show (j 0).val - 400000 + 400000 = (j 0).val; omega)]
    exact hk

open Cert.ReferenceIdeal.Stages in
/-- The wrapped one-column array of the sources-then-targets vector is the reference's stage: the same operations. -/
theorem wrapIdx_v4 (x2 : (⟨2, ![2, 400000]⟩ : Shape).Idx → BitVec 32) :
    wrapIdx (F := F) (val_main_v4 (F := F) x2) = val_main_v12 (F := F) x2 := by
  unfold wrapIdx val_main_v12 val_main_v11 val_main_v8 val_main_v10 val_main_v7 val_main_v9 val_main_c val_main_c_0
  rfl

open Cert.ReferenceIdeal.Stages in
/-- The same for the targets-then-sources vector. -/
theorem wrapIdx_v5 (x2 : (⟨2, ![2, 400000]⟩ : Shape).Idx → BitVec 32) :
    wrapIdx (F := F) (val_main_v5 (F := F) x2) = val_main_v19 (F := F) x2 := by
  unfold wrapIdx val_main_v19 val_main_v18 val_main_v15 val_main_v17 val_main_v14 val_main_v16 val_main_c_1 val_main_c_2
  rfl

/-- The two programs' gather records have the same fields. -/
theorem gather_rec_eq :
    Cert.KernelIdeal.gather_S100000x128_S800000x1_S800000x128_1_0_n_n_0_1_1128
      = Cert.ReferenceIdeal.gather_S100000x128_S800000x1_S800000x128_1_0_n_n_0_1_1128 := rfl

end Entries

/-! ### What the first stretch leaves at the buffers the two gathers read -/

/-- The node table after the first stretch: no operation of it writes an argument. -/
theorem W1_main_arg0 : W1 m ρ c (Proc.devRef .tc main_arg0) = nodeFeats m c :=
  calc W1 m ρ c (Proc.devRef .tc main_arg0)
    _ = W0 m ρ c (Proc.devRef .tc main_arg0) := by step_over hostOps0
    _ = m ((c : Thread nD τ).loc main_arg0) := rfl

/-- The node table after the first guarded gather: that stretch writes no argument either. -/
theorem W2_main_arg0 : W2 m ρ c (Proc.devRef .tc main_arg0) = nodeFeats m c :=
  calc W2 m ρ c (Proc.devRef .tc main_arg0)
    _ = W1 m ρ c (Proc.devRef .tc main_arg0) := by step_over hostOps0_1
    _ = nodeFeats m c := W1_main_arg0 m ρ c

open Cert.ReferenceIdeal.Stages in
/-- The sources-then-targets vector the first stretch builds is the reference's stage: the same slices, reshapes
    and concatenate of the edge-index array. -/
theorem W1_main_v4 :
    (W1 m ρ c (Proc.devRef .tc main_v4) : (⟨1, ![800000]⟩ : Shape).Idx → BitVec 32)
      = val_main_v4 (F := Ideal) (edgeIndex m c) := by
  show StableHlo.after hostOps0 (W0 m ρ c) (Proc.devRef .tc main_v4) = _
  after_results
  unfold val_main_v4 val_main_v3 val_main_v1 val_main_v2 val_main_v0
  rfl

open Cert.ReferenceIdeal.Stages in
/-- The targets-then-sources vector likewise. -/
theorem W1_main_v5 :
    (W1 m ρ c (Proc.devRef .tc main_v5) : (⟨1, ![800000]⟩ : Shape).Idx → BitVec 32)
      = val_main_v5 (F := Ideal) (edgeIndex m c) := by
  show StableHlo.after hostOps0 (W0 m ρ c) (Proc.devRef .tc main_v5) = _
  after_results
  unfold val_main_v5 val_main_v3 val_main_v1 val_main_v2 val_main_v0
  rfl

open Cert.ReferenceIdeal.Stages in
/-- The first guarded gather does not write the targets-then-sources vector. -/
theorem W2_main_v5 :
    (W2 m ρ c (Proc.devRef .tc main_v5) : (⟨1, ![800000]⟩ : Shape).Idx → BitVec 32)
      = val_main_v5 (F := Ideal) (edgeIndex m c) :=
  calc W2 m ρ c (Proc.devRef .tc main_v5)
    _ = W1 m ρ c (Proc.devRef .tc main_v5) := by step_over hostOps0_1
    _ = val_main_v5 (F := Ideal) (edgeIndex m c) := W1_main_v5 m ρ c

open Cert.ReferenceIdeal.Stages in
/-- With every endpoint a node index, so is every entry of the sources-then-targets vector. -/
theorem v4_range (h : EndpointsInRange m c) (j : Cert.ReferenceIdeal.S800000.Idx) :
    0 ≤ (val_main_v4 (F := Ideal) (edgeIndex m c) j).toInt ∧ (val_main_v4 (F := Ideal) (edgeIndex m c) j).toInt < 100000 := by
  obtain ⟨k, hk⟩ := v4_entry (F := Ideal) (edgeIndex m c) j
  rw [hk]; exact h k

open Cert.ReferenceIdeal.Stages in
/-- And every entry of the targets-then-sources vector. -/
theorem v5_range (h : EndpointsInRange m c) (j : Cert.ReferenceIdeal.S800000.Idx) :
    0 ≤ (val_main_v5 (F := Ideal) (edgeIndex m c) j).toInt ∧ (val_main_v5 (F := Ideal) (edgeIndex m c) j).toInt < 100000 := by
  obtain ⟨k, hk⟩ := v5_entry (F := Ideal) (edgeIndex m c) j
  rw [hk]; exact h k

/-- The edge table laid twice over is the reference's stage of the same name. -/
theorem edge_table :
    (W10 m ρ c (Proc.devRef .tc main_v6) : (⟨2, ![800000, 64]⟩ : Shape).Idx → EReal)
      = Cert.ReferenceIdeal.Stages.val_main_v6 (F := Ideal) (edgeFeats m c) := by
  rw [W10_main_v6]
  show StableHlo.after hostOps0 (W0 m ρ c) (Proc.devRef .tc main_v6) = _
  after_results
  unfold Cert.ReferenceIdeal.Stages.val_main_v6
  rfl

/-- The target endpoints followed by the source endpoints: the segment ids of the aggregation. -/
theorem target_ids :
    (W10 m ρ c (Proc.devRef .tc main_v5) : (⟨1, ![800000]⟩ : Shape).Idx → BitVec 32)
      = Cert.ReferenceIdeal.Stages.val_main_v5 (F := Ideal) (edgeIndex m c) := by
  rw [W10_main_v5]
  exact W1_main_v5 m ρ c

/-- With every endpoint a node index, the guarded gather of the source rows is the bare gather. -/
theorem source_table (h : EndpointsInRange m c) :
    (W10 m ρ c (Proc.devRef .tc main_v7) : (⟨2, ![800000, 128]⟩ : Shape).Idx → EReal)
      = Cert.ReferenceIdeal.Stages.val_main_v13 (F := Ideal) (nodeFeats m c) (edgeIndex m c) := by
  rw [W10_main_v7]
  have e : W2 m ρ c (Proc.devRef .tc main_v7)
      = guardedTake (F := Ideal) (W1 m ρ c (Proc.devRef .tc main_arg0)) (W1 m ρ c (Proc.devRef .tc main_v4)) :=
    take0_result (W1 m ρ c)
  rw [e, W1_main_arg0, W1_main_v4, guardedTake_eq _ _ (v4_range m c h), wrapIdx_v4, gather_rec_eq]
  rfl

/-- With every endpoint a node index, the guarded gather of the target rows is the bare gather. -/
theorem target_table (h : EndpointsInRange m c) :
    (W10 m ρ c (Proc.devRef .tc main_v8) : (⟨2, ![800000, 128]⟩ : Shape).Idx → EReal)
      = Cert.ReferenceIdeal.Stages.val_main_v20 (F := Ideal) (nodeFeats m c) (edgeIndex m c) := by
  rw [W10_main_v8]
  have e : W3 m ρ c (Proc.devRef .tc main_v8)
      = guardedTake (F := Ideal) (W2 m ρ c (Proc.devRef .tc main_arg0)) (W2 m ρ c (Proc.devRef .tc main_v5)) :=
    take1_result (W2 m ρ c)
  rw [e, W2_main_arg0, W2_main_v5, guardedTake_eq _ _ (v5_range m c h), wrapIdx_v5, gather_rec_eq]
  rfl

end Cert.TakeTables

end
-- ==== Proof.RowMath.lean ====
/-
  The row mathematics both programs share, on the extended reals.

  A row `p : Fin 128 → EReal` is normalised by its mean `μ = (Σ p) / 128` and its variance
  `σ² = (Σ (p − μ)²) / 128`, shifted by a positive word `ε`: one program multiplies the centred entry by
  `rsqrt (σ² + ε)`, the other divides it by `sqrt (σ² + ε)`. A square is never negative on the extended reals
  (`⊥ · ⊥ = ⊤`), so `σ² + ε` lies in `(0, ⊤]`, and on that range the two spellings agree: at a positive real
  both are the product with `(√s)⁻¹`, at `⊤` both are the product with `0`.

  The first dense layer of one program is a single contraction over 320 (or 256) columns, of the other a sum of
  contractions over the column ranges 0–127, 128–255 (and 256–319): addition on the extended reals is
  commutative and associative, so a sum over `Fin 320` splits along those ranges.
-/
import Idealize.ShloMosaic.PureOps.Ideal
import Idealize.ShloMosaic.Lib.ValueIdx
import Mathlib.Algebra.BigOperators.Fin

noncomputable section

namespace Cert.LayerMath

open Idealize.ShloMosaic Idealize.ShloMosaic.ValueIdx

/-- The f32 word of `128`, the length of a row. -/
abbrev w128 : EReal := Ideal.ofBits .f32 0x43000000#32
/-- The f32 word the variance is shifted by (the f32 nearest to `1e-5`). -/
abbrev wEps : EReal := Ideal.ofBits .f32 0x3727C5AC#32

/-- The word `0x43000000` denotes the real number 128. -/
theorem w128_eq : w128 = ((128 : ℝ) : EReal) := by
  simp [w128, Ideal.ofBits, Ideal.ieee, -EReal.coe_mul]; norm_num

/-- The shift is a positive number. -/
theorem wEps_pos : (0 : EReal) < wEps := by
  simp [wEps, Ideal.ofBits, Ideal.ieee, -EReal.coe_mul]

/-- The mean of a row of 128 entries. -/
def rowMean (p : Fin 128 → EReal) : EReal := Ideal.div (∑ k, p k) w128

/-- The (biased) variance of a row of 128 entries about its mean. -/
def rowVar (p : Fin 128 → EReal) : EReal :=
  Ideal.div (∑ k, (p k - rowMean p) * (p k - rowMean p)) w128

/-- A square is not negative on the extended reals: the square of either infinity is the upper one. -/
private theorem mul_self_nonneg_ereal (x : EReal) : 0 ≤ x * x := by
  induction x using EReal.rec with
  | bot => simp
  | coe r => exact_mod_cast mul_self_nonneg r
  | top => simp

/-- Dividing by the word of 128 is the product with the real 1/128. -/
private theorem div_w128 (s : EReal) : Ideal.div s w128 = s * (((1 / 128 : ℝ)) : EReal) := by
  rw [w128_eq]; exact Ideal.div_coe (by norm_num) s

/-- A sum of squares divided by 128 is not negative, so the shifted variance is positive, whatever the row holds. -/
theorem shifted_var_pos (p : Fin 128 → EReal) : 0 < rowVar p + wEps := by
  have hsum : (0 : EReal) ≤ ∑ k, (p k - rowMean p) * (p k - rowMean p) :=
    Finset.sum_nonneg fun k _ => mul_self_nonneg_ereal _
  have hvar : (0 : EReal) ≤ rowVar p := by
    rw [rowVar, div_w128]
    exact EReal.mul_nonneg hsum (by exact_mod_cast (by norm_num : (0 : ℝ) ≤ 1 / 128))
  exact lt_of_lt_of_le wEps_pos (le_add_of_nonneg_left hvar)

/-- On `(0, ⊤]` the reciprocal square root is the inverse of the square root: multiplying by the one is dividing
    by the other. -/
theorem mul_rsqrt_eq_div_sqrt (x s : EReal) (hs : 0 < s) : x * Ideal.rsqrt s = Ideal.div x (Ideal.sqrt s) := by
  induction s using EReal.rec with
  | bot => exact absurd hs (not_lt_bot)
  | top =>
    rw [Ideal.rsqrt_top, Ideal.sqrt_top, Ideal.div, if_neg EReal.top_ne_zero, EReal.inv_top]
  | coe r =>
    have hr : 0 < r := by exact_mod_cast hs
    have hsq : Real.sqrt r ≠ 0 := (Real.sqrt_pos.mpr hr).ne'
    rw [Ideal.rsqrt_coe, Ideal.sqrt_coe, if_neg (not_lt.mpr hr.le), if_neg hr.ne', if_neg (not_lt.mpr hr.le),
      Ideal.div, if_neg (by exact_mod_cast hsq), EReal.coe_inv]

/-- The normalised row, scaled and shifted, the centred entry MULTIPLIED by the reciprocal square root. -/
def normByRsqrt (p g b : Fin 128 → EReal) (j : Fin 128) : EReal :=
  (p j - rowMean p) * Ideal.rsqrt (rowVar p + wEps) * g j + b j

/-- The normalised row, scaled and shifted, the centred entry DIVIDED by the square root. -/
def normBySqrt (p g b : Fin 128 → EReal) (j : Fin 128) : EReal :=
  Ideal.div (p j - rowMean p) (Ideal.sqrt (rowVar p + wEps)) * g j + b j

/-- The two spellings of the normalisation are one function. -/
theorem normByRsqrt_eq_normBySqrt (p g b : Fin 128 → EReal) (j : Fin 128) :
    normByRsqrt p g b j = normBySqrt p g b j := by
  rw [normByRsqrt, normBySqrt, mul_rsqrt_eq_div_sqrt _ _ (shifted_var_pos p)]

/-- The second dense layer: the positive part of each entry, a contraction with a 128 × 128 matrix, a bias. -/
def denseAfterRelu (y : Fin 128 → EReal) (W : Fin 128 → Fin 128 → EReal) (c : Fin 128 → EReal) (j : Fin 128) : EReal :=
  (∑ k, max (y k) 0 * W k j) + c j

/-- A sum over 320 columns is the sum over columns 0–127, 128–255 and 256–319, in that grouping. -/
theorem sum_split_320 (f : Fin 320 → EReal) :
    ∑ k, f k = ((∑ k : Fin 128, f ⟨k.val, by omega⟩) + ∑ k : Fin 128, f ⟨128 + k.val, by omega⟩)
      + ∑ k : Fin 64, f ⟨256 + k.val, by omega⟩ := by
  have h := Fin.sum_univ_add (a := 128 + 128) (b := 64) f
  rw [Fin.sum_univ_add (a := 128) (b := 128)] at h
  exact h

/-- A sum over 256 columns is the sum over columns 0–127 and 128–255. -/
theorem sum_split_256 (f : Fin 256 → EReal) :
    ∑ k, f k = (∑ k : Fin 128, f ⟨k.val, by omega⟩) + ∑ k : Fin 128, f ⟨128 + k.val, by omega⟩ := by
  exact Fin.sum_univ_add (a := 128) (b := 128) f

/-! ## The two tables, row by row

  Arrays are read at `ix2 r k` (row `r`, column `k`); a bias or scale vector is given as a function of its
  column. The number of rows `R` is a parameter: the same function describes a table and the table padded with
  further rows. -/

/-- The message table: row `r` is the two-layer map of row `r` of a source table `S`, a target table `T` and an
    edge table `E` — first layer `S·A + T·B + E·C + b₁` (in that grouping), normalisation with scale `g` and
    shift `bl`, positive part, second layer `·W₂ + b₂`. -/
def msgTable {R : Nat} (S T : (⟨2, ![R, 128]⟩ : Shape).Idx → EReal) (E : (⟨2, ![R, 64]⟩ : Shape).Idx → EReal)
    (A B : (⟨2, ![128, 128]⟩ : Shape).Idx → EReal) (C : (⟨2, ![64, 128]⟩ : Shape).Idx → EReal)
    (b₁ g bl : Fin 128 → EReal) (W₂ : (⟨2, ![128, 128]⟩ : Shape).Idx → EReal) (b₂ : Fin 128 → EReal) :
    (⟨2, ![R, 128]⟩ : Shape).Idx → EReal := fun i =>
  denseAfterRelu
    (normByRsqrt (fun k => (((∑ a : Fin 128, S (ix2 (i 0) a) * A (ix2 a k)) + ∑ a : Fin 128, T (ix2 (i 0) a) * B (ix2 a k))
        + ∑ a : Fin 64, E (ix2 (i 0) a) * C (ix2 a k)) + b₁ k) g bl)
    (fun a k => W₂ (ix2 a k)) b₂ (i 1)

/-- The update table: row `n` is the node's own row `X n` plus the two-layer map of `X n` and the aggregated row
    `Y n` — first layer `X·A + Y·B + b₁`, normalisation, positive part, second layer `·W₂ + b₂`. -/
def updTable {R : Nat} (X Y : (⟨2, ![R, 128]⟩ : Shape).Idx → EReal)
    (A B : (⟨2, ![128, 128]⟩ : Shape).Idx → EReal)
    (b₁ g bl : Fin 128 → EReal) (W₂ : (⟨2, ![128, 128]⟩ : Shape).Idx → EReal) (b₂ : Fin 128 → EReal) :
    (⟨2, ![R, 128]⟩ : Shape).Idx → EReal := fun i =>
  X (ix2 (i 0) (i 1)) + denseAfterRelu
    (normByRsqrt (fun k => ((∑ a : Fin 128, X (ix2 (i 0) a) * A (ix2 a k)) + ∑ a : Fin 128, Y (ix2 (i 0) a) * B (ix2 a k)) + b₁ k) g bl)
    (fun a k => W₂ (ix2 a k)) b₂ (i 1)

end Cert.LayerMath

end
-- ==== Proof.MsgRegion.lean ====
/-
  What the first pallas region leaves in its output array, for ANY contents `V` the region finds its arrays at.

  The grid has 196 points; point `t` reads rows `4096 t … 4096 t + 4095` of the three row-tiled operands and the
  whole of each weight and bias array, and writes the same rows of the output. Row `r` of the output therefore
  depends only on row `r` of the source, target and edge tables: it is the two-layer map `Cert.LayerMath.msgTable`
  of those rows. The blocks tile the 802816 rows exactly, so the whole array is that function.
-/
import proofs.«423946_j67886253081357_1_alg».proof.Proof.Gen.KernelIdeal.Frame
import proofs.«423946_j67886253081357_1_alg».proof.Proof.RowMath
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MsgRegion

open Cert.KernelIdeal Cert.KernelIdeal.Gen Cert.LayerMath
open Idealize.ShloMosaic Idealize.ShloMosaic.TcCoe Idealize.ShloMosaic.ValueIdx Idealize.SL.Sem
open Idealize.ShloMosaic.Pipeline (Dat Cfg Window)

/-! ## Layout steps of the body, read at an index -/

/-- The zero offsets of a whole-buffer access, as a constant function. -/
theorem hz : (![0, 0] : Fin 2 → Nat) = fun _ => 0 := funext fun a => by fin_cases a <;> rfl

/-- A vector of `a` entries viewed as a column `[a, 1]` reads its entry `i` at `(i, u)`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast along its unit axis to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two contractions of the body, read at an index

  A product of a `4096 × K` block with a `K × 128` matrix into a zero accumulator is, at `(p, q)`, the sum over
  `k` of the block's entry `(p, k)` times the matrix's entry `(k, q)` (`K` is 128 or 64). -/

theorem lhs_mm128_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_mm128_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_mm128_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_mm128_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

theorem mm128_apply (l : FVec Ideal S4096x128 .bf16) (r : FVec Ideal S128x128 .bf16) (p : Fin 4096) (q : Fin 128) :
    matmul dot_S4096x128_S128x128_S4096x128_1_0_0_1_n_n none l r (constant (F := Ideal) S4096x128 .f32 0x00000000#32) (ix2 p q)
      = ∑ k : Fin 128, l (ix2 p k) * r (ix2 k q) := by
  simp only [matmul]
  rw [Ideal.matmul_constant_zero_apply, ← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx (ix2 p q) ((ValueIdx.contrEquiv1 dot_S4096x128_S128x128_S4096x128_1_0_0_1_n_n 128 rfl rfl).symm k) = ix2 p k := funext fun a => Fin.ext (by
    match a with
    | ⟨0, _⟩ => exact lhs_mm128_0 _ _
    | ⟨1, _⟩ => exact (lhs_mm128_1 _ _).trans hk)
  have er : dot_S4096x128_S128x128_S4096x128_1_0_0_1_n_n.rhsIdx (ix2 p q) ((ValueIdx.contrEquiv1 dot_S4096x128_S128x128_S4096x128_1_0_0_1_n_n 128 rfl rfl).symm k) = ix2 k q := funext fun a => Fin.ext (by
    match a with
    | ⟨0, _⟩ => exact (rhs_mm128_0 _ _).trans hk
    | ⟨1, _⟩ => exact rhs_mm128_1 _ _)
  rw [el, er]

theorem lhs_mm64_0 (i : S4096x128.Idx) (q : dot_S4096x64_S64x128_S4096x128_1_0_0_1_n_n.contr.Idx) :
    (dot_S4096x64_S64x128_S4096x128_1_0_0_1_n_n.lhsIdx i q 0).val = (i 0).val := by
  unfold DotDims.lhsIdx
  rw [dif_neg (show ¬(0 : Fin S4096x64.rank) ∈ dot_S4096x64_S64x128_S4096x128_1_0_0_1_n_n.lhsBatch by decide), dif_pos (show (0 : Fin S4096x64.rank) ∈ dot_S4096x64_S64x128_S4096x128_1_0_0_1_n_n.lhsNonContracting by decide)]
  rfl
theorem lhs_mm64_1 (i : S4096x128.Idx) (q : dot_S4096x64_S64x128_S4096x128_1_0_0_1_n_n.contr.Idx) :
    (dot_S4096x64_S64x128_S4096x128_1_0_0_1_n_n.lhsIdx i q 1).val = (q ⟨0, by decide⟩).val :=
  dot_S4096x64_S64x128_S4096x128_1_0_0_1_n_n.lhsIdx_val_of_single rfl i q
theorem rhs_mm64_0 (i : S4096x128.Idx) (q : dot_S4096x64_S64x128_S4096x128_1_0_0_1_n_n.contr.Idx) :
    (dot_S4096x64_S64x128_S4096x128_1_0_0_1_n_n.rhsIdx i q 0).val = (q ⟨0, by decide⟩).val :=
  dot_S4096x64_S64x128_S4096x128_1_0_0_1_n_n.rhsIdx_val_of_single rfl i q
theorem rhs_mm64_1 (i : S4096x128.Idx) (q : dot_S4096x64_S64x128_S4096x128_1_0_0_1_n_n.contr.Idx) :
    (dot_S4096x64_S64x128_S4096x128_1_0_0_1_n_n.rhsIdx i q 1).val = (i 1).val := by
  unfold DotDims.rhsIdx
  rw [dif_neg (show ¬(1 : Fin S64x128.rank) ∈ dot_S4096x64_S64x128_S4096x128_1_0_0_1_n_n.rhsBatch by decide), dif_pos (show (1 : Fin S64x128.rank) ∈ dot_S4096x64_S64x128_S4096x128_1_0_0_1_n_n.rhsNonContracting by decide)]
  rfl

theorem mm64_apply (l : FVec Ideal S4096x64 .bf16) (r : FVec Ideal S64x128 .bf16) (p : Fin 4096) (q : Fin 128) :
    matmul dot_S4096x64_S64x128_S4096x128_1_0_0_1_n_n none l r (constant (F := Ideal) S4096x128 .f32 0x00000000#32) (ix2 p q)
      = ∑ k : Fin 64, l (ix2 p k) * r (ix2 k q) := by
  simp only [matmul]
  rw [Ideal.matmul_constant_zero_apply, ← Equiv.sum_comp (ValueIdx.contrEquiv1 dot_S4096x64_S64x128_S4096x128_1_0_0_1_n_n 64 rfl rfl).symm]
  refine Finset.sum_congr rfl fun k _ => ?_
  have hk := ValueIdx.contrEquiv1_symm_val dot_S4096x64_S64x128_S4096x128_1_0_0_1_n_n 64 rfl rfl k
  have el : dot_S4096x64_S64x128_S4096x128_1_0_0_1_n_n.lhsIdx (ix2 p q) ((ValueIdx.contrEquiv1 dot_S4096x64_S64x128_S4096x128_1_0_0_1_n_n 64 rfl rfl).symm k) = ix2 p k := funext fun a => Fin.ext (by
    match a with
    | ⟨0, _⟩ => exact lhs_mm64_0 _ _
    | ⟨1, _⟩ => exact (lhs_mm64_1 _ _).trans hk)
  have er : dot_S4096x64_S64x128_S4096x128_1_0_0_1_n_n.rhsIdx (ix2 p q) ((ValueIdx.contrEquiv1 dot_S4096x64_S64x128_S4096x128_1_0_0_1_n_n 64 rfl rfl).symm k) = ix2 k q := funext fun a => Fin.ext (by
    match a with
    | ⟨0, _⟩ => exact (rhs_mm64_0 _ _).trans hk
    | ⟨1, _⟩ => exact rhs_mm64_1 _ _)
  rw [el, er]

/-! ## The body's arithmetic at one entry of the block

  All eleven operands are arbitrary here: three row-tiled blocks `x0 x1 x2`, the first layer's three matrices
  `x3 x4 x5` and bias `x6`, the scale and shift rows `x7 x8`, the second layer's matrix `x9` and bias `x10`. -/

/-- The sum of a `4096 × 128` block along each row: at row `p` it is the sum of that row's 128 entries. -/
theorem rowSum_apply (src : FVec Ideal S4096x128 .f32) (hφ : FKind.Formats .f32)
    (hacc : (0x00000000#32 : BitVec 32) = FKind.add.neutral .f32 hφ) (p : Fin 4096) :
    multiReduction (F := Ideal) .add [1] S4096 src 0x00000000#32 reduces_S4096x128_S4096 hφ hacc (ix1 p)
      = ∑ k : Fin 128, src (ix2 p k) := by
  refine (Ideal.multiReduction_add_single src 0x00000000#32 reduces_S4096x128_S4096 hφ hacc (ix1 p)).trans ?_
  refine Finset.sum_congr rfl fun k _ => congrArg src ?_
  funext a
  apply Fin.ext
  match a with
  | ⟨0, _⟩ => rfl
  | ⟨1, _⟩ => rfl

section Payload

variable (x0 x1 : Vec Ideal S4096x128 .f32) (x2 : Vec Ideal S4096x64 .f32) (x3 x4 : Vec Ideal S128x128 .f32)
  (x5 : Vec Ideal S64x128 .f32) (x6 x7 x8 : Vec Ideal S1x128 .f32) (x9 : Vec Ideal S128x128 .f32)
  (x10 : Vec Ideal S1x128 .f32)

/-- The first layer at `(p, k)`: row `p` of the three blocks against column `k` of the three matrices, the three
    contractions added left to right, then the bias. -/
theorem pay2_apply (p : Fin 4096) (k : Fin 128) :
    k0_pay2 (F := Ideal) x0 x1 x2 x3 x4 x5 x6 (ix2 p k)
      = (((∑ a : Fin 128, x0 (ix2 p a) * x3 (ix2 a k)) + ∑ a : Fin 128, x1 (ix2 p a) * x4 (ix2 a k))
          + ∑ a : Fin 64, x2 (ix2 p a) * x5 (ix2 a k)) + x6 (ix2 (0 : Fin 1) k) := by
  unfold k0_pay2
  show ((matmul dot_S4096x128_S128x128_S4096x128_1_0_0_1_n_n none _ _ _ (ix2 p k) + matmul dot_S4096x128_S128x128_S4096x128_1_0_0_1_n_n none _ _ _ (ix2 p k))
      + matmul dot_S4096x64_S64x128_S4096x128_1_0_0_1_n_n none _ _ _ (ix2 p k)) + broadcastTo S4096x128 _ _ (ix2 p k) = _
  refine congrArg₂ (· + ·) (congrArg₂ (· + ·) (congrArg₂ (· + ·) ?_ ?_) ?_) ?_
  · refine (mm128_apply _ _ p k).trans (Finset.sum_congr rfl fun a _ => ?_)
    show shapeCast S4096x128 x0 _ (ix2 p a) * shapeCast S128x128 x3 _ (ix2 a k) = _
    rw [shapeCast_self, shapeCast_self]
  · refine (mm128_apply _ _ p k).trans (Finset.sum_congr rfl fun a _ => ?_)
    show shapeCast S4096x128 x1 _ (ix2 p a) * shapeCast S128x128 x4 _ (ix2 a k) = _
    rw [shapeCast_self, shapeCast_self]
  · refine (mm64_apply _ _ p k).trans (Finset.sum_congr rfl fun a _ => ?_)
    show shapeCast S4096x64 x2 _ (ix2 p a) * shapeCast S64x128 x5 _ (ix2 a k) = _
    rw [shapeCast_self, shapeCast_self]
  · refine (broadcastTo_1b_ab_apply _ _ p k).trans ?_
    rw [shapeCast_self]

/-- The scale row and the shift row pass through unchanged. -/
theorem pay3_eq : k0_pay3 (F := Ideal) x7 = x7 := by
  unfold k0_pay3
  exact shapeCast_self _ _
theorem pay4_eq : k0_pay4 (F := Ideal) x8 = x8 := by
  unfold k0_pay4
  exact shapeCast_self _ _

/-- The column of row means: at row `p` the mean of the first layer's row `p`. -/
theorem pay5_apply (p : Fin 4096) (u : Fin 1) :
    k0_pay5 (F := Ideal) x0 x1 x2 x3 x4 x5 x6 (ix2 p u)
      = rowMean (fun k => k0_pay2 (F := Ideal) x0 x1 x2 x3 x4 x5 x6 (ix2 p k)) := by
  unfold k0_pay5 rowMean
  show Ideal.div (shapeCast S4096x1 _ shapeCasts_S4096_S4096x1 (ix2 p u)) w128 = Ideal.div _ w128
  refine congrArg (fun s => Ideal.div s w128) ?_
  refine (shapeCast_a_a1_apply _ shapeCasts_S4096_S4096x1 p u).trans ?_
  exact rowSum_apply _ _ _ p

/-- The column of means spread along each row. -/
theorem pay6_apply (p : Fin 4096) (q : Fin 128) :
    k0_pay6 (F := Ideal) x0 x1 x2 x3 x4 x5 x6 (ix2 p q)
      = k0_pay5 (F := Ideal) x0 x1 x2 x3 x4 x5 x6 (ix2 p (0 : Fin 1)) := by
  unfold k0_pay6
  exact broadcastTo_a1_ab_apply _ broadcasts_S4096x1_S4096x128 p q

end Payload

/-- The rest of the body at `(p, q)`, for any first-layer block `v26` whose row `p` has its mean `μ` in the column
    `v34` and along row `p` of `v35`: centre, divide the sum of squares by 128, shift, reciprocal square root,
    scale, shift, positive part, contraction with the second matrix, bias. -/
theorem pay1_apply (v26 : FVec Ideal S4096x128 .f32) (v28 v30 : FVec Ideal S1x128 .f32) (v34 : FVec Ideal S4096x1 .f32)
    (v35 : FVec Ideal S4096x128 .f32) (v56 : Vec Ideal S128x128 .f32) (v59 : Vec Ideal S1x128 .f32)
    (p : Fin 4096) (q : Fin 128) (μ : EReal) (h34 : v34 (ix2 p (0 : Fin 1)) = μ) (h35 : ∀ k : Fin 128, v35 (ix2 p k) = μ) :
    k0_pay1 (F := Ideal) v26 v28 v30 v34 v35 v56 v59 (ix2 p q)
      = (∑ k : Fin 128, max (((v26 (ix2 p k) - μ)
            * Ideal.rsqrt (Ideal.div (∑ j : Fin 128, (v26 (ix2 p j) - μ) * (v26 (ix2 p j) - μ)) w128 + wEps))
            * v28 (ix2 (0 : Fin 1) k) + v30 (ix2 (0 : Fin 1) k)) 0 * v56 (ix2 k q))
        + v59 (ix2 (0 : Fin 1) q) := by
  unfold k0_pay1
  show matmul dot_S4096x128_S128x128_S4096x128_1_0_0_1_n_n none _ _ _ (ix2 p q) + broadcastTo S4096x128 _ _ (ix2 p q) = _
  refine congrArg₂ (· + ·) ((mm128_apply _ _ p q).trans (Finset.sum_congr rfl fun k _ => ?_)) ?_
  · refine congrArg₂ (· * ·) ?_ rfl
    show max (((v26 (ix2 p k) - broadcastTo S4096x128 v34 _ (ix2 p k)) * broadcastTo S4096x128 _ _ (ix2 p k))
        * broadcastTo S4096x128 v28 _ (ix2 p k) + broadcastTo S4096x128 v30 _ (ix2 p k)) (Ideal.ofBits .f32 0x00000000#32) = _
    refine congrArg₂ max (congrArg₂ (· + ·) (congrArg₂ (· * ·) (congrArg₂ (· * ·) (congrArg₂ (· - ·) rfl ?_) ?_) ?_) ?_)
      Ideal.ofBits_zero_f32
    · exact (broadcastTo_a1_ab_apply v34 _ p k).trans h34
    · refine (broadcastTo_a1_ab_apply _ _ p k).trans ?_
      show Ideal.rsqrt (Ideal.div (shapeCast S4096x1 _ shapeCasts_S4096_S4096x1 (ix2 p (0 : Fin 1))) w128 + wEps) = _
      refine congrArg (fun s => Ideal.rsqrt (Ideal.div s w128 + wEps)) ?_
      refine (shapeCast_a_a1_apply _ shapeCasts_S4096_S4096x1 p 0).trans ((rowSum_apply _ _ _ p).trans ?_)
      refine Finset.sum_congr rfl fun j _ => ?_
      show (v26 (ix2 p j) - v35 (ix2 p j)) * (v26 (ix2 p j) - v35 (ix2 p j)) = _
      rw [h35 j]
    · exact broadcastTo_1b_ab_apply v28 _ p k
    · exact broadcastTo_1b_ab_apply v30 _ p k
  · refine (broadcastTo_1b_ab_apply _ _ p q).trans ?_
    rw [shapeCast_self]

/-- WHAT THE BODY LEAVES at `(p, q)` of its output block: the two-layer map of row `p` of the three blocks. -/
theorem out_apply (x0 x1 : Vec Ideal S4096x128 .f32) (x2 : Vec Ideal S4096x64 .f32) (x3 x4 : Vec Ideal S128x128 .f32)
    (x5 : Vec Ideal S64x128 .f32) (x6 x7 x8 : Vec Ideal S1x128 .f32) (x9 : Vec Ideal S128x128 .f32)
    (x10 : Vec Ideal S1x128 .f32) (p : Fin 4096) (q : Fin 128) :
    out0_11 (F := Ideal) x0 x1 x2 x3 x4 x5 x6 x7 x8 x9 x10 (ix2 p q)
      = denseAfterRelu
          (normByRsqrt (fun k => (((∑ a : Fin 128, x0 (ix2 p a) * x3 (ix2 a k)) + ∑ a : Fin 128, x1 (ix2 p a) * x4 (ix2 a k))
              + ∑ a : Fin 64, x2 (ix2 p a) * x5 (ix2 a k)) + x6 (ix2 (0 : Fin 1) k))
            (fun k => x7 (ix2 (0 : Fin 1) k)) (fun k => x8 (ix2 (0 : Fin 1) k)))
          (fun a k => x9 (ix2 a k)) (fun k => x10 (ix2 (0 : Fin 1) k)) q := by
  unfold out0_11
  rw [View.canon_unit_zero hz]
  simp only [View.ld_unit_zero (S := S4096x128) hz, View.ld_unit_zero (S := S4096x64) hz,
    View.ld_unit_zero (S := S128x128) hz, View.ld_unit_zero (S := S64x128) hz, View.ld_unit_zero (S := S1x128) hz]
  rw [pay3_eq, pay4_eq]
  have hrow : (fun k => k0_pay2 (F := Ideal) x0 x1 x2 x3 x4 x5 x6 (ix2 p k))
      = fun k => (((∑ a : Fin 128, x0 (ix2 p a) * x3 (ix2 a k)) + ∑ a : Fin 128, x1 (ix2 p a) * x4 (ix2 a k))
          + ∑ a : Fin 64, x2 (ix2 p a) * x5 (ix2 a k)) + x6 (ix2 (0 : Fin 1) k) :=
    funext fun k => pay2_apply x0 x1 x2 x3 x4 x5 x6 p k
  refine (pay1_apply _ x7 x8 _ _ x9 x10 p q
    (rowMean (fun k => k0_pay2 (F := Ideal) x0 x1 x2 x3 x4 x5 x6 (ix2 p k)))
    (pay5_apply x0 x1 x2 x3 x4 x5 x6 p 0)
    (fun k => (pay6_apply x0 x1 x2 x3 x4 x5 x6 p k).trans (pay5_apply x0 x1 x2 x3 x4 x5 x6 p 0))).trans ?_
  show denseAfterRelu (normByRsqrt (fun k => k0_pay2 (F := Ideal) x0 x1 x2 x3 x4 x5 x6 (ix2 p k))
      (fun k => x7 (ix2 (0 : Fin 1) k)) (fun k => x8 (ix2 (0 : Fin 1) k)))
    (fun a k => x9 (ix2 a k)) (fun k => x10 (ix2 (0 : Fin 1) k)) q = _
  rw [hrow]

/-! ## From blocks to the array -/

/-- The index maps over the 196 points: the block index of a row-tiled window (0, 1, 2, 11) at point `t` is `(t, 0)`,
    that of a whole-array window (3 to 10) is `(0, 0)`. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_11.index t (0 : Fin 2) = t.val ∧ win0_11.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

/-- Window 0's block at point `t` holds rows `4096 t … 4096 t + 4095` of its array. -/
theorem blk0_apply (V : (c : Dev nD) → (b : Ref sig .tc) → Buf (Elt Ideal) ((c : Thread nD τ).loc b)) (c : Dev nD) (t : Fin cfg0.N) (p : Fin 4096) (a : Fin 128) (r : Fin 802816)
    (hr : r.val = 4096 * t.val + p.val) :
    (iblk0 V c 0 t : Vec Ideal S4096x128 .f32) (ix2 p a) = (V c main_v9 : S802816x128.Idx → EReal) (ix2 r a) := by
  have e := (idx_facts t).1
  unfold iblk0
  rw [View.read_apply]
  show V c main_v9 _ = V c main_v9 _
  refine congrArg (V c main_v9) (funext fun ax => Fin.ext ?_)
  match ax with
  | ⟨0, _⟩ => show win0_0.index t (0 : Fin 2) * 4096 + 1 * p.val = r.val; rw [e.1, hr]; omega
  | ⟨1, _⟩ => show win0_0.index t (1 : Fin 2) * 128 + 1 * a.val = a.val; rw [e.2]; omega

/-- Window 1's block at point `t` holds rows `4096 t … 4096 t + 4095` of its array. -/
theorem blk1_apply (V : (c : Dev nD) → (b : Ref sig .tc) → Buf (Elt Ideal) ((c : Thread nD τ).loc b)) (c : Dev nD) (t : Fin cfg0.N) (p : Fin 4096) (a : Fin 128) (r : Fin 802816)
    (hr : r.val = 4096 * t.val + p.val) :
    (iblk0 V c 1 t : Vec Ideal S4096x128 .f32) (ix2 p a) = (V c main_v10 : S802816x128.Idx → EReal) (ix2 r a) := by
  have e := (idx_facts t).2.1
  unfold iblk0
  rw [View.read_apply]
  show V c main_v10 _ = V c main_v10 _
  refine congrArg (V c main_v10) (funext fun ax => Fin.ext ?_)
  match ax with
  | ⟨0, _⟩ => show win0_1.index t (0 : Fin 2) * 4096 + 1 * p.val = r.val; rw [e.1, hr]; omega
  | ⟨1, _⟩ => show win0_1.index t (1 : Fin 2) * 128 + 1 * a.val = a.val; rw [e.2]; omega

/-- Window 2's block at point `t` holds rows `4096 t … 4096 t + 4095` of its array. -/
theorem blk2_apply (V : (c : Dev nD) → (b : Ref sig .tc) → Buf (Elt Ideal) ((c : Thread nD τ).loc b)) (c : Dev nD) (t : Fin cfg0.N) (p : Fin 4096) (a : Fin 64) (r : Fin 802816)
    (hr : r.val = 4096 * t.val + p.val) :
    (iblk0 V c 2 t : Vec Ideal S4096x64 .f32) (ix2 p a) = (V c main_v11 : S802816x64.Idx → EReal) (ix2 r a) := by
  have e := (idx_facts t).2.2.1
  unfold iblk0
  rw [View.read_apply]
  show V c main_v11 _ = V c main_v11 _
  refine congrArg (V c main_v11) (funext fun ax => Fin.ext ?_)
  match ax with
  | ⟨0, _⟩ => show win0_2.index t (0 : Fin 2) * 4096 + 1 * p.val = r.val; rw [e.1, hr]; omega
  | ⟨1, _⟩ => show win0_2.index t (1 : Fin 2) * 64 + 1 * a.val = a.val; rw [e.2]; omega

/-- Window 3's block at every point is its whole array. -/
theorem blk3_apply (V : (c : Dev nD) → (b : Ref sig .tc) → Buf (Elt Ideal) ((c : Thread nD τ).loc b)) (c : Dev nD) (t : Fin cfg0.N) (a : Fin 128) (k : Fin 128) :
    (iblk0 V c 3 t : Vec Ideal S128x128 .f32) (ix2 a k) = (V c main_v12 : S128x128.Idx → EReal) (ix2 a k) := by
  have e := (idx_facts t).2.2.2.2.1
  unfold iblk0
  rw [View.read_apply]
  show V c main_v12 _ = V c main_v12 _
  refine congrArg (V c main_v12) (funext fun ax => Fin.ext ?_)
  match ax with
  | ⟨0, _⟩ => show win0_3.index t (0 : Fin 2) * 128 + 1 * a.val = a.val; rw [e.1]; omega
  | ⟨1, _⟩ => show win0_3.index t (1 : Fin 2) * 128 + 1 * k.val = k.val; rw [e.2]; omega

/-- Window 4's block at every point is its whole array. -/
theorem blk4_apply (V : (c : Dev nD) → (b : Ref sig .tc) → Buf (Elt Ideal) ((c : Thread nD τ).loc b)) (c : Dev nD) (t : Fin cfg0.N) (a : Fin 128) (k : Fin 128) :
    (iblk0 V c 4 t : Vec Ideal S128x128 .f32) (ix2 a k) = (V c main_v13 : S128x128.Idx → EReal) (ix2 a k) := by
  have e := (idx_facts t).2.2.2.2.2.1
  unfold iblk0
  rw [View.read_apply]
  show V c main_v13 _ = V c main_v13 _
  refine congrArg (V c main_v13) (funext fun ax => Fin.ext ?_)
  match ax with
  | ⟨0, _⟩ => show win0_4.index t (0 : Fin 2) * 128 + 1 * a.val = a.val; rw [e.1]; omega
  | ⟨1, _⟩ => show win0_4.index t (1 : Fin 2) * 128 + 1 * k.val = k.val; rw [e.2]; omega

/-- Window 5's block at every point is its whole array. -/
theorem blk5_apply (V : (c : Dev nD) → (b : Ref sig .tc) → Buf (Elt Ideal) ((c : Thread nD τ).loc b)) (c : Dev nD) (t : Fin cfg0.N) (a : Fin 64) (k : Fin 128) :
    (iblk0 V c 5 t : Vec Ideal S64x128 .f32) (ix2 a k) = (V c main_v14 : S64x128.Idx → EReal) (ix2 a k) := by
  have e := (idx_facts t).2.2.2.2.2.2.1
  unfold iblk0
  rw [View.read_apply]
  show V c main_v14 _ = V c main_v14 _
  refine congrArg (V c main_v14) (funext fun ax => Fin.ext ?_)
  match ax with
  | ⟨0, _⟩ => show win0_5.index t (0 : Fin 2) * 64 + 1 * a.val = a.val; rw [e.1]; omega
  | ⟨1, _⟩ => show win0_5.index t (1 : Fin 2) * 128 + 1 * k.val = k.val; rw [e.2]; omega

/-- Window 6's block at every point is its whole array. -/
theorem blk6_apply (V : (c : Dev nD) → (b : Ref sig .tc) → Buf (Elt Ideal) ((c : Thread nD τ).loc b)) (c : Dev nD) (t : Fin cfg0.N) (a : Fin 1) (k : Fin 128) :
    (iblk0 V c 6 t : Vec Ideal S1x128 .f32) (ix2 a k) = (V c main_v15 : S1x128.Idx → EReal) (ix2 a k) := by
  have e := (idx_facts t).2.2.2.2.2.2.2.1
  unfold iblk0
  rw [View.read_apply]
  show V c main_v15 _ = V c main_v15 _
  refine congrArg (V c main_v15) (funext fun ax => Fin.ext ?_)
  match ax with
  | ⟨0, _⟩ => show win0_6.index t (0 : Fin 2) * 1 + 1 * a.val = a.val; rw [e.1]; omega
  | ⟨1, _⟩ => show win0_6.index t (1 : Fin 2) * 128 + 1 * k.val = k.val; rw [e.2]; omega

/-- Window 7's block at every point is its whole array. -/
theorem blk7_apply (V : (c : Dev nD) → (b : Ref sig .tc) → Buf (Elt Ideal) ((c : Thread nD τ).loc b)) (c : Dev nD) (t : Fin cfg0.N) (a : Fin 1) (k : Fin 128) :
    (iblk0 V c 7 t : Vec Ideal S1x128 .f32) (ix2 a k) = (V c main_v16 : S1x128.Idx → EReal) (ix2 a k) := by
  have e := (idx_facts t).2.2.2.2.2.2.2.2.1
  unfold iblk0
  rw [View.read_apply]
  show V c main_v16 _ = V c main_v16 _
  refine congrArg (V c main_v16) (funext fun ax => Fin.ext ?_)
  match ax with
  | ⟨0, _⟩ => show win0_7.index t (0 : Fin 2) * 1 + 1 * a.val = a.val; rw [e.1]; omega
  | ⟨1, _⟩ => show win0_7.index t (1 : Fin 2) * 128 + 1 * k.val = k.val; rw [e.2]; omega

/-- Window 8's block at every point is its whole array. -/
theorem blk8_apply (V : (c : Dev nD) → (b : Ref sig .tc) → Buf (Elt Ideal) ((c : Thread nD τ).loc b)) (c : Dev nD) (t : Fin cfg0.N) (a : Fin 1) (k : Fin 128) :
    (iblk0 V c 8 t : Vec Ideal S1x128 .f32) (ix2 a k) = (V c main_v17 : S1x128.Idx → EReal) (ix2 a k) := by
  have e := (idx_facts t).2.2.2.2.2.2.2.2.2.1
  unfold iblk0
  rw [View.read_apply]
  show V c main_v17 _ = V c main_v17 _
  refine congrArg (V c main_v17) (funext fun ax => Fin.ext ?_)
  match ax with
  | ⟨0, _⟩ => show win0_8.index t (0 : Fin 2) * 1 + 1 * a.val = a.val; rw [e.1]; omega
  | ⟨1, _⟩ => show win0_8.index t (1 : Fin 2) * 128 + 1 * k.val = k.val; rw [e.2]; omega

/-- Window 9's block at every point is its whole array. -/
theorem blk9_apply (V : (c : Dev nD) → (b : Ref sig .tc) → Buf (Elt Ideal) ((c : Thread nD τ).loc b)) (c : Dev nD) (t : Fin cfg0.N) (a : Fin 128) (k : Fin 128) :
    (iblk0 V c 9 t : Vec Ideal S128x128 .f32) (ix2 a k) = (V c main_arg7 : S128x128.Idx → EReal) (ix2 a k) := by
  have e := (idx_facts t).2.2.2.2.2.2.2.2.2.2.1
  unfold iblk0
  rw [View.read_apply]
  show V c main_arg7 _ = V c main_arg7 _
  refine congrArg (V c main_arg7) (funext fun ax => Fin.ext ?_)
  match ax with
  | ⟨0, _⟩ => show win0_9.index t (0 : Fin 2) * 128 + 1 * a.val = a.val; rw [e.1]; omega
  | ⟨1, _⟩ => show win0_9.index t (1 : Fin 2) * 128 + 1 * k.val = k.val; rw [e.2]; omega

/-- Window 10's block at every point is its whole array. -/
theorem blk10_apply (V : (c : Dev nD) → (b : Ref sig .tc) → Buf (Elt Ideal) ((c : Thread nD τ).loc b)) (c : Dev nD) (t : Fin cfg0.N) (a : Fin 1) (k : Fin 128) :
    (iblk0 V c 10 t : Vec Ideal S1x128 .f32) (ix2 a k) = (V c main_v18 : S1x128.Idx → EReal) (ix2 a k) := by
  have e := (idx_facts t).2.2.2.2.2.2.2.2.2.2.2
  unfold iblk0
  rw [View.read_apply]
  show V c main_v18 _ = V c main_v18 _
  refine congrArg (V c main_v18) (funext fun ax => Fin.ext ?_)
  match ax with
  | ⟨0, _⟩ => show win0_10.index t (0 : Fin 2) * 1 + 1 * a.val = a.val; rw [e.1]; omega
  | ⟨1, _⟩ => show win0_10.index t (1 : Fin 2) * 128 + 1 * k.val = k.val; rw [e.2]; omega

/-- The two-layer map of a row depends on its five ingredients entry by entry. -/
theorem msg_congr {f f' g g' b b' : Fin 128 → EReal} {W W' : Fin 128 → Fin 128 → EReal} {d d' : Fin 128 → EReal}
    (hf : ∀ k, f k = f' k) (hg : ∀ k, g k = g' k) (hb : ∀ k, b k = b' k) (hW : ∀ a k, W a k = W' a k)
    (hd : ∀ k, d k = d' k) (q : Fin 128) :
    denseAfterRelu (normByRsqrt f g b) W d q = denseAfterRelu (normByRsqrt f' g' b') W' d' q := by
  obtain rfl : f = f' := funext hf
  obtain rfl : g = g' := funext hg
  obtain rfl : b = b' := funext hb
  obtain rfl : W = W' := funext fun a => funext (hW a)
  obtain rfl : d = d' := funext hd
  rfl

/-- WHAT POINT `t` WRITES BACK is block `t` of the message table of the arrays as the region finds them: entry `(p, q)`
    of the block is the two-layer map of row `p` of the point's operand blocks, which are rows `4096 t + p` of the arrays. -/
theorem flushed_eq (V : (c : Dev nD) → (b : Ref sig .tc) → Buf (Elt Ideal) ((c : Thread nD τ).loc b)) (c : Dev nD) (t : Fin cfg0.N) :
    (dat0 (F := Ideal) V c).flushed 11 t = ((cfg0.win 11).blk t).view.read (Elt Ideal)
      (msgTable (R := 802816) (V c main_v9) (V c main_v10) (V c main_v11) (V c main_v12) (V c main_v13) (V c main_v14)
        (fun k => V c main_v15 (ix2 (0 : Fin 1) k)) (fun k => V c main_v16 (ix2 (0 : Fin 1) k))
        (fun k => V c main_v17 (ix2 (0 : Fin 1) k)) (V c main_arg7) (fun k => V c main_v18 (ix2 (0 : Fin 1) k))) := by
  show (cfg0.win 11).cut (grid0.coords t) ((dat0 (F := Ideal) V c).after 11 t) = _
  rw [after0_11]
  funext j
  obtain ⟨p, q, rfl⟩ : ∃ (p : Fin 4096) (q : Fin 128), j = ix2 p q := ⟨j 0, j 1, eq_ix2 j⟩
  have ht : t.val < 196 := lt_of_lt_of_eq t.isLt N_0
  have e := (idx_facts t).2.2.2.1
  have hr : (⟨4096 * t.val + p.val, by have := p.isLt; omega⟩ : Fin 802816).val = 4096 * t.val + p.val := rfl
  have hemb : ((cfg0.win 11).blk t).view.emb (ix2 p q)
      = (ix2 (⟨4096 * t.val + p.val, by have := p.isLt; omega⟩ : Fin 802816) q : S802816x128.Idx) :=
    funext fun ax => Fin.ext (by
      match ax with
      | ⟨0, _⟩ => show win0_11.index t (0 : Fin 2) * 4096 + 1 * p.val = 4096 * t.val + p.val; rw [e.1]; omega
      | ⟨1, _⟩ => show win0_11.index t (1 : Fin 2) * 128 + 1 * q.val = q.val; rw [e.2]; omega)
  show out0_11 (F := Ideal) (iblk0 V c 0 t) (iblk0 V c 1 t) (iblk0 V c 2 t) (iblk0 V c 3 t) (iblk0 V c 4 t) (iblk0 V c 5 t)
      (iblk0 V c 6 t) (iblk0 V c 7 t) (iblk0 V c 8 t) (iblk0 V c 9 t) (iblk0 V c 10 t) (ix2 p q)
    = (msgTable (R := 802816) (V c main_v9) (V c main_v10) (V c main_v11) (V c main_v12) (V c main_v13) (V c main_v14)
        (fun k => V c main_v15 (ix2 (0 : Fin 1) k)) (fun k => V c main_v16 (ix2 (0 : Fin 1) k))
        (fun k => V c main_v17 (ix2 (0 : Fin 1) k)) (V c main_arg7) (fun k => V c main_v18 (ix2 (0 : Fin 1) k))) (((cfg0.win 11).blk t).view.emb (ix2 p q))
  rw [hemb]
  refine (out_apply (iblk0 V c 0 t) (iblk0 V c 1 t) (iblk0 V c 2 t) (iblk0 V c 3 t) (iblk0 V c 4 t) (iblk0 V c 5 t)
      (iblk0 V c 6 t) (iblk0 V c 7 t) (iblk0 V c 8 t) (iblk0 V c 9 t) (iblk0 V c 10 t) p q).trans ?_
  refine msg_congr (fun k => ?_) (fun k => blk7_apply V c t 0 k) (fun k => blk8_apply V c t 0 k)
    (fun a k => blk9_apply V c t a k) (fun k => blk10_apply V c t 0 k) q
  exact congrArg₂ (· + ·) (congrArg₂ (· + ·) (congrArg₂ (· + ·)
      (Finset.sum_congr rfl fun a _ => congrArg₂ (· * ·) (blk0_apply V c t p a _ hr) (blk3_apply V c t a k))
      (Finset.sum_congr rfl fun a _ => congrArg₂ (· * ·) (blk1_apply V c t p a _ hr) (blk4_apply V c t a k)))
      (Finset.sum_congr rfl fun a _ => congrArg₂ (· * ·) (blk2_apply V c t p a _ hr) (blk5_apply V c t a k)))
    (blk6_apply V c t 0 k)

/-- An index of the output array is in point `t`'s block iff each coordinate is in the block's range on its axis. -/
theorem mem_blk (t : Fin cfg0.N) (i : S802816x128.Idx) :
    i ∈ ((cfg0.win 11).blk t).view.set ↔ ∀ a : Fin 2, win0_11.index t a * S4096x128.size a ≤ (i a).val
      ∧ (i a).val < win0_11.index t a * S4096x128.size a + S4096x128.size a := by
  show i ∈ ((View.whole main_v19).slice (win0_11.rect t)).set ↔ _
  rw [View.set_slice_whole, Rect.mem_set_unit]
  exact Iff.rfl

/-- The 196 blocks of 4096 rows tile the 802816 rows: row `r` lies in the block of point `r / 4096`. -/
theorem covered (i : S802816x128.Idx) :
    ∃ t : Fin cfg0.N, (cfg0.win 11).flush t = true ∧ i ∈ ((cfg0.win 11).blk t).view.set := by
  have h0 : (i 0).val < 802816 := (i 0).isLt
  have h1 : (i 1).val < 128 := (i 1).isLt
  refine ⟨⟨(i 0).val / 4096, by rw [show cfg0.N = 196 from N_0]; omega⟩, flush0_11 _, ?_⟩
  rw [mem_blk]
  have e := (idx_facts ⟨(i 0).val / 4096, by rw [show cfg0.N = 196 from N_0]; omega⟩).2.2.2.1
  intro a
  match a with
  | ⟨0, _⟩ =>
    show win0_11.index _ (0 : Fin 2) * 4096 ≤ (i 0).val ∧ (i 0).val < win0_11.index _ (0 : Fin 2) * 4096 + 4096
    rw [e.1]
    show (i 0).val / 4096 * 4096 ≤ (i 0).val ∧ (i 0).val < (i 0).val / 4096 * 4096 + 4096
    omega
  | ⟨1, _⟩ =>
    show win0_11.index _ (1 : Fin 2) * 128 ≤ (i 1).val ∧ (i 1).val < win0_11.index _ (1 : Fin 2) * 128 + 128
    rw [e.2]
    omega

/-- After the first region its output array holds the message table of the region's input arrays, whatever those hold. -/
theorem msg_region (V : (c : Dev nD) → (b : Ref sig .tc) → Buf (Elt Ideal) ((c : Thread nD τ).loc b)) (c : Dev nD) :
    ((dat0 (F := Ideal) V c).arrAt 11 cfg0.N : (⟨2, ![802816, 128]⟩ : Shape).Idx → EReal) =
      msgTable (R := 802816) (V c main_v9) (V c main_v10) (V c main_v11) (V c main_v12) (V c main_v13) (V c main_v14)
        (fun k => V c main_v15 (ix2 (0 : Fin 1) k)) (fun k => V c main_v16 (ix2 (0 : Fin 1) k))
        (fun k => V c main_v17 (ix2 (0 : Fin 1) k)) (V c main_arg7) (fun k => V c main_v18 (ix2 (0 : Fin 1) k)) := by
  exact (dat0 (F := Ideal) V c).arrAt_eq_of_cover 11 _ (fun t _ => flushed_eq V c t) covered

end Cert.KernelIdeal.MsgRegion

end
-- ==== Proof.Bands.lean ====
/-
  Two facts about the row-wise tables of `Cert.LayerMath`.

  A band of a matrix: rows `o … o + n − 1` of a matrix with `K` rows and 128 columns, as a matrix of its own.
  One program cuts its first weight matrix into bands and contracts with each; the other contracts with the whole
  matrix over the joined columns.

  A row of a table depends only on the same row of its row-wise operands: if two triples of operand tables
  agree on one row, the message tables (and the update tables) built from them agree on that row. This is what
  makes rows appended below a table (padding) invisible in the rows above them.
-/
import proofs.«423946_j67886253081357_1_alg».proof.Proof.RowMath

noncomputable section

namespace Cert.LayerMath

open Idealize.ShloMosaic Idealize.ShloMosaic.ValueIdx

/-- Rows `o … o + n − 1` of a matrix with `K` rows and 128 columns. -/
def rowBand {K : Nat} (o n : Nat) (h : o + n ≤ K) (W : (⟨2, ![K, 128]⟩ : Shape).Idx → EReal) :
    (⟨2, ![n, 128]⟩ : Shape).Idx → EReal :=
  fun i => W (ix2 ⟨o + (i 0).val, by have := idx2_lt0 i; omega⟩ (i 1))

theorem rowBand_apply {K : Nat} (o n : Nat) (h : o + n ≤ K) (W : (⟨2, ![K, 128]⟩ : Shape).Idx → EReal)
    (a : Fin n) (k : Fin 128) :
    rowBand o n h W (ix2 a k) = W (ix2 ⟨o + a.val, by have := a.isLt; omega⟩ k) := rfl

/-- A vector of 128 entries as a function of its coordinate. -/
def vec128 (v : (⟨1, ![128]⟩ : Shape).Idx → EReal) : Fin 128 → EReal := fun k => v (ix1 k)

/-- Row `r'` of one message table is row `r` of another when the operand tables agree on those rows. -/
theorem msgTable_row {R R' : Nat}
    (S T : (⟨2, ![R, 128]⟩ : Shape).Idx → EReal) (E : (⟨2, ![R, 64]⟩ : Shape).Idx → EReal)
    (S' T' : (⟨2, ![R', 128]⟩ : Shape).Idx → EReal) (E' : (⟨2, ![R', 64]⟩ : Shape).Idx → EReal)
    (A B : (⟨2, ![128, 128]⟩ : Shape).Idx → EReal) (C : (⟨2, ![64, 128]⟩ : Shape).Idx → EReal)
    (b₁ g bl : Fin 128 → EReal) (W₂ : (⟨2, ![128, 128]⟩ : Shape).Idx → EReal) (b₂ : Fin 128 → EReal)
    (r : Fin R) (r' : Fin R')
    (hS : ∀ a, S' (ix2 r' a) = S (ix2 r a)) (hT : ∀ a, T' (ix2 r' a) = T (ix2 r a))
    (hE : ∀ a, E' (ix2 r' a) = E (ix2 r a)) (j : Fin 128) :
    msgTable S' T' E' A B C b₁ g bl W₂ b₂ (ix2 r' j) = msgTable S T E A B C b₁ g bl W₂ b₂ (ix2 r j) := by
  show denseAfterRelu (normByRsqrt (fun k => (((∑ a : Fin 128, S' (ix2 r' a) * A (ix2 a k)) + ∑ a : Fin 128, T' (ix2 r' a) * B (ix2 a k))
        + ∑ a : Fin 64, E' (ix2 r' a) * C (ix2 a k)) + b₁ k) g bl) (fun a k => W₂ (ix2 a k)) b₂ j
    = denseAfterRelu (normByRsqrt (fun k => (((∑ a : Fin 128, S (ix2 r a) * A (ix2 a k)) + ∑ a : Fin 128, T (ix2 r a) * B (ix2 a k))
        + ∑ a : Fin 64, E (ix2 r a) * C (ix2 a k)) + b₁ k) g bl) (fun a k => W₂ (ix2 a k)) b₂ j
  simp only [hS, hT, hE]

/-- Row `r'` of one update table is row `r` of another when the operand tables agree on those rows. -/
theorem updTable_row {R R' : Nat}
    (X Y : (⟨2, ![R, 128]⟩ : Shape).Idx → EReal) (X' Y' : (⟨2, ![R', 128]⟩ : Shape).Idx → EReal)
    (A B : (⟨2, ![128, 128]⟩ : Shape).Idx → EReal)
    (b₁ g bl : Fin 128 → EReal) (W₂ : (⟨2, ![128, 128]⟩ : Shape).Idx → EReal) (b₂ : Fin 128 → EReal)
    (r : Fin R) (r' : Fin R')
    (hX : ∀ a, X' (ix2 r' a) = X (ix2 r a)) (hY : ∀ a, Y' (ix2 r' a) = Y (ix2 r a)) (j : Fin 128) :
    updTable X' Y' A B b₁ g bl W₂ b₂ (ix2 r' j) = updTable X Y A B b₁ g bl W₂ b₂ (ix2 r j) := by
  show X' (ix2 r' j) + denseAfterRelu (normByRsqrt (fun k => ((∑ a : Fin 128, X' (ix2 r' a) * A (ix2 a k)) + ∑ a : Fin 128, Y' (ix2 r' a) * B (ix2 a k)) + b₁ k) g bl)
        (fun a k => W₂ (ix2 a k)) b₂ j
    = X (ix2 r j) + denseAfterRelu (normByRsqrt (fun k => ((∑ a : Fin 128, X (ix2 r a) * A (ix2 a k)) + ∑ a : Fin 128, Y (ix2 r a) * B (ix2 a k)) + b₁ k) g bl)
        (fun a k => W₂ (ix2 a k)) b₂ j
  simp only [hX, hY]

end Cert.LayerMath

end
-- ==== Proof.KernelMsg.lean ====
/-
  The message half of the kernel program, read off the fold of buffer contents.

  The three gathered tables are padded with 2816 rows below, the first weight matrix is cut into its row bands
  0–127, 128–255 and 256–319, the bias, scale and shift vectors are laid as one-row matrices, the first region
  maps rows to rows, and the first 800000 rows are kept. A row of the region's output depends only on the same
  row of the padded tables, and above row 800000 a padded table is the table itself: the kept rows are the
  message table of the unpadded tables.
-/
import proofs.«423946_j67886253081357_1_alg».proof.Proof.Gen.KernelIdeal.Frame
import proofs.«423946_j67886253081357_1_alg».proof.Proof.MsgRegion
import proofs.«423946_j67886253081357_1_alg».proof.Proof.Bands
import proofs.«423946_j67886253081357_1_alg».proof.Proof.KArgs
import Idealize.ShloMosaic.Lib.StableHlo.Run
import Idealize.ShloMosaic.Lib.KernelVsHost
import Idealize.ShloMosaic.Lib.ValueLayout
import Idealize.ShloMosaic.Lib.Pipeline.Value

set_option maxRecDepth 16384

noncomputable section

namespace Cert.KernelMsg

open Cert.KernelIdeal Cert.KernelIdeal.Gen Cert.LayerMath
open Idealize.ShloMosaic Idealize.ShloMosaic.TcCoe Idealize.ShloMosaic.ValueIdx Idealize.SL.Sem

open Cert.KernelIdeal.Args

variable (m : (ℓ : Loc nD τ sig) → Buf (Elt Ideal) ℓ) (ρ : Dev nD → PrngReg) (c : Dev nD)

/-- A stretch of operations none of which writes a buffer leaves that buffer as it was. -/
local macro "unwritten" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## What one stretch of host operations leaves in the buffer it writes, from any contents -/

section Reads
variable (V : Valuation τ sig (Elt Ideal))

/-- The kept rows: rows 0 … 799999 of the region's output array. -/
theorem read_v20 :
    (StableHlo.after hostOps1 V (Proc.devRef .tc main_v20) : S800000x128.Idx → EReal)
      = extractStridedSlice S800000x128 ![0, 0] (V (Proc.devRef .tc main_v19) : S802816x128.Idx → EReal)
          slices_S802816x128_S800000x128_0_0 := by
  after_results

/-- The padded source table: the gathered source table with 2816 rows of the padding value below. -/
theorem read_v9 :
    (StableHlo.after hostOps0_4 V (Proc.devRef .tc main_v9) : S802816x128.Idx → EReal)
      = pad S802816x128 ![0, 0] ![2816, 0] ![0, 0] (V (Proc.devRef .tc main_v7) : S800000x128.Idx → EReal)
          (sitofp (F := Ideal) .f32 (V (Proc.devRef .tc main_c) : S_.Idx → BitVec 32) : S_.Idx → EReal)
          pads_S800000x128_S802816x128_028160_000 h_S_ := by
  after_results
  rfl

/-- The padded target table. -/
theorem read_v10 :
    (StableHlo.after hostOps0_6 V (Proc.devRef .tc main_v10) : S802816x128.Idx → EReal)
      = pad S802816x128 ![0, 0] ![2816, 0] ![0, 0] (V (Proc.devRef .tc main_v8) : S800000x128.Idx → EReal)
          (sitofp (F := Ideal) .f32 (V (Proc.devRef .tc main_c_0) : S_.Idx → BitVec 32) : S_.Idx → EReal)
          pads_S800000x128_S802816x128_028160_000 h_S_ := by
  after_results
  rfl

/-- The padded edge table. -/
theorem read_v11 :
    (StableHlo.after hostOps0_8 V (Proc.devRef .tc main_v11) : S802816x64.Idx → EReal)
      = pad S802816x64 ![0, 0] ![2816, 0] ![0, 0] (V (Proc.devRef .tc main_v6) : S800000x64.Idx → EReal)
          (sitofp (F := Ideal) .f32 (V (Proc.devRef .tc main_c_1) : S_.Idx → BitVec 32) : S_.Idx → EReal)
          pads_S800000x64_S802816x64_028160_000 h_S_ := by
  after_results
  rfl

/-- Rows 0 … 127 of the first weight matrix. -/
theorem read_v12 :
    (StableHlo.after hostOps0_9 V (Proc.devRef .tc main_v12) : S128x128.Idx → EReal)
      = extractStridedSlice S128x128 ![0, 0] (V (Proc.devRef .tc main_arg3) : S320x128.Idx → EReal)
          slices_S320x128_S128x128_0_0 := by
  after_results

/-- Rows 128 … 255 of the first weight matrix. -/
theorem read_v13 :
    (StableHlo.after hostOps0_9 V (Proc.devRef .tc main_v13) : S128x128.Idx → EReal)
      = extractStridedSlice S128x128 ![128, 0] (V (Proc.devRef .tc main_arg3) : S320x128.Idx → EReal)
          slices_S320x128_S128x128_128_0 := by
  after_results

/-- Rows 256 … 319 of the first weight matrix. -/
theorem read_v14 :
    (StableHlo.after hostOps0_9 V (Proc.devRef .tc main_v14) : S64x128.Idx → EReal)
      = extractStridedSlice S64x128 ![256, 0] (V (Proc.devRef .tc main_arg3) : S320x128.Idx → EReal)
          slices_S320x128_S64x128_256_0 := by
  after_results

/-- The first bias as a one-row matrix. -/
theorem read_v15 :
    (StableHlo.after hostOps0_9 V (Proc.devRef .tc main_v15) : S1x128.Idx → EReal)
      = shapeCast S1x128 (V (Proc.devRef .tc main_arg4) : S128.Idx → EReal) shapeCasts_S128_S1x128 := by
  after_results
  rfl

/-- The scale as a one-row matrix. -/
theorem read_v16 :
    (StableHlo.after hostOps0_9 V (Proc.devRef .tc main_v16) : S1x128.Idx → EReal)
      = shapeCast S1x128 (V (Proc.devRef .tc main_arg5) : S128.Idx → EReal) shapeCasts_S128_S1x128 := by
  after_results
  rfl

/-- The shift as a one-row matrix. -/
theorem read_v17 :
    (StableHlo.after hostOps0_9 V (Proc.devRef .tc main_v17) : S1x128.Idx → EReal)
      = shapeCast S1x128 (V (Proc.devRef .tc main_arg6) : S128.Idx → EReal) shapeCasts_S128_S1x128 := by
  after_results
  rfl

/-- The second bias as a one-row matrix. -/
theorem read_v18 :
    (StableHlo.after hostOps0_9 V (Proc.devRef .tc main_v18) : S1x128.Idx → EReal)
      = shapeCast S1x128 (V (Proc.devRef .tc main_arg8) : S128.Idx → EReal) shapeCasts_S128_S1x128 := by
  after_results
  rfl

end Reads

/-! ## Buffers the later stretches leave alone

  Each table is written once; every stretch after that one reads it at most. The arguments are written by no
  stretch at all, so the fold at an argument walks back to the launch memory. -/

/-- The gathered source table is as the first gather left it until the region's entry. -/
theorem v7_kept : W10 m ρ c (Proc.devRef .tc main_v7) = W4 m ρ c (Proc.devRef .tc main_v7) :=
  calc W10 m ρ c (Proc.devRef .tc main_v7)
    _ = W9 m ρ c (Proc.devRef .tc main_v7) := by unwritten hostOps0_9
    _ = W8 m ρ c (Proc.devRef .tc main_v7) := by unwritten hostOps0_8
    _ = W7 m ρ c (Proc.devRef .tc main_v7) := by unwritten hostOps0_7
    _ = W6 m ρ c (Proc.devRef .tc main_v7) := by unwritten hostOps0_6
    _ = W5 m ρ c (Proc.devRef .tc main_v7) := by unwritten hostOps0_5
    _ = W4 m ρ c (Proc.devRef .tc main_v7) := by unwritten hostOps0_4

/-- The padded source table is as its pad left it until the region's entry. -/
theorem v9_kept : W10 m ρ c (Proc.devRef .tc main_v9) = W5 m ρ c (Proc.devRef .tc main_v9) :=
  calc W10 m ρ c (Proc.devRef .tc main_v9)
    _ = W9 m ρ c (Proc.devRef .tc main_v9) := by unwritten hostOps0_9
    _ = W8 m ρ c (Proc.devRef .tc main_v9) := by unwritten hostOps0_8
    _ = W7 m ρ c (Proc.devRef .tc main_v9) := by unwritten hostOps0_7
    _ = W6 m ρ c (Proc.devRef .tc main_v9) := by unwritten hostOps0_6
    _ = W5 m ρ c (Proc.devRef .tc main_v9) := by unwritten hostOps0_5

/-- The gathered target table is as the second gather left it until the region's entry. -/
theorem v8_kept : W10 m ρ c (Proc.devRef .tc main_v8) = W6 m ρ c (Proc.devRef .tc main_v8) :=
  calc W10 m ρ c (Proc.devRef .tc main_v8)
    _ = W9 m ρ c (Proc.devRef .tc main_v8) := by unwritten hostOps0_9
    _ = W8 m ρ c (Proc.devRef .tc main_v8) := by unwritten hostOps0_8
    _ = W7 m ρ c (Proc.devRef .tc main_v8) := by unwritten hostOps0_7
    _ = W6 m ρ c (Proc.devRef .tc main_v8) := by unwritten hostOps0_6

/-- The padded target table is as its pad left it until the region's entry. -/
theorem v10_kept : W10 m ρ c (Proc.devRef .tc main_v10) = W7 m ρ c (Proc.devRef .tc main_v10) :=
  calc W10 m ρ c (Proc.devRef .tc main_v10)
    _ = W9 m ρ c (Proc.devRef .tc main_v10) := by unwritten hostOps0_9
    _ = W8 m ρ c (Proc.devRef .tc main_v10) := by unwritten hostOps0_8
    _ = W7 m ρ c (Proc.devRef .tc main_v10) := by unwritten hostOps0_7

/-- The doubled edge table is as its concatenation left it until the region's entry. -/
theorem v6_kept : W10 m ρ c (Proc.devRef .tc main_v6) = W8 m ρ c (Proc.devRef .tc main_v6) :=
  calc W10 m ρ c (Proc.devRef .tc main_v6)
    _ = W9 m ρ c (Proc.devRef .tc main_v6) := by unwritten hostOps0_9
    _ = W8 m ρ c (Proc.devRef .tc main_v6) := by unwritten hostOps0_8

/-- The padded edge table is as its pad left it until the region's entry. -/
theorem v11_kept : W10 m ρ c (Proc.devRef .tc main_v11) = W9 m ρ c (Proc.devRef .tc main_v11) :=
  calc W10 m ρ c (Proc.devRef .tc main_v11)
    _ = W9 m ρ c (Proc.devRef .tc main_v11) := by unwritten hostOps0_9

/-- The first weight matrix, before the last stretch, is the launch's. -/
theorem arg3_launch : W9 m ρ c (Proc.devRef .tc main_arg3) = m ((c : Thread nD τ).loc main_arg3) :=
  calc W9 m ρ c (Proc.devRef .tc main_arg3)
    _ = W8 m ρ c (Proc.devRef .tc main_arg3) := by unwritten hostOps0_8
    _ = W7 m ρ c (Proc.devRef .tc main_arg3) := by unwritten hostOps0_7
    _ = W6 m ρ c (Proc.devRef .tc main_arg3) := by unwritten hostOps0_6
    _ = W5 m ρ c (Proc.devRef .tc main_arg3) := by unwritten hostOps0_5
    _ = W4 m ρ c (Proc.devRef .tc main_arg3) := by unwritten hostOps0_4
    _ = W3 m ρ c (Proc.devRef .tc main_arg3) := by unwritten hostOps0_3
    _ = W2 m ρ c (Proc.devRef .tc main_arg3) := by unwritten hostOps0_2
    _ = W1 m ρ c (Proc.devRef .tc main_arg3) := by unwritten hostOps0_1
    _ = W0 m ρ c (Proc.devRef .tc main_arg3) := by unwritten hostOps0
    _ = m ((c : Thread nD τ).loc main_arg3) := rfl

/-- The first bias, before the last stretch, is the launch's. -/
theorem arg4_launch : W9 m ρ c (Proc.devRef .tc main_arg4) = m ((c : Thread nD τ).loc main_arg4) :=
  calc W9 m ρ c (Proc.devRef .tc main_arg4)
    _ = W8 m ρ c (Proc.devRef .tc main_arg4) := by unwritten hostOps0_8
    _ = W7 m ρ c (Proc.devRef .tc main_arg4) := by unwritten hostOps0_7
    _ = W6 m ρ c (Proc.devRef .tc main_arg4) := by unwritten hostOps0_6
    _ = W5 m ρ c (Proc.devRef .tc main_arg4) := by unwritten hostOps0_5
    _ = W4 m ρ c (Proc.devRef .tc main_arg4) := by unwritten hostOps0_4
    _ = W3 m ρ c (Proc.devRef .tc main_arg4) := by unwritten hostOps0_3
    _ = W2 m ρ c (Proc.devRef .tc main_arg4) := by unwritten hostOps0_2
    _ = W1 m ρ c (Proc.devRef .tc main_arg4) := by unwritten hostOps0_1
    _ = W0 m ρ c (Proc.devRef .tc main_arg4) := by unwritten hostOps0
    _ = m ((c : Thread nD τ).loc main_arg4) := rfl

/-- The scale, before the last stretch, is the launch's. -/
theorem arg5_launch : W9 m ρ c (Proc.devRef .tc main_arg5) = m ((c : Thread nD τ).loc main_arg5) :=
  calc W9 m ρ c (Proc.devRef .tc main_arg5)
    _ = W8 m ρ c (Proc.devRef .tc main_arg5) := by unwritten hostOps0_8
    _ = W7 m ρ c (Proc.devRef .tc main_arg5) := by unwritten hostOps0_7
    _ = W6 m ρ c (Proc.devRef .tc main_arg5) := by unwritten hostOps0_6
    _ = W5 m ρ c (Proc.devRef .tc main_arg5) := by unwritten hostOps0_5
    _ = W4 m ρ c (Proc.devRef .tc main_arg5) := by unwritten hostOps0_4
    _ = W3 m ρ c (Proc.devRef .tc main_arg5) := by unwritten hostOps0_3
    _ = W2 m ρ c (Proc.devRef .tc main_arg5) := by unwritten hostOps0_2
    _ = W1 m ρ c (Proc.devRef .tc main_arg5) := by unwritten hostOps0_1
    _ = W0 m ρ c (Proc.devRef .tc main_arg5) := by unwritten hostOps0
    _ = m ((c : Thread nD τ).loc main_arg5) := rfl

/-- The shift, before the last stretch, is the launch's. -/
theorem arg6_launch : W9 m ρ c (Proc.devRef .tc main_arg6) = m ((c : Thread nD τ).loc main_arg6) :=
  calc W9 m ρ c (Proc.devRef .tc main_arg6)
    _ = W8 m ρ c (Proc.devRef .tc main_arg6) := by unwritten hostOps0_8
    _ = W7 m ρ c (Proc.devRef .tc main_arg6) := by unwritten hostOps0_7
    _ = W6 m ρ c (Proc.devRef .tc main_arg6) := by unwritten hostOps0_6
    _ = W5 m ρ c (Proc.devRef .tc main_arg6) := by unwritten hostOps0_5
    _ = W4 m ρ c (Proc.devRef .tc main_arg6) := by unwritten hostOps0_4
    _ = W3 m ρ c (Proc.devRef .tc main_arg6) := by unwritten hostOps0_3
    _ = W2 m ρ c (Proc.devRef .tc main_arg6) := by unwritten hostOps0_2
    _ = W1 m ρ c (Proc.devRef .tc main_arg6) := by unwritten hostOps0_1
    _ = W0 m ρ c (Proc.devRef .tc main_arg6) := by unwritten hostOps0
    _ = m ((c : Thread nD τ).loc main_arg6) := rfl

/-- The second bias, before the last stretch, is the launch's. -/
theorem arg8_launch : W9 m ρ c (Proc.devRef .tc main_arg8) = m ((c : Thread nD τ).loc main_arg8) :=
  calc W9 m ρ c (Proc.devRef .tc main_arg8)
    _ = W8 m ρ c (Proc.devRef .tc main_arg8) := by unwritten hostOps0_8
    _ = W7 m ρ c (Proc.devRef .tc main_arg8) := by unwritten hostOps0_7
    _ = W6 m ρ c (Proc.devRef .tc main_arg8) := by unwritten hostOps0_6
    _ = W5 m ρ c (Proc.devRef .tc main_arg8) := by unwritten hostOps0_5
    _ = W4 m ρ c (Proc.devRef .tc main_arg8) := by unwritten hostOps0_4
    _ = W3 m ρ c (Proc.devRef .tc main_arg8) := by unwritten hostOps0_3
    _ = W2 m ρ c (Proc.devRef .tc main_arg8) := by unwritten hostOps0_2
    _ = W1 m ρ c (Proc.devRef .tc main_arg8) := by unwritten hostOps0_1
    _ = W0 m ρ c (Proc.devRef .tc main_arg8) := by unwritten hostOps0
    _ = m ((c : Thread nD τ).loc main_arg8) := rfl

/-- The second weight matrix, at the region's entry, is the launch's. -/
theorem arg7_launch : W10 m ρ c (Proc.devRef .tc main_arg7) = m ((c : Thread nD τ).loc main_arg7) :=
  calc W10 m ρ c (Proc.devRef .tc main_arg7)
    _ = W9 m ρ c (Proc.devRef .tc main_arg7) := by unwritten hostOps0_9
    _ = W8 m ρ c (Proc.devRef .tc main_arg7) := by unwritten hostOps0_8
    _ = W7 m ρ c (Proc.devRef .tc main_arg7) := by unwritten hostOps0_7
    _ = W6 m ρ c (Proc.devRef .tc main_arg7) := by unwritten hostOps0_6
    _ = W5 m ρ c (Proc.devRef .tc main_arg7) := by unwritten hostOps0_5
    _ = W4 m ρ c (Proc.devRef .tc main_arg7) := by unwritten hostOps0_4
    _ = W3 m ρ c (Proc.devRef .tc main_arg7) := by unwritten hostOps0_3
    _ = W2 m ρ c (Proc.devRef .tc main_arg7) := by unwritten hostOps0_2
    _ = W1 m ρ c (Proc.devRef .tc main_arg7) := by unwritten hostOps0_1
    _ = W0 m ρ c (Proc.devRef .tc main_arg7) := by unwritten hostOps0
    _ = m ((c : Thread nD τ).loc main_arg7) := rfl

/-! ## A padded table above row 800000 is the table itself -/

/-- Row `r < 800000` of the padded source table is row `r` of the gathered source table. -/
theorem src_row (r : Fin 800000) (a : Fin 128) :
    (V10 m ρ c main_v9 : S802816x128.Idx → EReal) (ix2 (⟨r.val, by omega⟩ : Fin 802816) a)
      = (W10 m ρ c (Proc.devRef .tc main_v7) : S800000x128.Idx → EReal) (ix2 r a) := by
  rw [show V10 m ρ c main_v9 = W5 m ρ c (Proc.devRef .tc main_v9) from v9_kept m ρ c, v7_kept m ρ c,
    show (W5 m ρ c (Proc.devRef .tc main_v9) : S802816x128.Idx → EReal) = _ from read_v9 (W4 m ρ c)]
  exact pad_apply_of_inside _ _ _ _ _ _ _ _ _ (fun ax => by
    match ax with
    | ⟨0, _⟩ => show r.val = 0 + r.val * (0 + 1); omega
    | ⟨1, _⟩ => show a.val = 0 + a.val * (0 + 1); omega)

/-- Row `r < 800000` of the padded target table is row `r` of the gathered target table. -/
theorem tgt_row (r : Fin 800000) (a : Fin 128) :
    (V10 m ρ c main_v10 : S802816x128.Idx → EReal) (ix2 (⟨r.val, by omega⟩ : Fin 802816) a)
      = (W10 m ρ c (Proc.devRef .tc main_v8) : S800000x128.Idx → EReal) (ix2 r a) := by
  rw [show V10 m ρ c main_v10 = W7 m ρ c (Proc.devRef .tc main_v10) from v10_kept m ρ c, v8_kept m ρ c,
    show (W7 m ρ c (Proc.devRef .tc main_v10) : S802816x128.Idx → EReal) = _ from read_v10 (W6 m ρ c)]
  exact pad_apply_of_inside _ _ _ _ _ _ _ _ _ (fun ax => by
    match ax with
    | ⟨0, _⟩ => show r.val = 0 + r.val * (0 + 1); omega
    | ⟨1, _⟩ => show a.val = 0 + a.val * (0 + 1); omega)

/-- Row `r < 800000` of the padded edge table is row `r` of the doubled edge table. -/
theorem edge_row (r : Fin 800000) (a : Fin 64) :
    (V10 m ρ c main_v11 : S802816x64.Idx → EReal) (ix2 (⟨r.val, by omega⟩ : Fin 802816) a)
      = (W10 m ρ c (Proc.devRef .tc main_v6) : S800000x64.Idx → EReal) (ix2 r a) := by
  rw [show V10 m ρ c main_v11 = W9 m ρ c (Proc.devRef .tc main_v11) from v11_kept m ρ c, v6_kept m ρ c,
    show (W9 m ρ c (Proc.devRef .tc main_v11) : S802816x64.Idx → EReal) = _ from read_v11 (W8 m ρ c)]
  exact pad_apply_of_inside _ _ _ _ _ _ _ _ _ (fun ax => by
    match ax with
    | ⟨0, _⟩ => show r.val = 0 + r.val * (0 + 1); omega
    | ⟨1, _⟩ => show a.val = 0 + a.val * (0 + 1); omega)

/-! ## The weight and bias operands of the region are the argument arrays' bands and vectors -/

/-- The region's first weight operand is the band of rows 0 … 127. -/
theorem band_src : (V10 m ρ c main_v12 : S128x128.Idx → EReal) = rowBand 0 128 (by omega) (msgW1 m c) := by
  funext i
  obtain ⟨a, k, rfl⟩ : ∃ (a : Fin 128) (k : Fin 128), i = ix2 a k := ⟨i 0, i 1, eq_ix2 i⟩
  rw [rowBand_apply, show (V10 m ρ c main_v12 : S128x128.Idx → EReal) = _ from read_v12 (W9 m ρ c),
    slice2_axis0_eq, arg3_launch m ρ c]

/-- The region's second weight operand is the band of rows 128 … 255. -/
theorem band_tgt : (V10 m ρ c main_v13 : S128x128.Idx → EReal) = rowBand 128 128 (by omega) (msgW1 m c) := by
  funext i
  obtain ⟨a, k, rfl⟩ : ∃ (a : Fin 128) (k : Fin 128), i = ix2 a k := ⟨i 0, i 1, eq_ix2 i⟩
  rw [rowBand_apply, show (V10 m ρ c main_v13 : S128x128.Idx → EReal) = _ from read_v13 (W9 m ρ c),
    slice2_axis0_eq, arg3_launch m ρ c]

/-- The region's third weight operand is the band of rows 256 … 319. -/
theorem band_edge : (V10 m ρ c main_v14 : S64x128.Idx → EReal) = rowBand 256 64 (by omega) (msgW1 m c) := by
  funext i
  obtain ⟨a, k, rfl⟩ : ∃ (a : Fin 64) (k : Fin 128), i = ix2 a k := ⟨i 0, i 1, eq_ix2 i⟩
  rw [rowBand_apply, show (V10 m ρ c main_v14 : S64x128.Idx → EReal) = _ from read_v14 (W9 m ρ c),
    slice2_axis0_eq, arg3_launch m ρ c]

/-- The one row of the first bias operand is the first bias vector. -/
theorem row_b1 : (fun k : Fin 128 => (V10 m ρ c main_v15 : S1x128.Idx → EReal) (ix2 (0 : Fin 1) k)) = vec128 (msgB1 m c) := by
  funext k
  show (V10 m ρ c main_v15 : S1x128.Idx → EReal) (ix2 (0 : Fin 1) k) = msgB1 m c (ix1 k)
  rw [show (V10 m ρ c main_v15 : S1x128.Idx → EReal) = _ from read_v15 (W9 m ρ c), shapeCast_a_1a_apply,
    arg4_launch m ρ c]

/-- The one row of the scale operand is the scale vector. -/
theorem row_g : (fun k : Fin 128 => (V10 m ρ c main_v16 : S1x128.Idx → EReal) (ix2 (0 : Fin 1) k)) = vec128 (ln1G m c) := by
  funext k
  show (V10 m ρ c main_v16 : S1x128.Idx → EReal) (ix2 (0 : Fin 1) k) = ln1G m c (ix1 k)
  rw [show (V10 m ρ c main_v16 : S1x128.Idx → EReal) = _ from read_v16 (W9 m ρ c), shapeCast_a_1a_apply,
    arg5_launch m ρ c]

/-- The one row of the shift operand is the shift vector. -/
theorem row_bl : (fun k : Fin 128 => (V10 m ρ c main_v17 : S1x128.Idx → EReal) (ix2 (0 : Fin 1) k)) = vec128 (ln1B m c) := by
  funext k
  show (V10 m ρ c main_v17 : S1x128.Idx → EReal) (ix2 (0 : Fin 1) k) = ln1B m c (ix1 k)
  rw [show (V10 m ρ c main_v17 : S1x128.Idx → EReal) = _ from read_v17 (W9 m ρ c), shapeCast_a_1a_apply,
    arg6_launch m ρ c]

/-- The one row of the second bias operand is the second bias vector. -/
theorem row_b2 : (fun k : Fin 128 => (V10 m ρ c main_v18 : S1x128.Idx → EReal) (ix2 (0 : Fin 1) k)) = vec128 (msgB2 m c) := by
  funext k
  show (V10 m ρ c main_v18 : S1x128.Idx → EReal) (ix2 (0 : Fin 1) k) = msgB2 m c (ix1 k)
  rw [show (V10 m ρ c main_v18 : S1x128.Idx → EReal) = _ from read_v18 (W9 m ρ c), shapeCast_a_1a_apply,
    arg8_launch m ρ c]

/-- The region's second-layer weight operand is the second weight matrix. -/
theorem w2_eq : (V10 m ρ c main_arg7 : S128x128.Idx → EReal) = msgW2 m c := arg7_launch m ρ c

/-- The kept rows of the first region's output are the message table of the three gathered tables. -/
theorem kernel_msg :
    (W12 m ρ c (Proc.devRef .tc main_v20) : (⟨2, ![800000, 128]⟩ : Shape).Idx → EReal)
      = msgTable (R := 800000)
          (W10 m ρ c (Proc.devRef .tc main_v7)) (W10 m ρ c (Proc.devRef .tc main_v8)) (W10 m ρ c (Proc.devRef .tc main_v6))
          (rowBand 0 128 (by omega) (msgW1 m c)) (rowBand 128 128 (by omega) (msgW1 m c)) (rowBand 256 64 (by omega) (msgW1 m c))
          (vec128 (msgB1 m c)) (vec128 (ln1G m c)) (vec128 (ln1B m c)) (msgW2 m c) (vec128 (msgB2 m c)) := by
  funext i
  obtain ⟨r, j, rfl⟩ : ∃ (r : Fin 800000) (j : Fin 128), i = ix2 r j := ⟨i 0, i 1, eq_ix2 i⟩
  have hr : r.val < 802816 := by omega
  rw [show (W12 m ρ c (Proc.devRef .tc main_v20) : S800000x128.Idx → EReal) = _ from read_v20 (W11 m ρ c),
    slice2_axis0_apply 0 _ slices_S802816x128_S800000x128_0_0 r j ⟨r.val, hr⟩ (Nat.zero_add _).symm,
    show (W11 m ρ c (Proc.devRef .tc main_v19) : S802816x128.Idx → EReal) = _ from W11_arr m ρ c 11,
    MsgRegion.msg_region (V10 m ρ) c,
    band_src m ρ c, band_tgt m ρ c, band_edge m ρ c, row_b1 m ρ c, row_g m ρ c, row_bl m ρ c, w2_eq m ρ c, row_b2 m ρ c]
  exact msgTable_row _ _ _ _ _ _ _ _ _ _ _ _ _ _ r ⟨r.val, hr⟩ (src_row m ρ c r) (tgt_row m ρ c r) (edge_row m ρ c r) j

end Cert.KernelMsg

end
-- ==== Proof.KernelAgg.lean ====
/-
  The aggregation step of the kernel program, read off the fold of buffer contents: the aggregated table is the
  scatter-add, into a table of zeros with one row per node, of the kept message rows at the segment ids
  "target endpoints followed by source endpoints" — a function of the message table and those ids alone.
-/
import proofs.«423946_j67886253081357_1_alg».proof.Proof.Gen.KernelIdeal.Frame
import Idealize.ShloMosaic.Lib.StableHlo.Run

set_option maxRecDepth 16384

noncomputable section

namespace Cert.KernelAgg

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- No host operation of the stretch after the first region writes the segment ids, and the region does not
    either: they are what the stretches before the region left. -/
theorem ids_kept : W11 m ρ c (Proc.devRef .tc main_v5) = W10 m ρ c (Proc.devRef .tc main_v5) :=
  W11_of_ne m ρ c main_v5 (by decide)

/-- The aggregated table is the scatter-add of the kept message rows into zeros at the segment ids. -/
theorem kernel_agg :
    W12 m ρ c (Proc.devRef .tc main_v23)
      = Host.scatterAdd scatter_S100000x128_S800000x1_S800000x128_1_0_0_1
          (broadcastInDim S100000x128 ![] bcast_S_S100000x128 (constant (F := F) S_ .f32 0x00000000#32))
          (broadcastInDim S800000x1 ![0] bcast_S800000_S800000x1_0 (W10 m ρ c (Proc.devRef .tc main_v5)))
          (W12 m ρ c (Proc.devRef .tc main_v20)) := by
  rw [← ids_kept m ρ c]
  show StableHlo.after hostOps1 (W11 m ρ c) (Proc.devRef .tc main_v23)
    = Host.scatterAdd scatter_S100000x128_S800000x1_S800000x128_1_0_0_1
        (broadcastInDim S100000x128 ![] bcast_S_S100000x128 (constant (F := F) S_ .f32 0x00000000#32))
        (broadcastInDim S800000x1 ![0] bcast_S800000_S800000x1_0 (W11 m ρ c (Proc.devRef .tc main_v5)))
        (StableHlo.after hostOps1 (W11 m ρ c) (Proc.devRef .tc main_v20))
  after_results

end Cert.KernelAgg

end
-- ==== Proof.UpdRegion.lean ====
/-
  What the second pallas region leaves in its output array, for ANY contents `V` the region finds its arrays at.

  The grid has 25 points; point `t` reads rows `4096 t … 4096 t + 4095` of the node table and of the aggregated
  table and the whole of each weight and bias array, and writes the same rows of the output. Row `n` of the
  output is the node's own row plus the two-layer map of that row and the aggregated row:
  `Cert.LayerMath.updTable`. The blocks tile the 102400 rows exactly.
-/
import proofs.«423946_j67886253081357_1_alg».proof.Proof.Gen.KernelIdeal.Frame
import proofs.«423946_j67886253081357_1_alg».proof.Proof.RowMath
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.UpdRegion

open Cert.KernelIdeal Cert.KernelIdeal.Gen Cert.LayerMath
open Idealize.ShloMosaic Idealize.ShloMosaic.TcCoe Idealize.ShloMosaic.ValueIdx Idealize.SL.Sem
open Idealize.ShloMosaic.Pipeline (Dat Cfg Window)

/-! ## The layout operations of the body, read at a row and a column -/

/-- A vector of 4096 entries viewed as a column: entry (p, 0) is entry p. -/
theorem colCast_at {α : Type} (v : S4096.Idx → α) (h : S4096.ShapeCasts S4096x1) (p : Fin 4096) (z : Fin 1) :
    shapeCast S4096x1 v h (ix2 p z) = v (ix1 p) := by
  refine shapeCast_apply v h (ix2 p z) (ix1 p) ?_
  rw [Shape.rowMajor_val_one, Shape.rowMajor_val_two]
  have hz := z.isLt
  show p.val = p.val * 1 + z.val
  omega

/-- A column spread over the 128 lanes: entry (p, q) is the column's entry (p, 0). -/
theorem colSpread_at {α : Type} (v : S4096x1.Idx → α) (h : S4096x1.Broadcasts S4096x128) (p : Fin 4096) (q : Fin 128) :
    broadcastTo S4096x128 v h (ix2 p q) = v (ix2 p (0 : Fin 1)) := by
  refine broadcastTo_apply v h (ix2 p q) (ix2 p (0 : Fin 1)) fun a => ?_
  match a with
  | ⟨0, _⟩ => show p.val = if (4096 : Nat) = 1 then 0 else p.val; rw [if_neg (by decide)]
  | ⟨1, _⟩ => show 0 = if (1 : Nat) = 1 then 0 else q.val; rw [if_pos rfl]

/-- A row spread over the 4096 rows: entry (p, q) is the row's entry (0, q). -/
theorem rowSpread_at {α : Type} (v : S1x128.Idx → α) (h : S1x128.Broadcasts S4096x128) (p : Fin 4096) (q : Fin 128) :
    broadcastTo S4096x128 v h (ix2 p q) = v (ix2 (0 : Fin 1) q) := by
  refine broadcastTo_apply v h (ix2 p q) (ix2 (0 : Fin 1) q) fun a => ?_
  match a with
  | ⟨0, _⟩ => show 0 = if (1 : Nat) = 1 then 0 else p.val; rw [if_pos rfl]
  | ⟨1, _⟩ => show q.val = if (128 : Nat) = 1 then 0 else q.val; rw [if_neg (by decide)]

/-- The sum over the lanes of a row: entry p of the reduction is the sum of row p. -/
theorem laneSum_at (src : FVec Ideal S4096x128 .f32) (h : S4096x128.Reduces [1] S4096) (hφ : FKind.Formats .f32)
    (hacc : (0x00000000#32 : BitVec 32) = 0x00000000#32) (p : Fin 4096) :
    multiReduction (F := Ideal) .add [1] S4096 src 0x00000000#32 h hφ hacc (ix1 p) = ∑ k : Fin 128, src (ix2 p k) := by
  refine (Ideal.multiReduction_add_single src 0x00000000#32 h hφ hacc (ix1 p)).trans ?_
  refine Finset.sum_congr rfl fun k _ => congrArg src ?_
  funext a
  match a with
  | ⟨0, _⟩ => rfl
  | ⟨1, _⟩ => rfl

/-! ## A product of a 4096 × 128 block with a 128 × 128 matrix, read at a row and a column -/

theorem dotL0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem dotL1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem dotR0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem dotR1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- Into a zero accumulator the product at (p, q) is the sum over k of the block's (p, k) times the matrix's (k, q). -/
theorem prod_at {φ₁ φ₂ : FTy} (l : FVec Ideal S4096x128 φ₁) (r : FVec Ideal S128x128 φ₂) (p : Fin 4096) (q : Fin 128) :
    matmul dot_S4096x128_S128x128_S4096x128_1_0_0_1_n_n none l r (constant (F := Ideal) S4096x128 .f32 0x00000000#32) (ix2 p q)
      = ∑ k : Fin 128, l (ix2 p k) * r (ix2 k q) := by
  refine (Ideal.matmul_constant_zero_apply dot_S4096x128_S128x128_S4096x128_1_0_0_1_n_n none l r (ix2 p q)).trans ?_
  rw [← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 p q) ((contrEquiv1 dot_S4096x128_S128x128_S4096x128_1_0_0_1_n_n 128 rfl rfl).symm k) = ix2 p k := funext fun a => Fin.ext (by
    match a with
    | ⟨0, _⟩ => exact dotL0 _ _
    | ⟨1, _⟩ => exact (dotL1 _ _).trans hk)
  have er : dot_S4096x128_S128x128_S4096x128_1_0_0_1_n_n.rhsIdx (ix2 p q) ((contrEquiv1 dot_S4096x128_S128x128_S4096x128_1_0_0_1_n_n 128 rfl rfl).symm k) = ix2 k q := funext fun a => Fin.ext (by
    match a with
    | ⟨0, _⟩ => exact (dotR0 _ _).trans hk
    | ⟨1, _⟩ => exact dotR1 _ _)
  rw [el, er]

/-! ## The body's arithmetic, read at a row and a column

  The blocks: x0 the node rows, x1 the aggregated rows, x2 and x3 the two halves of the first layer's matrix, x4 its
  bias, x5 and x6 the scale and the shift of the normalisation, x7 the second layer's matrix, x8 its bias. -/

/-- The first layer at (p, q): node row p against column q of the first matrix, plus aggregated row p against
    column q of the second, plus the bias's entry q. -/
theorem pay3_at (x0 x1 : Vec Ideal S4096x128 .f32) (x2 x3 : Vec Ideal S128x128 .f32) (x4 : Vec Ideal S1x128 .f32)
    (p : Fin 4096) (q : Fin 128) :
    k1_pay3 (F := Ideal) x0 x1 x2 x3 x4 (ix2 p q)
      = ((∑ a : Fin 128, x0 (ix2 p a) * x2 (ix2 a q)) + ∑ a : Fin 128, x1 (ix2 p a) * x3 (ix2 a q)) + x4 (ix2 (0 : Fin 1) q) := by
  unfold k1_pay3 k1_pay2
  simp only [shapeCast_self]
  rw [addf_apply, addf_apply, prod_at, prod_at, rowSpread_at]
  rfl

/-- The mean of row p of the first layer. -/
theorem pay6_at (x0 x1 : Vec Ideal S4096x128 .f32) (x2 x3 : Vec Ideal S128x128 .f32) (x4 : Vec Ideal S1x128 .f32)
    (p : Fin 4096) :
    k1_pay6 (F := Ideal) x0 x1 x2 x3 x4 (ix2 p (0 : Fin 1)) = rowMean (fun k => k1_pay3 (F := Ideal) x0 x1 x2 x3 x4 (ix2 p k)) := by
  unfold k1_pay6
  simp only []
  rw [divf_apply, colCast_at, laneSum_at, broadcast_apply]
  rfl

/-- The centred first layer at (p, q). -/
theorem pay7_at (x0 x1 : Vec Ideal S4096x128 .f32) (x2 x3 : Vec Ideal S128x128 .f32) (x4 : Vec Ideal S1x128 .f32)
    (p : Fin 4096) (q : Fin 128) :
    k1_pay7 (F := Ideal) x0 x1 x2 x3 x4 (ix2 p q)
      = k1_pay3 (F := Ideal) x0 x1 x2 x3 x4 (ix2 p q) - rowMean (fun k => k1_pay3 (F := Ideal) x0 x1 x2 x3 x4 (ix2 p k)) := by
  unfold k1_pay7
  rw [subf_apply, colSpread_at, pay6_at]

/-- The shifted variance of row p of the first layer. -/
theorem pay8_at (x0 x1 : Vec Ideal S4096x128 .f32) (x2 x3 : Vec Ideal S128x128 .f32) (x4 : Vec Ideal S1x128 .f32)
    (p : Fin 4096) :
    k1_pay8 (F := Ideal) x0 x1 x2 x3 x4 (ix2 p (0 : Fin 1))
      = rowVar (fun k => k1_pay3 (F := Ideal) x0 x1 x2 x3 x4 (ix2 p k)) + wEps := by
  unfold k1_pay8
  simp only []
  rw [addf_apply, divf_apply, colCast_at, laneSum_at, broadcast_apply, broadcast_apply]
  simp only [mulf_apply, subf_apply, colSpread_at, pay6_at]
  rfl

/-- The rest of the body at (p, q), over a centred block c, a column s of shifted variances, scale g, shift b, the
    node block x, the second matrix w and its bias d: the node's entry plus the second layer of the positive part
    of the normalised row. -/
theorem pay1_at (x : FVec Ideal S4096x128 .f32) (g b : FVec Ideal S1x128 .f32) (c : FVec Ideal S4096x128 .f32)
    (s : FVec Ideal S4096x1 .f32) (w : Vec Ideal S128x128 .f32) (d : Vec Ideal S1x128 .f32) (p : Fin 4096) (q : Fin 128) :
    k1_pay1 (F := Ideal) x g b c s w d (ix2 p q)
      = x (ix2 p q) + ((∑ k : Fin 128, max (c (ix2 p k) * Ideal.rsqrt (s (ix2 p (0 : Fin 1))) * g (ix2 (0 : Fin 1) k) + b (ix2 (0 : Fin 1) k)) 0 * w (ix2 k q))
          + d (ix2 (0 : Fin 1) q)) := by
  unfold k1_pay1
  simp only [shapeCast_self]
  rw [addf_apply, addf_apply, prod_at, rowSpread_at]
  refine congrArg (fun z => x (ix2 p q) + (z + d (ix2 (0 : Fin 1) q))) (Finset.sum_congr rfl fun k _ => ?_)
  rw [truncf_apply, truncf_apply, maximumf_apply, addf_apply, mulf_apply, mulf_apply, rowSpread_at, rowSpread_at, colSpread_at,
    broadcast_apply]
  show max _ (Ideal.ofBits .f32 0x00000000#32) * _ = _
  rw [Ideal.ofBits_zero_f32]
  rfl

theorem hz : (![0, 0] : Fin 2 → Nat) = fun _ => 0 := funext fun a => by fin_cases a <;> rfl

/-- The stored block at (p, q): the node's entry plus the two-layer map of node row p and aggregated row p. -/
theorem out_at (x0 x1 : Vec Ideal S4096x128 .f32) (x2 x3 : Vec Ideal S128x128 .f32) (x4 x5 x6 : Vec Ideal S1x128 .f32)
    (x7 : Vec Ideal S128x128 .f32) (x8 : Vec Ideal S1x128 .f32) (p : Fin 4096) (q : Fin 128) :
    out1_9 (F := Ideal) x0 x1 x2 x3 x4 x5 x6 x7 x8 (ix2 p q)
      = x0 (ix2 p q) + denseAfterRelu
          (normByRsqrt (fun k => ((∑ a : Fin 128, x0 (ix2 p a) * x2 (ix2 a k)) + ∑ a : Fin 128, x1 (ix2 p a) * x3 (ix2 a k)) + x4 (ix2 (0 : Fin 1) k))
            (fun k => x5 (ix2 (0 : Fin 1) k)) (fun k => x6 (ix2 (0 : Fin 1) k)))
          (fun a k => x7 (ix2 a k)) (fun k => x8 (ix2 (0 : Fin 1) k)) q := by
  unfold out1_9
  rw [View.canon_unit_zero hz]
  simp only [View.ld_unit_zero (S := S4096x128) hz, View.ld_unit_zero (S := S128x128) hz, View.ld_unit_zero (S := S1x128) hz]
  rw [pay1_at]
  unfold k1_pay2 k1_pay4 k1_pay5
  simp only [shapeCast_self, pay7_at, pay8_at, pay3_at]
  rfl

/-! ## From blocks to the array

  Every window's block index at each of the 25 points t: the three row-tiled windows sit at block (t, 0), the
  weight and bias windows at block (0, 0). -/

theorem idx_facts : ∀ t : Fin cfg1.N,
    win1_9.index t (0 : Fin 2) = t.val ∧ win1_9.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-- A point of the grid is below 25. -/
theorem point_lt (t : Fin cfg1.N) : t.val < 25 := lt_of_lt_of_eq t.isLt N_1

/-- Row p of the block at point t is row 4096 t + p of the array. -/
def rowAt (t : Fin cfg1.N) (p : Fin 4096) : Fin 102400 :=
  ⟨t.val * 4096 + p.val, by have h := point_lt t; have := p.isLt; omega⟩

section Blocks
variable (V : (c : Dev nD) → (b : Ref sig .tc) → Buf (Elt Ideal) ((c : Thread nD τ).loc b)) (c : Dev nD) (t : Fin cfg1.N)

/-- The node block at point t holds rows 4096 t … 4096 t + 4095 of the node table. -/
theorem node_rows (p : Fin 4096) (a : Fin 128) :
    (iblk1 (F := Ideal) V c 0 t : Vec Ideal S4096x128 .f32) (ix2 p a) = (V c main_v24 : S102400x128.Idx → EReal) (ix2 (rowAt t p) a) := by
  obtain ⟨-, -, e0, e1, -⟩ := idx_facts t
  show (V c main_v24 : S102400x128.Idx → EReal) (((cfg1.win 0).blk t).view.emb (ix2 p a)) = _
  refine congrArg (V c main_v24 : S102400x128.Idx → EReal) (funext fun d => Fin.ext ?_)
  match d with
  | ⟨0, _⟩ => show win1_0.index t (0 : Fin 2) * 4096 + 1 * p.val = t.val * 4096 + p.val; rw [e0]; omega
  | ⟨1, _⟩ => show win1_0.index t (1 : Fin 2) * 128 + 1 * a.val = a.val; rw [e1]; omega
end Blocks

section Blocks
variable (V : (c : Dev nD) → (b : Ref sig .tc) → Buf (Elt Ideal) ((c : Thread nD τ).loc b)) (c : Dev nD) (t : Fin cfg1.N)

/-- The aggregated block at point t holds rows 4096 t … 4096 t + 4095 of the aggregated table. -/
theorem agg_rows (p : Fin 4096) (a : Fin 128) :
    (iblk1 (F := Ideal) V c 1 t : Vec Ideal S4096x128 .f32) (ix2 p a) = (V c main_v25 : S102400x128.Idx → EReal) (ix2 (rowAt t p) a) := by
  obtain ⟨-, -, -, -, e0, e1, -⟩ := idx_facts t
  show (V c main_v25 : S102400x128.Idx → EReal) (((cfg1.win 1).blk t).view.emb (ix2 p a)) = _
  refine congrArg (V c main_v25 : S102400x128.Idx → EReal) (funext fun d => Fin.ext ?_)
  match d with
  | ⟨0, _⟩ => show win1_1.index t (0 : Fin 2) * 4096 + 1 * p.val = t.val * 4096 + p.val; rw [e0]; omega
  | ⟨1, _⟩ => show win1_1.index t (1 : Fin 2) * 128 + 1 * a.val = a.val; rw [e1]; omega

/-- The block of the first layer's first matrix is the whole matrix, at every point. -/
theorem mat1a_whole (a : Fin 128) (k : Fin 128) :
    (iblk1 (F := Ideal) V c 2 t : Vec Ideal S128x128 .f32) (ix2 a k) = (V c main_v26 : S128x128.Idx → EReal) (ix2 a k) := by
  obtain ⟨-, -, -, -, -, -, e0, e1, -⟩ := idx_facts t
  show (V c main_v26 : S128x128.Idx → EReal) (((cfg1.win 2).blk t).view.emb (ix2 a k)) = _
  refine congrArg (V c main_v26 : S128x128.Idx → EReal) (funext fun d => Fin.ext ?_)
  match d with
  | ⟨0, _⟩ => show win1_2.index t (0 : Fin 2) * 128 + 1 * a.val = a.val; rw [e0]; omega
  | ⟨1, _⟩ => show win1_2.index t (1 : Fin 2) * 128 + 1 * k.val = k.val; rw [e1]; omega

/-- The block of the first layer's second matrix is the whole matrix, at every point. -/
theorem mat1b_whole (a : Fin 128) (k : Fin 128) :
    (iblk1 (F := Ideal) V c 3 t : Vec Ideal S128x128 .f32) (ix2 a k) = (V c main_v27 : S128x128.Idx → EReal) (ix2 a k) := by
  obtain ⟨-, -, -, -, -, -, -, -, e0, e1, -⟩ := idx_facts t
  show (V c main_v27 : S128x128.Idx → EReal) (((cfg1.win 3).blk t).view.emb (ix2 a k)) = _
  refine congrArg (V c main_v27 : S128x128.Idx → EReal) (funext fun d => Fin.ext ?_)
  match d with
  | ⟨0, _⟩ => show win1_3.index t (0 : Fin 2) * 128 + 1 * a.val = a.val; rw [e0]; omega
  | ⟨1, _⟩ => show win1_3.index t (1 : Fin 2) * 128 + 1 * k.val = k.val; rw [e1]; omega

/-- The block of the first layer's bias is the whole row, at every point. -/
theorem bias1_whole (a : Fin 1) (k : Fin 128) :
    (iblk1 (F := Ideal) V c 4 t : Vec Ideal S1x128 .f32) (ix2 a k) = (V c main_v28 : S1x128.Idx → EReal) (ix2 a k) := by
  obtain ⟨-, -, -, -, -, -, -, -, -, -, e0, e1, -⟩ := idx_facts t
  show (V c main_v28 : S1x128.Idx → EReal) (((cfg1.win 4).blk t).view.emb (ix2 a k)) = _
  refine congrArg (V c main_v28 : S1x128.Idx → EReal) (funext fun d => Fin.ext ?_)
  match d with
  | ⟨0, _⟩ => show win1_4.index t (0 : Fin 2) * 1 + 1 * a.val = a.val; rw [e0]; omega
  | ⟨1, _⟩ => show win1_4.index t (1 : Fin 2) * 128 + 1 * k.val = k.val; rw [e1]; omega

/-- The block of the normalisation's scale is the whole row, at every point. -/
theorem scale_whole (a : Fin 1) (k : Fin 128) :
    (iblk1 (F := Ideal) V c 5 t : Vec Ideal S1x128 .f32) (ix2 a k) = (V c main_v29 : S1x128.Idx → EReal) (ix2 a k) := by
  obtain ⟨-, -, -, -, -, -, -, -, -, -, -, -, e0, e1, -⟩ := idx_facts t
  show (V c main_v29 : S1x128.Idx → EReal) (((cfg1.win 5).blk t).view.emb (ix2 a k)) = _
  refine congrArg (V c main_v29 : S1x128.Idx → EReal) (funext fun d => Fin.ext ?_)
  match d with
  | ⟨0, _⟩ => show win1_5.index t (0 : Fin 2) * 1 + 1 * a.val = a.val; rw [e0]; omega
  | ⟨1, _⟩ => show win1_5.index t (1 : Fin 2) * 128 + 1 * k.val = k.val; rw [e1]; omega

/-- The block of the normalisation's shift is the whole row, at every point. -/
theorem shift_whole (a : Fin 1) (k : Fin 128) :
    (iblk1 (F := Ideal) V c 6 t : Vec Ideal S1x128 .f32) (ix2 a k) = (V c main_v30 : S1x128.Idx → EReal) (ix2 a k) := by
  obtain ⟨-, -, -, -, -, -, -, -, -, -, -, -, -, -, e0, e1, -⟩ := idx_facts t
  show (V c main_v30 : S1x128.Idx → EReal) (((cfg1.win 6).blk t).view.emb (ix2 a k)) = _
  refine congrArg (V c main_v30 : S1x128.Idx → EReal) (funext fun d => Fin.ext ?_)
  match d with
  | ⟨0, _⟩ => show win1_6.index t (0 : Fin 2) * 1 + 1 * a.val = a.val; rw [e0]; omega
  | ⟨1, _⟩ => show win1_6.index t (1 : Fin 2) * 128 + 1 * k.val = k.val; rw [e1]; omega

/-- The block of the second layer's matrix is the whole matrix, at every point. -/
theorem mat2_whole (a : Fin 128) (k : Fin 128) :
    (iblk1 (F := Ideal) V c 7 t : Vec Ideal S128x128 .f32) (ix2 a k) = (V c main_arg13 : S128x128.Idx → EReal) (ix2 a k) := by
  obtain ⟨-, -, -, -, -, -, -, -, -, -, -, -, -, -, -, -, e0, e1, -⟩ := idx_facts t
  show (V c main_arg13 : S128x128.Idx → EReal) (((cfg1.win 7).blk t).view.emb (ix2 a k)) = _
  refine congrArg (V c main_arg13 : S128x128.Idx → EReal) (funext fun d => Fin.ext ?_)
  match d with
  | ⟨0, _⟩ => show win1_7.index t (0 : Fin 2) * 128 + 1 * a.val = a.val; rw [e0]; omega
  | ⟨1, _⟩ => show win1_7.index t (1 : Fin 2) * 128 + 1 * k.val = k.val; rw [e1]; omega

/-- The block of the second layer's bias is the whole row, at every point. -/
theorem bias2_whole (a : Fin 1) (k : Fin 128) :
    (iblk1 (F := Ideal) V c 8 t : Vec Ideal S1x128 .f32) (ix2 a k) = (V c main_v31 : S1x128.Idx → EReal) (ix2 a k) := by
  obtain ⟨-, -, -, -, -, -, -, -, -, -, -, -, -, -, -, -, -, -, e0, e1⟩ := idx_facts t
  show (V c main_v31 : S1x128.Idx → EReal) (((cfg1.win 8).blk t).view.emb (ix2 a k)) = _
  refine congrArg (V c main_v31 : S1x128.Idx → EReal) (funext fun d => Fin.ext ?_)
  match d with
  | ⟨0, _⟩ => show win1_8.index t (0 : Fin 2) * 1 + 1 * a.val = a.val; rw [e0]; omega
  | ⟨1, _⟩ => show win1_8.index t (1 : Fin 2) * 128 + 1 * k.val = k.val; rw [e1]; omega

end Blocks

section Table
variable (V : (c : Dev nD) → (b : Ref sig .tc) → Buf (Elt Ideal) ((c : Thread nD τ).loc b)) (c : Dev nD)

/-- The update table of the arrays the region finds. -/
abbrev table : S102400x128.Idx → EReal :=
  updTable (R := 102400) (V c main_v24) (V c main_v25) (V c main_v26) (V c main_v27)
    (fun k => V c main_v28 (ix2 (0 : Fin 1) k)) (fun k => V c main_v29 (ix2 (0 : Fin 1) k))
    (fun k => V c main_v30 (ix2 (0 : Fin 1) k)) (V c main_arg13) (fun k => V c main_v31 (ix2 (0 : Fin 1) k))

/-- What point t writes back is rows 4096 t … 4096 t + 4095 of the update table. -/
theorem flushed_eq (t : Fin cfg1.N) :
    (dat1 (F := Ideal) V c).flushed 9 t = ((cfg1.win 9).blk t).view.read (Elt Ideal) (table V c) := by
  show (cfg1.win 9).cut (grid1.coords t) ((dat1 (F := Ideal) V c).after 9 t) = _
  rw [after1_9]
  funext j
  obtain ⟨p, q, rfl⟩ : ∃ (p : Fin 4096) (q : Fin 128), j = ix2 p q := ⟨j 0, j 1, eq_ix2 j⟩
  obtain ⟨e0, e1, -⟩ := idx_facts t
  have hout : ((cfg1.win 9).blk t).view.emb (ix2 p q) = (ix2 (rowAt t p) q : S102400x128.Idx) := by
    funext d; apply Fin.ext
    match d with
    | ⟨0, _⟩ => show win1_9.index t (0 : Fin 2) * 4096 + 1 * p.val = t.val * 4096 + p.val; rw [e0]; omega
    | ⟨1, _⟩ => show win1_9.index t (1 : Fin 2) * 128 + 1 * q.val = q.val; rw [e1]; omega
  show out1_9 (F := Ideal) (iblk1 V c 0 t) (iblk1 V c 1 t) (iblk1 V c 2 t) (iblk1 V c 3 t) (iblk1 V c 4 t) (iblk1 V c 5 t)
      (iblk1 V c 6 t) (iblk1 V c 7 t) (iblk1 V c 8 t) (ix2 p q) = table V c (((cfg1.win 9).blk t).view.emb (ix2 p q))
  rw [hout]
  refine (out_at (iblk1 V c 0 t) (iblk1 V c 1 t) (iblk1 V c 2 t) (iblk1 V c 3 t) (iblk1 V c 4 t) (iblk1 V c 5 t)
      (iblk1 V c 6 t) (iblk1 V c 7 t) (iblk1 V c 8 t) p q).trans ?_
  simp only [node_rows, agg_rows, mat1a_whole, mat1b_whole, bias1_whole, scale_whole, shift_whole, mat2_whole, bias2_whole]
  rfl

/-- An index of the output array is in point t's block when its row lies in 4096 t … 4096 t + 4095. -/
theorem mem_blk (t : Fin cfg1.N) (i : S102400x128.Idx) :
    i ∈ ((cfg1.win 9).blk t).view.set ↔ ∀ a : Fin 2, win1_9.index t a * S4096x128.size a ≤ (i a).val ∧ (i a).val < win1_9.index t a * S4096x128.size a + S4096x128.size a := by
  show i ∈ ((View.whole main_v32).slice (win1_9.rect t)).set ↔ _
  rw [View.set_slice_whole, Rect.mem_set_unit]
  exact Iff.rfl

/-- The 25 blocks of 4096 rows tile the 102400 rows: row r is in the block of point r / 4096. -/
theorem covered (i : S102400x128.Idx) :
    ∃ t : Fin cfg1.N, (cfg1.win 9).flush t = true ∧ i ∈ ((cfg1.win 9).blk t).view.set := by
  have hi0 : (i 0).val < 102400 := (i 0).isLt
  have hi1 : (i 1).val < 128 := (i 1).isLt
  let t : Fin cfg1.N := ⟨(i 0).val / 4096, lt_of_lt_of_eq (by omega : (i 0).val / 4096 < 25) N_1.symm⟩
  have ht : t.val = (i 0).val / 4096 := rfl
  obtain ⟨e0, e1, -⟩ := idx_facts t
  refine ⟨t, flush1_9 t, ?_⟩
  rw [mem_blk]
  intro a
  match a with
  | ⟨0, _⟩ => show win1_9.index t (0 : Fin 2) * 4096 ≤ (i 0).val ∧ (i 0).val < win1_9.index t (0 : Fin 2) * 4096 + 4096; rw [e0, ht]; omega
  | ⟨1, _⟩ => show win1_9.index t (1 : Fin 2) * 128 ≤ (i 1).val ∧ (i 1).val < win1_9.index t (1 : Fin 2) * 128 + 128; rw [e1]; omega

end Table

/-- After the second region its output array holds the update table of the region's input arrays, whatever those hold. -/
theorem upd_region (V : (c : Dev nD) → (b : Ref sig .tc) → Buf (Elt Ideal) ((c : Thread nD τ).loc b)) (c : Dev nD) :
    ((dat1 (F := Ideal) V c).arrAt 9 cfg1.N : (⟨2, ![102400, 128]⟩ : Shape).Idx → EReal) =
      updTable (R := 102400) (V c main_v24) (V c main_v25) (V c main_v26) (V c main_v27)
        (fun k => V c main_v28 (ix2 (0 : Fin 1) k)) (fun k => V c main_v29 (ix2 (0 : Fin 1) k))
        (fun k => V c main_v30 (ix2 (0 : Fin 1) k)) (V c main_arg13) (fun k => V c main_v31 (ix2 (0 : Fin 1) k)) := by
  exact (dat1 (F := Ideal) V c).arrAt_eq_of_cover 9 (table V c) (fun t _ => flushed_eq V c t) covered

end Cert.KernelIdeal.UpdRegion

end
-- ==== Proof.KernelUpd.lean ====
/-
  The update half of the kernel program, read off the fold of buffer contents.

  The node table and the aggregated table are padded with 2400 rows below, the first weight matrix is cut into
  its row bands 0–127 and 128–255, the bias, scale and shift vectors are laid as one-row matrices, the second
  region maps rows to rows, and the first 100000 rows are kept: the result. A row of the region's output depends
  only on the same row of the padded tables, so the kept rows are the update table of the unpadded tables.
-/
import proofs.«423946_j67886253081357_1_alg».proof.Proof.Gen.KernelIdeal.Frame
import proofs.«423946_j67886253081357_1_alg».proof.Proof.UpdRegion
import proofs.«423946_j67886253081357_1_alg».proof.Proof.Bands
import proofs.«423946_j67886253081357_1_alg».proof.Proof.KArgs
import Idealize.ShloMosaic.Lib.StableHlo.Run
import Idealize.ShloMosaic.Lib.KernelVsHost
import Idealize.ShloMosaic.Lib.ValueLayout
import Idealize.ShloMosaic.Lib.Pipeline.Value

set_option maxRecDepth 16384

noncomputable section

namespace Cert.KernelUpd

open Cert.KernelIdeal Cert.KernelIdeal.Gen Cert.LayerMath
open Idealize.ShloMosaic Idealize.ShloMosaic.TcCoe Idealize.ShloMosaic.ValueIdx Idealize.SL.Sem

open Cert.KernelIdeal.Args

variable (m : (ℓ : Loc nD τ sig) → Buf (Elt Ideal) ℓ) (ρ : Dev nD → PrngReg) (c : Dev nD)

/-- A stretch of host operations leaves a buffer none of them writes as it was. -/
local macro "skip_ops " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The last two steps: the kept rows, and the second region's output array -/

/-- The result buffer is the first 100000 rows of the second region's output array. -/
theorem v33_eq : (W18 m ρ c (Proc.devRef .tc main_v33) : S100000x128.Idx → EReal)
    = extractStridedSlice S100000x128 ![0, 0] (W17 m ρ c (Proc.devRef .tc main_v32) : S102400x128.Idx → EReal)
        slices_S102400x128_S100000x128_0_0 := by
  show StableHlo.after hostOps2 (W17 m ρ c) (Proc.devRef .tc main_v33) = _
  after_results

/-- The second region's output array is the update table of the region's entry tables (102400 rows). -/
theorem v32_eq : (W17 m ρ c (Proc.devRef .tc main_v32) : (⟨2, ![102400, 128]⟩ : Shape).Idx → EReal)
    = updTable (R := 102400) (V16 m ρ c main_v24) (V16 m ρ c main_v25) (V16 m ρ c main_v26) (V16 m ρ c main_v27)
        (fun k => V16 m ρ c main_v28 (ix2 (0 : Fin 1) k)) (fun k => V16 m ρ c main_v29 (ix2 (0 : Fin 1) k))
        (fun k => V16 m ρ c main_v30 (ix2 (0 : Fin 1) k)) (V16 m ρ c main_arg13)
        (fun k => V16 m ρ c main_v31 (ix2 (0 : Fin 1) k)) :=
  (W17_arr m ρ c 9).trans (UpdRegion.upd_region (V16 m ρ) c)

/-! ## Reading a padded table, a row band and a one-row matrix at an index -/

/-- A table with rows appended below, read at a row of the table, is the table there. -/
theorem pad_rows_apply {R R' : Nat} (X : (⟨2, ![R, 128]⟩ : Shape).Idx → EReal) {u : Shape} (v : u.Idx → EReal) (hi : Nat)
    (h : (⟨2, ![R, 128]⟩ : Shape).Pads ![0, 0] ![hi, 0] ![0, 0] ⟨2, ![R', 128]⟩) (hu : 0 < u.numel)
    (r : Fin R) (r' : Fin R') (hr : r'.val = r.val) (a : Fin 128) :
    pad ⟨2, ![R', 128]⟩ ![0, 0] ![hi, 0] ![0, 0] X v h hu (ix2 r' a) = X (ix2 r a) :=
  pad_apply_of_inside _ _ _ X v h hu _ _ (fun ax => by
    match ax with
    | ⟨0, _⟩ => show r'.val = 0 + r.val * (0 + 1); omega
    | ⟨1, _⟩ => show a.val = 0 + a.val * (0 + 1); omega)

/-- Rows o … o + 127 of a matrix of 256 rows, cut out as a matrix, are its row band. -/
theorem slice_band (o : Nat) (ho : o + 128 ≤ 256) (W : (⟨2, ![256, 128]⟩ : Shape).Idx → EReal)
    (h : (⟨2, ![256, 128]⟩ : Shape).Slices ![o, 0] ⟨2, ![128, 128]⟩) :
    extractStridedSlice ⟨2, ![128, 128]⟩ ![o, 0] W h = rowBand o 128 ho W := by
  funext i
  obtain ⟨a, k, rfl⟩ : ∃ (a : Fin 128) (k : Fin 128), i = ix2 a k := ⟨i 0, i 1, eq_ix2 i⟩
  rw [slice2_axis0_eq, rowBand_apply]

/-- A vector laid as a one-row matrix, read along that row, is the vector. -/
theorem row_of_vec (x : (⟨1, ![128]⟩ : Shape).Idx → EReal) (h : (⟨1, ![128]⟩ : Shape).ShapeCasts ⟨2, ![1, 128]⟩) :
    (fun k => shapeCast ⟨2, ![1, 128]⟩ x h (ix2 (0 : Fin 1) k)) = vec128 x :=
  funext fun k => shapeCast_a_1a_apply x h 0 k

/-! ## The second region's entry arrays, in terms of the buffers at the first region's exit

  Between the first region's exit and the second region's entry the host operations pad the node table and the
  aggregated table, cut the first weight matrix, and lay the bias, scale and shift vectors as one-row matrices;
  none of them writes an argument array or the aggregated table. -/

/-- The buffer contents at the second region's entry, from the contents at the first region's exit. -/
abbrev entryFrom (X : Valuation τ sig (Elt Ideal)) : Valuation τ sig (Elt Ideal) :=
  StableHlo.after hostOps1_4 (StableHlo.after hostOps1_3 (StableHlo.after hostOps1_2 (StableHlo.after hostOps1_1 X)))

/-- The padded node table: the node table with 2400 rows appended. -/
theorem v24_eq : (V16 m ρ c main_v24 : S102400x128.Idx → EReal)
    = pad (s := S100000x128) (α := EReal) S102400x128 ![0, 0] ![2400, 0] ![0, 0]
        (W12 m ρ c (Proc.devRef .tc main_arg0) : S100000x128.Idx → EReal)
        (sitofp (F := Ideal) .f32 (W12 m ρ c (Proc.devRef .tc main_c_2) : S_.Idx → BitVec 32) : S_.Idx → EReal)
        pads_S100000x128_S102400x128_024000_000 h_S_ := by
  show entryFrom (W12 m ρ c) (Proc.devRef .tc main_v24) = _
  generalize W12 m ρ c = X
  after_results
  rfl

/-- The padded aggregated table: the aggregated table with 2400 rows appended. -/
theorem v25_eq : (V16 m ρ c main_v25 : S102400x128.Idx → EReal)
    = pad (s := S100000x128) (α := EReal) S102400x128 ![0, 0] ![2400, 0] ![0, 0]
        (W12 m ρ c (Proc.devRef .tc main_v23) : S100000x128.Idx → EReal)
        (sitofp (F := Ideal) .f32 (constantI S_ 32 0#32) : S_.Idx → EReal)
        pads_S100000x128_S102400x128_024000_000 h_S_ := by
  show entryFrom (W12 m ρ c) (Proc.devRef .tc main_v25) = _
  generalize W12 m ρ c = X
  after_results
  rfl

/-- Rows 0–127 of the first weight matrix. -/
theorem v26_eq : (V16 m ρ c main_v26 : S128x128.Idx → EReal)
    = extractStridedSlice S128x128 ![0, 0] (W12 m ρ c (Proc.devRef .tc main_arg9) : S256x128.Idx → EReal)
        slices_S256x128_S128x128_0_0 := by
  show entryFrom (W12 m ρ c) (Proc.devRef .tc main_v26) = _
  generalize W12 m ρ c = X
  after_results

/-- Rows 128–255 of the first weight matrix. -/
theorem v27_eq : (V16 m ρ c main_v27 : S128x128.Idx → EReal)
    = extractStridedSlice S128x128 ![128, 0] (W12 m ρ c (Proc.devRef .tc main_arg9) : S256x128.Idx → EReal)
        slices_S256x128_S128x128_128_0 := by
  show entryFrom (W12 m ρ c) (Proc.devRef .tc main_v27) = _
  generalize W12 m ρ c = X
  after_results

/-- The first bias vector as a one-row matrix. -/
theorem v28_eq : (V16 m ρ c main_v28 : S1x128.Idx → EReal)
    = shapeCast S1x128 (W12 m ρ c (Proc.devRef .tc main_arg10) : S128.Idx → EReal) shapeCasts_S128_S1x128 := by
  show entryFrom (W12 m ρ c) (Proc.devRef .tc main_v28) = _
  generalize W12 m ρ c = X
  after_results
  rfl

/-- The scale vector as a one-row matrix. -/
theorem v29_eq : (V16 m ρ c main_v29 : S1x128.Idx → EReal)
    = shapeCast S1x128 (W12 m ρ c (Proc.devRef .tc main_arg11) : S128.Idx → EReal) shapeCasts_S128_S1x128 := by
  show entryFrom (W12 m ρ c) (Proc.devRef .tc main_v29) = _
  generalize W12 m ρ c = X
  after_results
  rfl

/-- The shift vector as a one-row matrix. -/
theorem v30_eq : (V16 m ρ c main_v30 : S1x128.Idx → EReal)
    = shapeCast S1x128 (W12 m ρ c (Proc.devRef .tc main_arg12) : S128.Idx → EReal) shapeCasts_S128_S1x128 := by
  show entryFrom (W12 m ρ c) (Proc.devRef .tc main_v30) = _
  generalize W12 m ρ c = X
  after_results
  rfl

/-- The second bias vector as a one-row matrix. -/
theorem v31_eq : (V16 m ρ c main_v31 : S1x128.Idx → EReal)
    = shapeCast S1x128 (W12 m ρ c (Proc.devRef .tc main_arg14) : S128.Idx → EReal) shapeCasts_S128_S1x128 := by
  show entryFrom (W12 m ρ c) (Proc.devRef .tc main_v31) = _
  generalize W12 m ρ c = X
  after_results
  rfl

/-- The second weight matrix is not written. -/
theorem arg13_eq : (V16 m ρ c main_arg13 : S128x128.Idx → EReal)
    = W12 m ρ c (Proc.devRef .tc main_arg13) := by
  show entryFrom (W12 m ρ c) (Proc.devRef .tc main_arg13) = _
  generalize W12 m ρ c = X
  after_results

/-! ## The argument arrays at the first region's exit

  No host operation writes an argument array, and the second region only reads the one it is given (the second
  weight matrix, through an input window), so from the first region's exit to the return an argument's buffer is
  unchanged, and at the return it holds the launch contents. -/

/-- From the return back to the first region's exit through a buffer nothing in between writes: the last slice,
    the second region (the step given), and the four stretches before it. -/
local macro "kept_since_W12 " h:term : tactic =>
  `(tactic| (
    refine Eq.trans (by skip_ops hostOps2) ?_
    refine Eq.trans $h ?_
    refine Eq.trans (by skip_ops hostOps1_4) ?_
    refine Eq.trans (by skip_ops hostOps1_3) ?_
    refine Eq.trans (by skip_ops hostOps1_2) ?_
    skip_ops hostOps1_1))

/-- The node table. -/
theorem W12_arg0 : W12 m ρ c (Proc.devRef .tc main_arg0) = nodeFeats m c :=
  Eq.trans (Eq.symm (by kept_since_W12 (W17_of_ne _ _ _ _ (by decide)))) (W18_main_arg0 m ρ c)

/-- The first weight matrix. -/
theorem W12_arg9 : W12 m ρ c (Proc.devRef .tc main_arg9) = updW1 m c :=
  Eq.trans (Eq.symm (by kept_since_W12 (W17_of_ne _ _ _ _ (by decide)))) (W18_main_arg9 m ρ c)

/-- The first bias vector. -/
theorem W12_arg10 : W12 m ρ c (Proc.devRef .tc main_arg10) = updB1 m c :=
  Eq.trans (Eq.symm (by kept_since_W12 (W17_of_ne _ _ _ _ (by decide)))) (W18_main_arg10 m ρ c)

/-- The scale vector. -/
theorem W12_arg11 : W12 m ρ c (Proc.devRef .tc main_arg11) = ln2G m c :=
  Eq.trans (Eq.symm (by kept_since_W12 (W17_of_ne _ _ _ _ (by decide)))) (W18_main_arg11 m ρ c)

/-- The shift vector. -/
theorem W12_arg12 : W12 m ρ c (Proc.devRef .tc main_arg12) = ln2B m c :=
  Eq.trans (Eq.symm (by kept_since_W12 (W17_of_ne _ _ _ _ (by decide)))) (W18_main_arg12 m ρ c)

/-- The second weight matrix: an input array of the second region, left as it was entered. -/
theorem W12_arg13 : W12 m ρ c (Proc.devRef .tc main_arg13) = updW2 m c :=
  Eq.trans (Eq.symm (by
    kept_since_W12 ((W17_arr m ρ c 7).trans (((dat1 (V16 m ρ) c).arrAt_in 7 rfl _).trans (A_eq1 (V16 m ρ) c 7)))))
    (W18_main_arg13 m ρ c)

/-- The second bias vector. -/
theorem W12_arg14 : W12 m ρ c (Proc.devRef .tc main_arg14) = updB2 m c :=
  Eq.trans (Eq.symm (by kept_since_W12 (W17_of_ne _ _ _ _ (by decide)))) (W18_main_arg14 m ρ c)

/-! ## The second region's entry arrays, in terms of the arguments and the aggregated table -/

/-- Row r of the padded node table is row r of the node table. -/
theorem node_row (r : Fin 100000) (r' : Fin 102400) (hr : r'.val = r.val) (a : Fin 128) :
    (V16 m ρ c main_v24 : S102400x128.Idx → EReal) (ix2 r' a) = nodeFeats m c (ix2 r a) := by
  rw [v24_eq, W12_arg0]
  exact pad_rows_apply _ _ 2400 _ _ r r' hr a

/-- Row r of the padded aggregated table is row r of the aggregated table. -/
theorem agg_row (r : Fin 100000) (r' : Fin 102400) (hr : r'.val = r.val) (a : Fin 128) :
    (V16 m ρ c main_v25 : S102400x128.Idx → EReal) (ix2 r' a)
      = (W12 m ρ c (Proc.devRef .tc main_v23) : S100000x128.Idx → EReal) (ix2 r a) := by
  rw [v25_eq]
  exact pad_rows_apply _ _ 2400 _ _ r r' hr a

/-- The two matrices the first layer contracts with are the row bands of the first weight matrix. -/
theorem band0_eq : (V16 m ρ c main_v26 : S128x128.Idx → EReal) = rowBand 0 128 (by omega) (updW1 m c) := by
  rw [v26_eq, W12_arg9]
  exact slice_band 0 _ _ _
theorem band128_eq : (V16 m ρ c main_v27 : S128x128.Idx → EReal) = rowBand 128 128 (by omega) (updW1 m c) := by
  rw [v27_eq, W12_arg9]
  exact slice_band 128 _ _ _

/-- The one-row matrices, read along their row, are the bias, scale and shift vectors. -/
theorem bias1_eq : (fun k => (V16 m ρ c main_v28 : S1x128.Idx → EReal) (ix2 (0 : Fin 1) k)) = vec128 (updB1 m c) := by
  rw [v28_eq, W12_arg10]
  exact row_of_vec _ _
theorem scale_eq : (fun k => (V16 m ρ c main_v29 : S1x128.Idx → EReal) (ix2 (0 : Fin 1) k)) = vec128 (ln2G m c) := by
  rw [v29_eq, W12_arg11]
  exact row_of_vec _ _
theorem shift_eq : (fun k => (V16 m ρ c main_v30 : S1x128.Idx → EReal) (ix2 (0 : Fin 1) k)) = vec128 (ln2B m c) := by
  rw [v30_eq, W12_arg12]
  exact row_of_vec _ _
theorem bias2_eq : (fun k => (V16 m ρ c main_v31 : S1x128.Idx → EReal) (ix2 (0 : Fin 1) k)) = vec128 (updB2 m c) := by
  rw [v31_eq, W12_arg14]
  exact row_of_vec _ _

/-- The second layer's matrix is the second weight matrix. -/
theorem weight2_eq : (V16 m ρ c main_arg13 : S128x128.Idx → EReal) = updW2 m c := by
  rw [arg13_eq, W12_arg13]

/-! ## The result -/

/-- The result is the update table of the node table and the aggregated table. -/
theorem kernel_upd :
    (W18 m ρ c (Proc.devRef .tc main_v33) : (⟨2, ![100000, 128]⟩ : Shape).Idx → EReal)
      = updTable (R := 100000) (nodeFeats m c) (W12 m ρ c (Proc.devRef .tc main_v23))
          (rowBand 0 128 (by omega) (updW1 m c)) (rowBand 128 128 (by omega) (updW1 m c))
          (vec128 (updB1 m c)) (vec128 (ln2G m c)) (vec128 (ln2B m c)) (updW2 m c) (vec128 (updB2 m c)) := by
  funext i
  obtain ⟨r, j, rfl⟩ : ∃ (r : Fin 100000) (j : Fin 128), i = ix2 r j := ⟨i 0, i 1, eq_ix2 i⟩
  have hr : 0 + r.val < 102400 := by have := r.isLt; omega
  -- the kept row r is row r of the second region's output array
  have hkept : (W18 m ρ c (Proc.devRef .tc main_v33) : S100000x128.Idx → EReal) (ix2 r j)
      = (W17 m ρ c (Proc.devRef .tc main_v32) : S102400x128.Idx → EReal) (ix2 ⟨0 + r.val, hr⟩ j) := by
    rw [v33_eq]
    exact slice2_axis0_apply 0 _ _ r j ⟨0 + r.val, hr⟩ rfl
  rw [hkept, v32_eq, band0_eq, band128_eq, bias1_eq, scale_eq, shift_eq, weight2_eq, bias2_eq]
  -- a row of the update table depends only on the same row of the two tables
  exact updTable_row _ _ _ _ _ _ _ _ _ _ _ r ⟨0 + r.val, hr⟩
    (fun a => node_row m ρ c r _ (Nat.zero_add _) a) (fun a => agg_row m ρ c r _ (Nat.zero_add _) a) j

end Cert.KernelUpd

end
-- ==== Proof.RefMsg.lean ====
/-
  The message half of the reference, stage by stage, as the message table.

  The reference joins a gathered source row, a gathered target row and an edge row into one row of 320 columns
  and contracts it with the whole first weight matrix; a sum over 320 columns is the sum over the column ranges
  0–127, 128–255, 256–319, and on each range the joined row is one of the three rows and the matrix one of its
  row bands. It then normalises dividing by a square root, which is multiplying by the reciprocal square root
  because the shifted variance is positive; the rest (positive part, second layer, bias) is the same text.
-/
import proofs.«423946_j67886253081357_1_alg».proof.Proof.RefStages
import proofs.«423946_j67886253081357_1_alg».proof.Proof.Bands
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.RefMsg

open Cert.ReferenceIdeal Cert.ReferenceIdeal.Stages Cert.LayerMath
open Idealize.ShloMosaic Idealize.ShloMosaic.TcCoe Idealize.ShloMosaic.ValueIdx Idealize.SL.Sem

/-! ## The joined row, read on each of its three column ranges -/

/-- Columns 0–127 of the joined row are the gathered source row. -/
theorem joined_left (x0 : (⟨S100000x128, .f32⟩ : BufTy).Contents (Elt Ideal)) (x1 : (⟨S400000x64, .f32⟩ : BufTy).Contents (Elt Ideal))
    (x2 : (⟨S2x400000, .i32⟩ : BufTy).Contents (Elt Ideal)) (r : Fin 800000) (a : Fin 128) :
    val_main_v21 (F := Ideal) x0 x1 x2 (ix2 r (⟨a.val, by omega⟩ : Fin 320)) = val_main_v13 (F := Ideal) x0 x2 (ix2 r a) := by
  unfold val_main_v21
  refine concatenate_apply_piece (1 : Fin 2)
    [⟨S800000x128, val_main_v13 (F := Ideal) x0 x2⟩, ⟨S800000x128, val_main_v20 (F := Ideal) x0 x2⟩, ⟨S800000x64, val_main_v6 (F := Ideal) x1⟩]
    _ (ix2 r (⟨a.val, by omega⟩ : Fin 320)) 0 ?_ S800000x128 (val_main_v13 (F := Ideal) x0 x2) rfl rfl 0 rfl (ix2 r a) ?_ ?_
  · show (0 : Nat) < 3; omega
  · intro b hb; match b with | ⟨0, _⟩ => rfl | ⟨1, _⟩ => exact absurd rfl hb
  · show 0 + a.val = a.val; omega

/-- Columns 128–255 of the joined row are the gathered target row. -/
theorem joined_mid (x0 : (⟨S100000x128, .f32⟩ : BufTy).Contents (Elt Ideal)) (x1 : (⟨S400000x64, .f32⟩ : BufTy).Contents (Elt Ideal))
    (x2 : (⟨S2x400000, .i32⟩ : BufTy).Contents (Elt Ideal)) (r : Fin 800000) (a : Fin 128) :
    val_main_v21 (F := Ideal) x0 x1 x2 (ix2 r (⟨128 + a.val, by omega⟩ : Fin 320)) = val_main_v20 (F := Ideal) x0 x2 (ix2 r a) := by
  unfold val_main_v21
  refine concatenate_apply_piece (1 : Fin 2) _ _ (ix2 r (⟨128 + a.val, by omega⟩ : Fin 320)) 1 ?_ S800000x128 _ rfl rfl 128 rfl (ix2 r a) ?_ ?_
  · show (1 : Nat) < 3; omega
  · intro b hb; match b with | ⟨0, _⟩ => rfl | ⟨1, _⟩ => exact absurd rfl hb
  · show 128 + a.val = 128 + a.val; rfl

/-- Columns 256–319 of the joined row are the edge row. -/
theorem joined_right (x0 : (⟨S100000x128, .f32⟩ : BufTy).Contents (Elt Ideal)) (x1 : (⟨S400000x64, .f32⟩ : BufTy).Contents (Elt Ideal))
    (x2 : (⟨S2x400000, .i32⟩ : BufTy).Contents (Elt Ideal)) (r : Fin 800000) (a : Fin 64) :
    val_main_v21 (F := Ideal) x0 x1 x2 (ix2 r (⟨256 + a.val, by omega⟩ : Fin 320)) = val_main_v6 (F := Ideal) x1 (ix2 r a) := by
  unfold val_main_v21
  refine concatenate_apply_piece (1 : Fin 2) _ _ (ix2 r (⟨256 + a.val, by omega⟩ : Fin 320)) 2 ?_ S800000x64 _ rfl rfl 256 rfl (ix2 r a) ?_ ?_
  · show (2 : Nat) < 3; omega
  · intro b hb; match b with | ⟨0, _⟩ => rfl | ⟨1, _⟩ => exact absurd rfl hb
  · show 256 + a.val = 256 + a.val; rfl

/-! ## The first layer, one row at a time -/

/-- Row `r` of the reference's first layer: the contraction over the 320 joined columns, plus the bias. -/
def pre (x0 : (⟨S100000x128, .f32⟩ : BufTy).Contents (Elt Ideal)) (x1 : (⟨S400000x64, .f32⟩ : BufTy).Contents (Elt Ideal))
    (x2 : (⟨S2x400000, .i32⟩ : BufTy).Contents (Elt Ideal)) (x3 : (⟨S320x128, .f32⟩ : BufTy).Contents (Elt Ideal))
    (x4 : (⟨S128, .f32⟩ : BufTy).Contents (Elt Ideal)) (r : Fin 800000) : Fin 128 → EReal :=
  fun k => val_main_v25 (F := Ideal) x0 x1 x2 x3 x4 (ix2 r k)

/-- The same row in the table's grouping: the sum over 320 columns split along the ranges 0–127, 128–255,
    256–319; on each range the joined row is one of the three rows and the matrix one of its bands. -/
theorem pre_eq (x0 : (⟨S100000x128, .f32⟩ : BufTy).Contents (Elt Ideal)) (x1 : (⟨S400000x64, .f32⟩ : BufTy).Contents (Elt Ideal))
    (x2 : (⟨S2x400000, .i32⟩ : BufTy).Contents (Elt Ideal)) (x3 : (⟨S320x128, .f32⟩ : BufTy).Contents (Elt Ideal))
    (x4 : (⟨S128, .f32⟩ : BufTy).Contents (Elt Ideal)) (r : Fin 800000) (k : Fin 128) :
    pre x0 x1 x2 x3 x4 r k
      = (((∑ a : Fin 128, val_main_v13 (F := Ideal) x0 x2 (ix2 r a) * rowBand 0 128 (by omega) x3 (ix2 a k))
          + ∑ a : Fin 128, val_main_v20 (F := Ideal) x0 x2 (ix2 r a) * rowBand 128 128 (by omega) x3 (ix2 a k))
          + ∑ a : Fin 64, val_main_v6 (F := Ideal) x1 (ix2 r a) * rowBand 256 64 (by omega) x3 (ix2 a k)) + vec128 x4 k := by
  have hl : ∀ q : Fin 320, lidx_main_v22 (ix2 r k) q = ix2 r q := fun q =>
    funext fun a => Fin.ext (by match a with | ⟨0, _⟩ => rfl | ⟨1, _⟩ => rfl)
  have hr : ∀ q : Fin 320, ridx_main_v22 (ix2 r k) q = ix2 q k := fun q =>
    funext fun a => Fin.ext (by match a with | ⟨0, _⟩ => rfl | ⟨1, _⟩ => rfl)
  have hb : idx_main_v23 (idx_main_v24 (ix2 r k)) = ix1 k :=
    funext fun a => Fin.ext (by match a with | ⟨0, _⟩ => rfl)
  unfold pre
  rw [val_main_v25_apply, val_main_v22_apply, val_main_v24_apply, val_main_v23_apply, Ideal.addf_def, hb]
  simp only [hl, hr]
  rw [sum_split_320]
  simp only [joined_left, joined_mid, joined_right, rowBand_apply, Nat.zero_add]
  rfl

/-! ## The normalisation, one row at a time -/

/-- The reference's mean stage at any column of row `r` is the mean of that first-layer row. -/
theorem mean_row (x0 : (⟨S100000x128, .f32⟩ : BufTy).Contents (Elt Ideal)) (x1 : (⟨S400000x64, .f32⟩ : BufTy).Contents (Elt Ideal))
    (x2 : (⟨S2x400000, .i32⟩ : BufTy).Contents (Elt Ideal)) (x3 : (⟨S320x128, .f32⟩ : BufTy).Contents (Elt Ideal))
    (x4 : (⟨S128, .f32⟩ : BufTy).Contents (Elt Ideal)) (r : Fin 800000) (j : Fin 128) :
    val_main_v30 (F := Ideal) x0 x1 x2 x3 x4 (ix2 r j) = rowMean (pre x0 x1 x2 x3 x4 r) := by
  have hq : ∀ q : Fin 128, idx_main_v26 (idx_main_v27 (idx_main_v30 (ix2 r j))) q = ix2 r q := fun q =>
    funext fun a => Fin.ext (by match a with | ⟨0, _⟩ => rfl | ⟨1, _⟩ => rfl)
  rw [val_main_v30_apply, val_main_v29_apply, val_main_v27_apply, val_main_v28_apply, val_main_v26_apply,
    val_main_cst_3_apply, val_main_cst_apply]
  simp only [hq, Ideal.hostDivf_def, Ideal.ofBits_def, Ideal.ofBits_zero_f32, zero_add]
  rfl

/-- The second broadcast of the mean is the same value. -/
theorem mean_row' (x0 : (⟨S100000x128, .f32⟩ : BufTy).Contents (Elt Ideal)) (x1 : (⟨S400000x64, .f32⟩ : BufTy).Contents (Elt Ideal))
    (x2 : (⟨S2x400000, .i32⟩ : BufTy).Contents (Elt Ideal)) (x3 : (⟨S320x128, .f32⟩ : BufTy).Contents (Elt Ideal))
    (x4 : (⟨S128, .f32⟩ : BufTy).Contents (Elt Ideal)) (r : Fin 800000) (j : Fin 128) :
    val_main_v37 (F := Ideal) x0 x1 x2 x3 x4 (ix2 r j) = rowMean (pre x0 x1 x2 x3 x4 r) := by
  have hq : ∀ q : Fin 128, idx_main_v26 (idx_main_v27 (idx_main_v37 (ix2 r j))) q = ix2 r q := fun q =>
    funext fun a => Fin.ext (by match a with | ⟨0, _⟩ => rfl | ⟨1, _⟩ => rfl)
  rw [val_main_v37_apply, val_main_v29_apply, val_main_v27_apply, val_main_v28_apply, val_main_v26_apply,
    val_main_cst_3_apply, val_main_cst_apply]
  simp only [hq, Ideal.hostDivf_def, Ideal.ofBits_def, Ideal.ofBits_zero_f32, zero_add]
  rfl

/-- The reference's square-root stage at any column of row `r`: the root of the shifted variance of the row. -/
theorem sd_row (x0 : (⟨S100000x128, .f32⟩ : BufTy).Contents (Elt Ideal)) (x1 : (⟨S400000x64, .f32⟩ : BufTy).Contents (Elt Ideal))
    (x2 : (⟨S2x400000, .i32⟩ : BufTy).Contents (Elt Ideal)) (x3 : (⟨S320x128, .f32⟩ : BufTy).Contents (Elt Ideal))
    (x4 : (⟨S128, .f32⟩ : BufTy).Contents (Elt Ideal)) (r : Fin 800000) (j : Fin 128) :
    val_main_v42 (F := Ideal) x0 x1 x2 x3 x4 (ix2 r j)
      = Ideal.sqrt (rowVar (pre x0 x1 x2 x3 x4 r) + wEps) := by
  have hq : ∀ q : Fin 128, idx_main_v33 (idx_main_v34 (idx_main_v42 (ix2 r j))) q = ix2 r q := fun q =>
    funext fun a => Fin.ext (by match a with | ⟨0, _⟩ => rfl | ⟨1, _⟩ => rfl)
  rw [val_main_v42_apply, val_main_v41_apply, val_main_v40_apply, val_main_v36_apply, val_main_v39_apply,
    val_main_cst_6_apply, val_main_v34_apply, val_main_v35_apply, val_main_cst_5_apply, val_main_v33_apply,
    val_main_cst_4_apply]
  simp only [hq, val_main_v32_apply, val_main_v31_apply, mean_row, Ideal.hostDivf_def, Ideal.hostUnary_sqrt_def,
    Ideal.addf_def, Ideal.subf_def, Ideal.mulf_def, Ideal.ofBits_def, Ideal.ofBits_zero_f32, zero_add]
  rfl

/-- The reference's normalised, scaled and shifted row, in the spelling that divides by the square root. -/
theorem norm_row (x0 : (⟨S100000x128, .f32⟩ : BufTy).Contents (Elt Ideal)) (x1 : (⟨S400000x64, .f32⟩ : BufTy).Contents (Elt Ideal))
    (x2 : (⟨S2x400000, .i32⟩ : BufTy).Contents (Elt Ideal)) (x3 : (⟨S320x128, .f32⟩ : BufTy).Contents (Elt Ideal))
    (x4 : (⟨S128, .f32⟩ : BufTy).Contents (Elt Ideal)) (x5 x6 : (⟨S128, .f32⟩ : BufTy).Contents (Elt Ideal)) (r : Fin 800000) (j : Fin 128) :
    val_main_v49 (F := Ideal) x0 x1 x2 x3 x4 x5 x6 (ix2 r j)
      = normBySqrt (pre x0 x1 x2 x3 x4 r) (vec128 x5) (vec128 x6) j := by
  have h5 : idx_main_v44 (idx_main_v45 (ix2 r j)) = ix1 j :=
    funext fun a => Fin.ext (by match a with | ⟨0, _⟩ => rfl)
  have h6 : idx_main_v47 (idx_main_v48 (ix2 r j)) = ix1 j :=
    funext fun a => Fin.ext (by match a with | ⟨0, _⟩ => rfl)
  rw [val_main_v49_apply, val_main_v46_apply, val_main_v43_apply, val_main_v38_apply, val_main_v45_apply,
    val_main_v44_apply, val_main_v48_apply, val_main_v47_apply, mean_row', sd_row, h5, h6]
  simp only [Ideal.hostDivf_def, Ideal.addf_def, Ideal.subf_def, Ideal.mulf_def]
  rfl

/-! ## The second layer, one row at a time -/

/-- The reference's last stage at row `r`, column `j`: the positive part of the normalised row contracted with the
    second matrix, plus the second bias. -/
theorem out_row (x0 : (⟨S100000x128, .f32⟩ : BufTy).Contents (Elt Ideal)) (x1 : (⟨S400000x64, .f32⟩ : BufTy).Contents (Elt Ideal))
    (x2 : (⟨S2x400000, .i32⟩ : BufTy).Contents (Elt Ideal)) (x3 : (⟨S320x128, .f32⟩ : BufTy).Contents (Elt Ideal))
    (x4 : (⟨S128, .f32⟩ : BufTy).Contents (Elt Ideal)) (x5 x6 : (⟨S128, .f32⟩ : BufTy).Contents (Elt Ideal))
    (x7 : (⟨S128x128, .f32⟩ : BufTy).Contents (Elt Ideal)) (x8 : (⟨S128, .f32⟩ : BufTy).Contents (Elt Ideal))
    (r : Fin 800000) (j : Fin 128) :
    val_main_v54 (F := Ideal) x0 x1 x2 x3 x4 x5 x6 x7 x8 (ix2 r j)
      = denseAfterRelu (fun k => val_main_v49 (F := Ideal) x0 x1 x2 x3 x4 x5 x6 (ix2 r k)) (fun a k => x7 (ix2 a k)) (vec128 x8) j := by
  have hl : ∀ q : Fin 128, lidx_main_v51 (ix2 r j) q = ix2 r q := fun q =>
    funext fun a => Fin.ext (by match a with | ⟨0, _⟩ => rfl | ⟨1, _⟩ => rfl)
  have hr : ∀ q : Fin 128, ridx_main_v51 (ix2 r j) q = ix2 q j := fun q =>
    funext fun a => Fin.ext (by match a with | ⟨0, _⟩ => rfl | ⟨1, _⟩ => rfl)
  have h8 : idx_main_v52 (idx_main_v53 (ix2 r j)) = ix1 j :=
    funext fun a => Fin.ext (by match a with | ⟨0, _⟩ => rfl)
  rw [val_main_v54_apply, val_main_v51_apply, val_main_v53_apply, val_main_v52_apply, h8]
  simp only [hl, hr, val_main_v50_apply, val_main_call0_v0_apply, val_main_call0_cst_apply, Ideal.addf_def,
    Ideal.maximumf_def, Ideal.ofBits_def, Ideal.ofBits_zero_f32]
  rfl

/-- The reference's message stage is the message table of its two gathered tables and the doubled edge table. -/
theorem ref_msg (x0 : (⟨S100000x128, .f32⟩ : BufTy).Contents (Elt Ideal)) (x1 : (⟨S400000x64, .f32⟩ : BufTy).Contents (Elt Ideal))
    (x2 : (⟨S2x400000, .i32⟩ : BufTy).Contents (Elt Ideal)) (x3 : (⟨S320x128, .f32⟩ : BufTy).Contents (Elt Ideal))
    (x4 x5 x6 : (⟨S128, .f32⟩ : BufTy).Contents (Elt Ideal)) (x7 : (⟨S128x128, .f32⟩ : BufTy).Contents (Elt Ideal))
    (x8 : (⟨S128, .f32⟩ : BufTy).Contents (Elt Ideal)) :
    (val_main_v54 (F := Ideal) x0 x1 x2 x3 x4 x5 x6 x7 x8 : (⟨2, ![800000, 128]⟩ : Shape).Idx → EReal)
      = msgTable (R := 800000) (val_main_v13 (F := Ideal) x0 x2) (val_main_v20 (F := Ideal) x0 x2) (val_main_v6 (F := Ideal) x1)
          (rowBand 0 128 (by omega) x3) (rowBand 128 128 (by omega) x3) (rowBand 256 64 (by omega) x3)
          (vec128 x4) (vec128 x5) (vec128 x6) x7 (vec128 x8) := by
  funext i
  obtain ⟨r, j, rfl⟩ : ∃ (r : Fin 800000) (j : Fin 128), i = ix2 r j := ⟨i 0, i 1, eq_ix2 i⟩
  rw [out_row]
  show _ = denseAfterRelu
    (normByRsqrt (fun k => (((∑ a : Fin 128, val_main_v13 (F := Ideal) x0 x2 (ix2 r a) * rowBand 0 128 (by omega) x3 (ix2 a k))
        + ∑ a : Fin 128, val_main_v20 (F := Ideal) x0 x2 (ix2 r a) * rowBand 128 128 (by omega) x3 (ix2 a k))
        + ∑ a : Fin 64, val_main_v6 (F := Ideal) x1 (ix2 r a) * rowBand 256 64 (by omega) x3 (ix2 a k)) + vec128 x4 k) (vec128 x5) (vec128 x6))
    (fun a k => x7 (ix2 a k)) (vec128 x8) j
  have hp : (fun k => (((∑ a : Fin 128, val_main_v13 (F := Ideal) x0 x2 (ix2 r a) * rowBand 0 128 (by omega) x3 (ix2 a k))
        + ∑ a : Fin 128, val_main_v20 (F := Ideal) x0 x2 (ix2 r a) * rowBand 128 128 (by omega) x3 (ix2 a k))
        + ∑ a : Fin 64, val_main_v6 (F := Ideal) x1 (ix2 r a) * rowBand 256 64 (by omega) x3 (ix2 a k)) + vec128 x4 k)
      = pre x0 x1 x2 x3 x4 r := funext fun k => (pre_eq x0 x1 x2 x3 x4 r k).symm
  rw [hp]
  have hn : (fun k => val_main_v49 (F := Ideal) x0 x1 x2 x3 x4 x5 x6 (ix2 r k))
      = normByRsqrt (pre x0 x1 x2 x3 x4 r) (vec128 x5) (vec128 x6) := funext fun k => by
    rw [norm_row, normByRsqrt_eq_normBySqrt]
  rw [hn]

end Cert.RefMsg

end
-- ==== Proof.RefUpd.lean ====
/-
  The update half of the reference, stage by stage, as the update table.

  The reference joins a node row and an aggregated row into one row of 256 columns and contracts it with the
  whole first weight matrix: the sum over 256 columns is the sum over 0–127 and 128–255, the joined row being
  the node row on the first range and the aggregated row on the second, the matrix its two row bands. The
  normalisation divides by a square root, which is multiplying by the reciprocal square root because the shifted
  variance is positive. The node row is added to the second layer's output.
-/
import proofs.«423946_j67886253081357_1_alg».proof.Proof.RefStages
import proofs.«423946_j67886253081357_1_alg».proof.Proof.Bands
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.RefUpd

open Cert.ReferenceIdeal Cert.ReferenceIdeal.Stages Cert.LayerMath
open Idealize.ShloMosaic Idealize.ShloMosaic.TcCoe Idealize.ShloMosaic.ValueIdx Idealize.SL.Sem

section Stages

variable (x0 : (⟨S100000x128, .f32⟩ : BufTy).Contents (Elt Ideal)) (x1 : (⟨S400000x64, .f32⟩ : BufTy).Contents (Elt Ideal)) (x2 : (⟨S2x400000, .i32⟩ : BufTy).Contents (Elt Ideal)) (x3 : (⟨S320x128, .f32⟩ : BufTy).Contents (Elt Ideal)) (x4 x5 x6 : (⟨S128, .f32⟩ : BufTy).Contents (Elt Ideal)) (x7 : (⟨S128x128, .f32⟩ : BufTy).Contents (Elt Ideal)) (x8 : (⟨S128, .f32⟩ : BufTy).Contents (Elt Ideal))
  (x9 : (⟨S256x128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal))

/-! ## The index maps of the stages, at a row and a column -/

theorem lidx59 (r : Fin 100000) (k : Fin 128) (c : Fin 256) : lidx_main_v59 (ix2 r k) c = ix2 r c := funext fun a => Fin.ext (by match a with | ⟨0, _⟩ => rfl | ⟨1, _⟩ => rfl)
theorem ridx59 (r : Fin 100000) (k : Fin 128) (c : Fin 256) : ridx_main_v59 (ix2 r k) c = ix2 c k := funext fun a => Fin.ext (by match a with | ⟨0, _⟩ => rfl | ⟨1, _⟩ => rfl)
theorem idx6061 (r : Fin 100000) (k : Fin 128) : idx_main_v60 (idx_main_v61 (ix2 r k)) = ix1 k := funext fun a => Fin.ext (by match a with | ⟨0, _⟩ => rfl)
theorem idx6364 (r : Fin 100000) (z : Fin 1) (k : Fin 128) : idx_main_v63 (idx_main_v64 (ix2 r z)) k = ix2 r k := funext fun a => Fin.ext (by match a with | ⟨0, _⟩ => rfl | ⟨1, _⟩ => rfl)
theorem idx7071 (r : Fin 100000) (z : Fin 1) (k : Fin 128) : idx_main_v70 (idx_main_v71 (ix2 r z)) k = ix2 r k := funext fun a => Fin.ext (by match a with | ⟨0, _⟩ => rfl | ⟨1, _⟩ => rfl)
theorem idx67 (r : Fin 100000) (k : Fin 128) : idx_main_v67 (ix2 r k) = ix2 r (0 : Fin 1) := funext fun a => Fin.ext (by match a with | ⟨0, _⟩ => rfl | ⟨1, _⟩ => rfl)
theorem idx74 (r : Fin 100000) (k : Fin 128) : idx_main_v74 (ix2 r k) = ix2 r (0 : Fin 1) := funext fun a => Fin.ext (by match a with | ⟨0, _⟩ => rfl | ⟨1, _⟩ => rfl)
theorem idx79 (r : Fin 100000) (k : Fin 128) : idx_main_v79 (ix2 r k) = ix2 r (0 : Fin 1) := funext fun a => Fin.ext (by match a with | ⟨0, _⟩ => rfl | ⟨1, _⟩ => rfl)
theorem idx8182 (r : Fin 100000) (k : Fin 128) : idx_main_v81 (idx_main_v82 (ix2 r k)) = ix1 k := funext fun a => Fin.ext (by match a with | ⟨0, _⟩ => rfl)
theorem idx8485 (r : Fin 100000) (k : Fin 128) : idx_main_v84 (idx_main_v85 (ix2 r k)) = ix1 k := funext fun a => Fin.ext (by match a with | ⟨0, _⟩ => rfl)
theorem idx8990 (r : Fin 100000) (k : Fin 128) : idx_main_v89 (idx_main_v90 (ix2 r k)) = ix1 k := funext fun a => Fin.ext (by match a with | ⟨0, _⟩ => rfl)
theorem lidx88 (r : Fin 100000) (k : Fin 128) (c : Fin 128) : lidx_main_v88 (ix2 r k) c = ix2 r c := funext fun a => Fin.ext (by match a with | ⟨0, _⟩ => rfl | ⟨1, _⟩ => rfl)
theorem ridx88 (r : Fin 100000) (k : Fin 128) (c : Fin 128) : ridx_main_v88 (ix2 r k) c = ix2 c k := funext fun a => Fin.ext (by match a with | ⟨0, _⟩ => rfl | ⟨1, _⟩ => rfl)

/-! ## The joined row: the node row on columns 0–127, the aggregated row on columns 128–255 -/

theorem v58_left (r : Fin 100000) (a : Fin 128) :
    val_main_v58 (F := Ideal) x0 x1 x2 x3 x4 x5 x6 x7 x8 (ix2 r (⟨a.val, by have := a.isLt; omega⟩ : Fin 256)) = x0 (ix2 r a) := by
  unfold val_main_v58
  generalize val_main_v57 (F := Ideal) x0 x1 x2 x3 x4 x5 x6 x7 x8 = Y
  exact concatenate_pair_apply_left (1 : Fin 2) x0 Y Gen.concatenates_S100000x128_S100000x128_S100000x256_d1
    (ix2 r (⟨a.val, by have := a.isLt; omega⟩ : Fin 256)) rfl (ix2 r a)
    (fun b => match b with | ⟨0, _⟩ => rfl | ⟨1, _⟩ => rfl)

theorem v58_right (r : Fin 100000) (a : Fin 128) :
    val_main_v58 (F := Ideal) x0 x1 x2 x3 x4 x5 x6 x7 x8 (ix2 r (⟨128 + a.val, by have := a.isLt; omega⟩ : Fin 256)) = val_main_v57 (F := Ideal) x0 x1 x2 x3 x4 x5 x6 x7 x8 (ix2 r a) := by
  unfold val_main_v58
  generalize val_main_v57 (F := Ideal) x0 x1 x2 x3 x4 x5 x6 x7 x8 = Y
  exact concatenate_pair_apply_right (1 : Fin 2) x0 Y Gen.concatenates_S100000x128_S100000x128_S100000x256_d1
    (ix2 r (⟨128 + a.val, by have := a.isLt; omega⟩ : Fin 256)) rfl rfl (ix2 r a)
    (fun b hb => match b, hb with | ⟨0, _⟩, _ => rfl | ⟨1, _⟩, hb => absurd rfl hb)
    (by show a.val + 128 = 128 + a.val; omega)

/-- Rows 0–127 of the first weight matrix. -/
theorem band0 (W : S256x128.Idx → EReal) (a k : Fin 128) :
    rowBand 0 128 (by omega) W (ix2 a k) = W (ix2 (⟨a.val, by have := a.isLt; omega⟩ : Fin 256) k) := by
  rw [rowBand_apply]
  exact congrArg W (funext fun d => Fin.ext (by match d with | ⟨0, _⟩ => exact Nat.zero_add _ | ⟨1, _⟩ => rfl))

/-- Rows 128–255 of the first weight matrix. -/
theorem band128 (W : S256x128.Idx → EReal) (a k : Fin 128) :
    rowBand 128 128 (by omega) W (ix2 a k) = W (ix2 (⟨128 + a.val, by have := a.isLt; omega⟩ : Fin 256) k) :=
  rowBand_apply 128 128 (by omega) W a k

/-! ## The first layer at a row and a column -/

theorem v62_at (r : Fin 100000) (k : Fin 128) :
    val_main_v62 (F := Ideal) x0 x1 x2 x3 x4 x5 x6 x7 x8 x9 x10 (ix2 r k) = ((∑ a : Fin 128, x0 (ix2 r a) * rowBand 0 128 (by omega) x9 (ix2 a k)) + ∑ a : Fin 128, val_main_v57 (F := Ideal) x0 x1 x2 x3 x4 x5 x6 x7 x8 (ix2 r a) * rowBand 128 128 (by omega) x9 (ix2 a k)) + vec128 x10 k := by
  rw [val_main_v62_apply, val_main_v59_apply, val_main_v61_apply, val_main_v60_apply, Ideal.addf_def, sum_split_256]
  simp only [lidx59, ridx59, idx6061, v58_left, v58_right, band0, band128, vec128]

/-! ## The row mean and the row variance of the first layer -/

theorem v66_at (r : Fin 100000) (z : Fin 1) :
    val_main_v66 (F := Ideal) x0 x1 x2 x3 x4 x5 x6 x7 x8 x9 x10 (ix2 r z) = rowMean (fun k => val_main_v62 (F := Ideal) x0 x1 x2 x3 x4 x5 x6 x7 x8 x9 x10 (ix2 r k)) := by
  rw [val_main_v66_apply, val_main_v64_apply, val_main_v63_apply, val_main_v65_apply, val_main_cst_9_apply,
    val_main_cst_8_apply]
  simp only [Ideal.hostDivf_def, Ideal.ofBits_def, Ideal.ofBits_zero_f32, zero_add, idx6364, rowMean]

theorem v73_at (r : Fin 100000) (z : Fin 1) :
    val_main_v73 (F := Ideal) x0 x1 x2 x3 x4 x5 x6 x7 x8 x9 x10 (ix2 r z) = rowVar (fun k => val_main_v62 (F := Ideal) x0 x1 x2 x3 x4 x5 x6 x7 x8 x9 x10 (ix2 r k)) := by
  rw [val_main_v73_apply, val_main_v71_apply, val_main_v70_apply, val_main_v72_apply, val_main_cst_11_apply,
    val_main_cst_10_apply]
  simp only [val_main_v69_apply, val_main_v68_apply, val_main_v67_apply, Ideal.hostDivf_def, Ideal.mulf_def,
    Ideal.subf_def, Ideal.ofBits_def, Ideal.ofBits_zero_f32, zero_add, idx7071, idx67, v66_at, rowVar]

/-! ## The normalised row, by the square root -/

theorem v86_at (r : Fin 100000) (j : Fin 128) :
    val_main_v86 (F := Ideal) x0 x1 x2 x3 x4 x5 x6 x7 x8 x9 x10 x11 x12 (ix2 r j) = normBySqrt (fun k => val_main_v62 (F := Ideal) x0 x1 x2 x3 x4 x5 x6 x7 x8 x9 x10 (ix2 r k)) (vec128 x11) (vec128 x12) j := by
  rw [val_main_v86_apply, val_main_v83_apply, val_main_v80_apply, val_main_v75_apply, val_main_v74_apply,
    val_main_v79_apply, val_main_v78_apply, val_main_v77_apply, val_main_v76_apply, val_main_cst_12_apply,
    val_main_v82_apply, val_main_v81_apply, val_main_v85_apply, val_main_v84_apply]
  simp only [idx74, idx79, idx8182, idx8485, v66_at, v73_at, Ideal.addf_def, Ideal.subf_def, Ideal.mulf_def,
    Ideal.hostDivf_def, Ideal.hostUnary_sqrt_def, Ideal.ofBits_def, normBySqrt, vec128]

/-! ## The second layer -/

theorem v91_at (r : Fin 100000) (j : Fin 128) :
    val_main_v91 (F := Ideal) x0 x1 x2 x3 x4 x5 x6 x7 x8 x9 x10 x11 x12 x13 x14 (ix2 r j)
      = denseAfterRelu (fun k => val_main_v86 (F := Ideal) x0 x1 x2 x3 x4 x5 x6 x7 x8 x9 x10 x11 x12 (ix2 r k)) (fun a k => x13 (ix2 a k)) (vec128 x14) j := by
  rw [val_main_v91_apply, val_main_v88_apply, val_main_v90_apply, val_main_v89_apply]
  simp only [val_main_v87_apply, val_main_call1_v0_apply, val_main_call1_cst_apply, lidx88, ridx88, idx8990,
    Ideal.addf_def, Ideal.maximumf_def, Ideal.ofBits_def, Ideal.ofBits_zero_f32, denseAfterRelu, vec128]

end Stages

/-- The reference's result stage is the update table of the node table and its aggregated stage. -/
theorem ref_upd (x0 : (⟨S100000x128, .f32⟩ : BufTy).Contents (Elt Ideal)) (x1 : (⟨S400000x64, .f32⟩ : BufTy).Contents (Elt Ideal))
    (x2 : (⟨S2x400000, .i32⟩ : BufTy).Contents (Elt Ideal)) (x3 : (⟨S320x128, .f32⟩ : BufTy).Contents (Elt Ideal))
    (x4 x5 x6 : (⟨S128, .f32⟩ : BufTy).Contents (Elt Ideal)) (x7 : (⟨S128x128, .f32⟩ : BufTy).Contents (Elt Ideal))
    (x8 : (⟨S128, .f32⟩ : BufTy).Contents (Elt Ideal)) (x9 : (⟨S256x128, .f32⟩ : BufTy).Contents (Elt Ideal))
    (x10 x11 x12 : (⟨S128, .f32⟩ : BufTy).Contents (Elt Ideal)) (x13 : (⟨S128x128, .f32⟩ : BufTy).Contents (Elt Ideal))
    (x14 : (⟨S128, .f32⟩ : BufTy).Contents (Elt Ideal)) :
    (val_main_v92 (F := Ideal) x0 x1 x2 x3 x4 x5 x6 x7 x8 x9 x10 x11 x12 x13 x14 : (⟨2, ![100000, 128]⟩ : Shape).Idx → EReal)
      = updTable (R := 100000) x0 (val_main_v57 (F := Ideal) x0 x1 x2 x3 x4 x5 x6 x7 x8)
          (rowBand 0 128 (by omega) x9) (rowBand 128 128 (by omega) x9)
          (vec128 x10) (vec128 x11) (vec128 x12) x13 (vec128 x14) := by
  funext i
  obtain ⟨r, j, rfl⟩ : ∃ (r : Fin 100000) (j : Fin 128), i = ix2 r j := ⟨i 0, i 1, eq_ix2 i⟩
  -- the first layer's row, in the table's grouping
  have hrow : (fun k => val_main_v62 (F := Ideal) x0 x1 x2 x3 x4 x5 x6 x7 x8 x9 x10 (ix2 r k)) = (fun k => ((∑ a : Fin 128, x0 (ix2 r a) * rowBand 0 128 (by omega) x9 (ix2 a k)) + ∑ a : Fin 128, val_main_v57 (F := Ideal) x0 x1 x2 x3 x4 x5 x6 x7 x8 (ix2 r a) * rowBand 128 128 (by omega) x9 (ix2 a k)) + vec128 x10 k) :=
    funext fun k => v62_at x0 x1 x2 x3 x4 x5 x6 x7 x8 x9 x10 r k
  -- the normalised row: dividing by the square root is multiplying by the reciprocal square root
  have hnorm : (fun k => val_main_v86 (F := Ideal) x0 x1 x2 x3 x4 x5 x6 x7 x8 x9 x10 x11 x12 (ix2 r k))
      = normByRsqrt (fun k => ((∑ a : Fin 128, x0 (ix2 r a) * rowBand 0 128 (by omega) x9 (ix2 a k)) + ∑ a : Fin 128, val_main_v57 (F := Ideal) x0 x1 x2 x3 x4 x5 x6 x7 x8 (ix2 r a) * rowBand 128 128 (by omega) x9 (ix2 a k)) + vec128 x10 k) (vec128 x11) (vec128 x12) :=
    funext fun k => by rw [v86_at, hrow, normByRsqrt_eq_normBySqrt]
  rw [val_main_v92_apply, Ideal.addf_def, v91_at, hnorm]
  rfl

end Cert.RefUpd

end
-- ==== Proof.Bridge.lean ====
/-
  The kernel program's result is the reference's result stage of the same arguments, when every edge endpoint is
  a node index.

  Both programs compute, in order: a message table from two gathered tables and the doubled edge table; its
  scatter-add into a table of zeros at the segment ids; an update table from the node table and the aggregated
  table. The gathered tables, the edge table and the segment ids are equal as arrays (the guarded gather being
  the bare gather on in-range endpoints); each half is the same row-wise table of equal operands; the
  scatter-add is one function of the message table and the ids, applied on both sides to equal arguments.
-/
import proofs.«423946_j67886253081357_1_alg».proof.Proof.TakeTables
import proofs.«423946_j67886253081357_1_alg».proof.Proof.KernelMsg
import proofs.«423946_j67886253081357_1_alg».proof.Proof.KernelAgg
import proofs.«423946_j67886253081357_1_alg».proof.Proof.KernelUpd
import proofs.«423946_j67886253081357_1_alg».proof.Proof.RefMsg
import proofs.«423946_j67886253081357_1_alg».proof.Proof.RefUpd

set_option maxRecDepth 16384

noncomputable section

namespace Cert.Bridge

open Cert.KernelIdeal Cert.KernelIdeal.Gen Cert.KernelIdeal.Args Cert.LayerMath
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The kernel program's kept message rows are the reference's message stage. -/
theorem msg_eq (h : EndpointsInRange m c) :
    (W12 m ρ c (Proc.devRef .tc main_v20) : (⟨2, ![800000, 128]⟩ : Shape).Idx → EReal)
      = Cert.ReferenceIdeal.Stages.val_main_v54 (F := Ideal) (nodeFeats m c) (edgeFeats m c) (edgeIndex m c) (msgW1 m c)
          (msgB1 m c) (ln1G m c) (ln1B m c) (msgW2 m c) (msgB2 m c) := by
  rw [Cert.KernelMsg.kernel_msg m ρ c, Cert.RefMsg.ref_msg, Cert.TakeTables.source_table m ρ c h,
    Cert.TakeTables.target_table m ρ c h, Cert.TakeTables.edge_table m ρ c]

/-- The kernel program's aggregated table is the reference's aggregated stage. -/
theorem agg_eq (h : EndpointsInRange m c) :
    (W12 m ρ c (Proc.devRef .tc main_v23) : (⟨2, ![100000, 128]⟩ : Shape).Idx → EReal)
      = Cert.ReferenceIdeal.Stages.val_main_v57 (F := Ideal) (nodeFeats m c) (edgeFeats m c) (edgeIndex m c) (msgW1 m c)
          (msgB1 m c) (ln1G m c) (ln1B m c) (msgW2 m c) (msgB2 m c) := by
  rw [Cert.KernelAgg.kernel_agg m ρ c, msg_eq m ρ c h, Cert.TakeTables.target_ids m ρ c]
  rfl

/-- The kernel program's result is the reference's result stage. -/
theorem result_eq (h : EndpointsInRange m c) :
    (W18 m ρ c (Proc.devRef .tc main_v33) : (⟨2, ![100000, 128]⟩ : Shape).Idx → EReal)
      = Cert.ReferenceIdeal.Stages.val_main_v92 (F := Ideal) (nodeFeats m c) (edgeFeats m c) (edgeIndex m c) (msgW1 m c)
          (msgB1 m c) (ln1G m c) (ln1B m c) (msgW2 m c) (msgB2 m c) (updW1 m c) (updB1 m c) (ln2G m c) (ln2B m c)
          (updW2 m c) (updB2 m c) := by
  rw [Cert.KernelUpd.kernel_upd m ρ c, Cert.RefUpd.ref_upd, agg_eq m ρ c h]

end Cert.Bridge

end
-- ==== Proof.lean ====
/-
  One message-passing layer over a graph of 100000 nodes and 400000 edges, each edge used in both directions:
  every directed edge's message is a two-layer map (dense, row normalisation, positive part, dense) of its source
  row, its target row and its edge row; messages are summed at their target node; every node's row is updated by
  adding a second two-layer map of the row and the summed messages.

  One program gathers rows guarding the index (a row whose index falls outside the table is replaced by a fill
  word), runs each two-layer map as a kernel over blocks of 4096 rows of tables padded to a multiple of 4096, with
  the first dense layer split along the row bands of its weight matrix and the normalisation multiplying by a
  reciprocal square root; the other gathers bare, contracts the joined row with the whole matrix and divides by a
  square root. On the extended reals, with every edge endpoint a node index, the two compute one function:
  the guard never fires; a row of a padded table's image depends only on that row; a sum over joined columns is
  the sum of the sums over the bands; and the shifted variance is positive, where multiplying by the reciprocal
  square root is dividing by the square root. The scatter-add is the same function of equal arguments.

  The three frames are the generated ones (the reference's from its run); nothing was rewritten by the ideal pass.
-/
import proofs.«423946_j67886253081357_1_alg».proof.Defs
import proofs.«423946_j67886253081357_1_alg».proof.Proof.Gen.Kernel
import proofs.«423946_j67886253081357_1_alg».proof.Proof.Gen.Kernel.Frame
import proofs.«423946_j67886253081357_1_alg».proof.Proof.Gen.KernelIdeal
import proofs.«423946_j67886253081357_1_alg».proof.Proof.Gen.KernelIdeal.Frame
import proofs.«423946_j67886253081357_1_alg».proof.Proof.Gen.ReferenceIdeal
import proofs.«423946_j67886253081357_1_alg».proof.Proof.Gen.Pre_finite_inputs
import proofs.«423946_j67886253081357_1_alg».proof.Proof.KernelRun
import proofs.«423946_j67886253081357_1_alg».proof.Proof.RefRun
import proofs.«423946_j67886253081357_1_alg».proof.Proof.IndexRange
import proofs.«423946_j67886253081357_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.StagedRun.run (F := Ideal) m ρ)

/-- The ideal pass rewrote nothing: there is nothing to preserve. -/
theorem preserves : Cert.preserves_Kernel_KernelIdeal := trivial

/-- Both programs end, from memories that agree on the arguments, with the same result array: the kernel program's
    at what the fold of its host stretches and regions leaves in the result buffer, which is the reference's
    result stage of the arguments when the endpoints are node indices, as the precondition says they are. -/
theorem algebraic : Cert.algebraic_KernelIdeal_ReferenceIdeal := by
  intro m ρ m' ρ' hpre hagree
  refine ⟨fun c => Cert.KernelIdeal.Gen.W18 m ρ c (Proc.devRef .tc Cert.KernelIdeal.main_v33),
    Cert.KernelIdeal.NamedRun.run_named (F := Ideal) m ρ, ?_⟩
  refine (θ_run Cert.ReferenceIdeal.defs _ _).mono (fun _ h c => ⟨(h c).1.trans ?_, (h c).2⟩)
    (Cert.ReferenceIdeal.StagedRun.run (F := Ideal) m' ρ')
  obtain ⟨h0, h1, h2, h3, h4, h5, h6, h7, h8, h9, h10, h11, h12, h13, h14⟩ := hagree c
  refine Eq.trans ?_ (Cert.Bridge.result_eq m ρ c (Cert.IndexRange.endpoints_in_range m hpre c)).symm
  show Cert.ReferenceIdeal.Stages.val_main_v92 (F := Ideal) _ _ _ _ _ _ _ _ _ _ _ _ _ _ _ = _
  rw [h0, h1, h2, h3, h4, h5, h6, h7, h8, h9, h10, h11, h12, h13, h14]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
